-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S64x64 : Shape := ⟨2, ![64, 64]⟩
abbrev S64 : Shape := ⟨1, ![64]⟩
abbrev S1600000 : Shape := ⟨1, ![1600000]⟩
abbrev S_ : Shape := ⟨0, ![]⟩
abbrev S100000 : Shape := ⟨1, ![100000]⟩
abbrev S1600000x1 : Shape := ⟨2, ![1600000, 1]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S1600000 : S_.BroadcastsInDim S1600000 (![] : Fin 0 → Fin S1600000.rank)
  reducesTo_S1600000_S_d0 : S1600000.ReducesTo [0] S_
  bcast_S_S100000 : S_.BroadcastsInDim S100000 (![] : Fin 0 → Fin S100000.rank)
  bcast_S1600000_S1600000x1_0 : S1600000.BroadcastsInDim S1600000x1 (![0] : Fin 1 → Fin S1600000x1.rank)
  reducesTo_S100000_S_d0 : S100000.ReducesTo [0] S_
  scatter_S100000_S1600000x1_S1600000_n_0_0_1_wf : ScatterDims.WF S100000 S1600000x1 S1600000 [] [0] [0] 1

variable [Facts]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def fn_part1 {F : FTy → Type} [FloatOps F] (main_arg3 : IVec S1600000 32) (main_arg4 : IVec S1600000 32) (main_v13 : IVec S_ 1) (main_v15 : IVec S1600000 1) (main_c_5 : IVec S_ 1) : IVec S_ 1 :=
  let main_v16 : IVec S_ 1 := (fun x v => Host.reduce IntOp.andi x v reducesTo_S1600000_S_d0 h_S_) main_v15 main_c_5
  let main_v17 : IVec S_ 1 := andi main_v13 main_v16
  let main_c_6 : IVec S_ 32 := constantI S_ 32 100000#32
  let main_v18 : IVec S1600000 32 := broadcastInDim S1600000 ![] bcast_S_S1600000 main_c_6
  let main_v19 : IVec S1600000 1 := cmpi .slt main_arg3 main_v18
  let main_c_7 : IVec S_ 1 := constantI S_ 1 1#1
  let main_v20 : IVec S_ 1 := (fun x v => Host.reduce IntOp.andi x v reducesTo_S1600000_S_d0 h_S_) main_v19 main_c_7
  let main_v21 : IVec S_ 1 := andi main_v17 main_v20
  let main_cst_8 : FVec F S_ .f32 := constant S_ .f32 0x3F800000#32
  let main_v22 : FVec F S1600000 .f32 := broadcastInDim S1600000 ![] bcast_S_S1600000 main_cst_8
  let main_cst_9 : FVec F S_ .f32 := constant S_ .f32 0x00000000#32
  let main_v23 : FVec F S100000 .f32 := broadcastInDim S100000 ![] bcast_S_S100000 main_cst_9
  let main_v24 : IVec S1600000x1 32 := broadcastInDim S1600000x1 ![0] bcast_S1600000_S1600000x1_0 main_arg4
  let main_v25 : FVec F S100000 .f32 := (fun x i u => Host.scatterAdd scatter_S100000_S1600000x1_S1600000_n_0_0_1 x i u) main_v23 main_v24 main_v22
  let main_cst_10 : FVec F S_ .f32 := constant S_ .f32 0x00000000#32
  let main_v26 : FVec F S100000 .f32 := broadcastInDim S100000 ![] bcast_S_S100000 main_cst_10
  let main_v27 : IVec S100000 1 := cmpf .ogt main_v25 main_v26
  let main_c_11 : IVec S_ 1 := constantI S_ 1 1#1
  let main_v28 : IVec S_ 1 := (fun x v => Host.reduce IntOp.andi x v reducesTo_S100000_S_d0 h_S_) main_v27 main_c_11
  let main_v29 : IVec S_ 1 := andi main_v21 main_v28
  main_v29

def fn {F : FTy → Type} [FloatOps F] (main_arg0 : FVec F S100000x64 .f32) (main_arg1 : FVec F S64x64 .f32) (main_arg2 : FVec F S64 .f32) (main_arg3 : IVec S1600000 32) (main_arg4 : IVec S1600000 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg1
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_c_4 : IVec S_ 32 := constantI S_ 32 0#32
  let main_v14 : IVec S1600000 32 := broadcastInDim S1600000 ![] bcast_S_S1600000 main_c_4
  let main_v15 : IVec S1600000 1 := cmpi .sge main_arg3 main_v14
  let main_c_5 : IVec S_ 1 := constantI S_ 1 1#1
  fn_part1 (F := F) main_arg3 main_arg4 main_v13 main_v15 main_c_5
-- ==== Kernel.lean ====
abbrev S100000x64 : Shape := ⟨2, ![100000, 64]⟩
abbrev S64x64 : Shape := ⟨2, ![64, 64]⟩
abbrev S64 : Shape := ⟨1, ![64]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1601536 : Shape := ⟨1, ![1601536]⟩
abbrev S100352x64 : Shape := ⟨2, ![100352, 64]⟩
abbrev S100352 : Shape := ⟨1, ![100352]⟩
abbrev S100352x1 : Shape := ⟨2, ![100352, 1]⟩
abbrev S1601536x1 : Shape := ⟨2, ![1601536, 1]⟩
abbrev S1x1601536 : Shape := ⟨2, ![1, 1601536]⟩
abbrev S1x64 : Shape := ⟨2, ![1, 64]⟩
abbrev S1601536x64 : Shape := ⟨2, ![1601536, 64]⟩
abbrev S4096x1 : Shape := ⟨2, ![4096, 1]⟩
abbrev S1024x64 : Shape := ⟨2, ![1024, 64]⟩
abbrev S1024x1 : Shape := ⟨2, ![1024, 1]⟩
abbrev S4096x64 : Shape := ⟨2, ![4096, 64]⟩
abbrev S1x1024 : Shape := ⟨2, ![1, 1024]⟩
abbrev S4096x1024 : Shape := ⟨2, ![4096, 1024]⟩
abbrev S1x4096 : Shape := ⟨2, ![1, 4096]⟩
abbrev S1024x4096 : Shape := ⟨2, ![1024, 4096]⟩

abbrev nBuf : Space → Nat
  | .hbm => 35
  | .vmem => 20
  | .smem => 0
  | _ => 0

abbrev bufTy : (tb : Table) → Fin (tcTables nBuf tb) → BufTy
  | .hbm, ⟨0, _⟩ => ⟨S100000x64, .f32⟩
  | .hbm, ⟨1, _⟩ => ⟨S64x64, .f32⟩
  | .hbm, ⟨2, _⟩ => ⟨S64, .f32⟩
  | .hbm, ⟨3, _⟩ => ⟨S1600000, .i32⟩
  | .hbm, ⟨4, _⟩ => ⟨S1600000, .i32⟩
  | .hbm, ⟨5, _⟩ => ⟨S_, .f32⟩
  | .hbm, ⟨6, _⟩ => ⟨S1600000, .f32⟩
  | .hbm, ⟨7, _⟩ => ⟨S_, .f32⟩
  | .hbm, ⟨8, _⟩ => ⟨S100000, .f32⟩
  | .hbm, ⟨9, _⟩ => ⟨S1600000x1, .i32⟩
  | .hbm, ⟨10, _⟩ => ⟨S100000, .f32⟩
  | .hbm, ⟨11, _⟩ => ⟨S_, .f32⟩
  | .hbm, ⟨12, _⟩ => ⟨S100000, .f32⟩
  | .hbm, ⟨13, _⟩ => ⟨S100000, .f32⟩
  | .hbm, ⟨14, _⟩ => ⟨S100000, .f32⟩
  | .hbm, ⟨15, _⟩ => ⟨S_, .i32⟩
  | .hbm, ⟨16, _⟩ => ⟨S_, .i32⟩
  | .hbm, ⟨17, _⟩ => ⟨S1601536, .i32⟩
  | .hbm, ⟨18, _⟩ => ⟨S_, .i32⟩
  | .hbm, ⟨19, _⟩ => ⟨S_, .i32⟩
  | .hbm, ⟨20, _⟩ => ⟨S1601536, .i32⟩
  | .hbm, ⟨21, _⟩ => ⟨S_, .i32⟩
  | .hbm, ⟨22, _⟩ => ⟨S_, .f32⟩
  | .hbm, ⟨23, _⟩ => ⟨S100352x64, .f32⟩
  | .hbm, ⟨24, _⟩ => ⟨S_, .f32⟩
  | .hbm, ⟨25, _⟩ => ⟨S_, .f32⟩
  | .hbm, ⟨26, _⟩ => ⟨S100352, .f32⟩
  | .hbm, ⟨27, _⟩ => ⟨S100352x1, .f32⟩
  | .hbm, ⟨28, _⟩ => ⟨S1601536x1, .i32⟩
  | .hbm, ⟨29, _⟩ => ⟨S1x1601536, .i32⟩
  | .hbm, ⟨30, _⟩ => ⟨S64x64, .bf16⟩
  | .hbm, ⟨31, _⟩ => ⟨S1x64, .f32⟩
  | .hbm, ⟨32, _⟩ => ⟨S1601536x64, .bf16⟩
  | .hbm, ⟨33, _⟩ => ⟨S100352x64, .f32⟩
  | .hbm, ⟨34, _⟩ => ⟨S100000x64, .f32⟩
  | .local _ .vmem, ⟨0, _⟩ => ⟨S4096x1, .i32⟩
  | .local _ .vmem, ⟨1, _⟩ => ⟨S4096x1, .i32⟩
  | .local _ .vmem, ⟨2, _⟩ => ⟨S1024x64, .f32⟩
  | .local _ .vmem, ⟨3, _⟩ => ⟨S1024x64, .f32⟩
  | .local _ .vmem, ⟨4, _⟩ => ⟨S1024x1, .f32⟩
  | .local _ .vmem, ⟨5, _⟩ => ⟨S1024x1, .f32⟩
  | .local _ .vmem, ⟨6, _⟩ => ⟨S4096x64, .bf16⟩
  | .local _ .vmem, ⟨7, _⟩ => ⟨S4096x64, .bf16⟩
  | .local _ .vmem, ⟨8, _⟩ => ⟨S4096x64, .f32⟩
  | .local _ .vmem, ⟨9, _⟩ => ⟨S1x4096, .i32⟩
  | .local _ .vmem, ⟨10, _⟩ => ⟨S1x4096, .i32⟩
  | .local _ .vmem, ⟨11, _⟩ => ⟨S4096x64, .bf16⟩
  | .local _ .vmem, ⟨12, _⟩ => ⟨S4096x64, .bf16⟩
  | .local _ .vmem, ⟨13, _⟩ => ⟨S1024x1, .f32⟩
  | .local _ .vmem, ⟨14, _⟩ => ⟨S1024x1, .f32⟩
  | .local _ .vmem, ⟨15, _⟩ => ⟨S64x64, .bf16⟩
  | .local _ .vmem, ⟨16, _⟩ => ⟨S1x64, .f32⟩
  | .local _ .vmem, ⟨17, _⟩ => ⟨S1024x64, .f32⟩
  | .local _ .vmem, ⟨18, _⟩ => ⟨S1024x64, .f32⟩
  | .local _ .vmem, ⟨19, _⟩ => ⟨S1024x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c : Ref sig .tc := ⟨.hbm, 15, rfl⟩
abbrev main_call0_v0 : Ref sig .tc := ⟨.hbm, 16, rfl⟩
abbrev main_v7 : Ref sig .tc := ⟨.hbm, 17, rfl⟩
abbrev main_c_2 : Ref sig .tc := ⟨.hbm, 18, rfl⟩
abbrev main_call1_v0 : Ref sig .tc := ⟨.hbm, 19, rfl⟩
abbrev main_v8 : Ref sig .tc := ⟨.hbm, 20, rfl⟩
abbrev main_c_3 : Ref sig .tc := ⟨.hbm, 21, rfl⟩
abbrev main_call2_v0 : Ref sig .tc := ⟨.hbm, 22, rfl⟩
abbrev main_v9 : Ref sig .tc := ⟨.hbm, 23, rfl⟩
abbrev main_cst_4 : Ref sig .tc := ⟨.hbm, 24, rfl⟩
abbrev main_call3_v0 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg5_1 : Ref sig .tc := ⟨.vmem, 18, rfl⟩
abbrev cc1_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨2, ![391, 98], ![false, false]⟩

def k0_cond2 (i : grid0.Coords) : BitVec 1 :=
  let arg1 : BitVec 32 := BitVec.ofNat 32 (i 1).val
  let c97_i32 : BitVec 32 := 97#32
  let v28 : BitVec 1 := Scalar.cmpi .eq arg1 c97_i32
  let v29 : BitVec 32 := Scalar.extui v28
  let c0_i32_10 : BitVec 32 := 0#32
  let v30 : BitVec 1 := Scalar.cmpi .ne v29 c0_i32_10
  v30

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S4096x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S4096x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![98, 391], ![false, false]⟩

def k1_cond2 (i : grid1.Coords) : BitVec 1 :=
  let arg1 : BitVec 32 := BitVec.ofNat 32 (i 1).val
  let c390_i32 : BitVec 32 := 390#32
  let v23 : BitVec 1 := Scalar.cmpi .eq arg1 c390_i32
  let v24 : BitVec 32 := Scalar.extui v23
  let c0_i32_8 : BitVec 32 := 0#32
  let v25 : BitVec 1 := Scalar.cmpi .ne v24 c0_i32_8
  v25

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1x4096 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S4096x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 1 → Memref sig .tc .vmem S64x64 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S1024x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  pads_S1600000_S1601536_015360 : S1600000.Pads (![0] : Fin 1 → Nat) ![1536] ![0] S1601536
  h_S_ : 0 < S_.numel
  pads_S100000x64_S100352x64_03520_000 : S100000x64.Pads (![0, 0] : Fin 2 → Nat) ![352, 0] ![0, 0] S100352x64
  pads_S100000_S100352_03520 : S100000.Pads (![0] : Fin 1 → Nat) ![352] ![0] S100352
  shapeCasts_S100352_S100352x1 : S100352.ShapeCasts S100352x1
  shapeCasts_S1601536_S1601536x1 : S1601536.ShapeCasts S1601536x1
  shapeCasts_S1601536_S1x1601536 : S1601536.ShapeCasts S1x1601536
  bitsLt_bf16_f32 : FTy.bits .bf16 < FTy.bits .f32
  shapeCasts_S64_S1x64 : S64.ShapeCasts S1x64
  inb_S4096x64_S4096x64_0_0 : ∀ a, (![0, 0] : Fin 2 → Nat) a + S4096x64.size a ≤ S4096x64.size a
  h_S4096x64 : 0 < S4096x64.numel
  shapeCasts_S4096x64_S4096x64 : S4096x64.ShapeCasts S4096x64
  inb_S4096x1_S4096x1_0_0 : ∀ a, (![0, 0] : Fin 2 → Nat) a + S4096x1.size a ≤ S4096x1.size a
  h_S4096x1 : 0 < S4096x1.numel
  shapeCasts_S4096x1_S4096x1 : S4096x1.ShapeCasts S4096x1
  iota_S1x1024_d1_w32 : S1x1024.Iotas .tc 32 [1]
  broadcasts_S4096x1_S4096x1024 : S4096x1.Broadcasts S4096x1024
  broadcasts_S1x1024_S4096x1024 : S1x1024.Broadcasts S4096x1024
  natLt_1_32 : 1 < 32
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  broadcasts_S1024x1_S1024x64 : S1024x1.Broadcasts S1024x64
  packedbf16_S4096x64_S4096x64_0_0 : (Rect.unit (s := S4096x64) ![0, 0] S4096x64.size inb_S4096x64_S4096x64_0_0).PackedRows (EltTy.packing .bf16)
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  iota_S1024x1_d0_w32 : S1024x1.Iotas .tc 32 [0]
  broadcasts_S1024x1_S1024x4096 : S1024x1.Broadcasts S1024x4096
  broadcasts_S1x4096_S1024x4096 : S1x4096.Broadcasts S1024x4096
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S1024x64 : S1x64.Broadcasts S1024x64
  slices_S100352x64_S100000x64_0_0 : S100352x64.Slices ![0, 0] S100000x64
  scatter_S100000_S1600000x1_S1600000_n_0_0_1_wf : ScatterDims.WF S100000 S1600000x1 S1600000 [] [0] [0] 1
  dot_S4096x1024_S1024x64_S4096x64_1_0_0_1_n_n_wf : DotDims.WF S4096x1024 S1024x64 S4096x64 [1] [0] [0] [1] [] []
  dot_S1024x4096_S4096x64_S1024x64_1_0_0_1_n_n_wf : DotDims.WF S1024x4096 S4096x64 S1024x64 [1] [0] [0] [1] [] []
  dot_S1024x64_S64x64_S1024x64_1_0_0_1_n_n_wf : DotDims.WF S1024x64 S64x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x1.size a ≤ S1601536x1.size a
  hwx0_0 : ∀ i : grid0.Coords, EltTy.bits .i32 = 32 ∨ (Rect.block (s := S1601536x1) S4096x1.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x64.size a ≤ S100352x64.size a
  hwx0_1 : ∀ i : grid0.Coords, EltTy.bits .f32 = 32 ∨ (Rect.block (s := S100352x64) S1024x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S100352x1.size a
  hwx0_2 : ∀ i : grid0.Coords, EltTy.bits .f32 = 32 ∨ (Rect.block (s := S100352x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x64.size a ≤ S1601536x64.size a
  hwx0_3 : ∀ i : grid0.Coords, EltTy.bits .bf16 = 32 ∨ (Rect.block (s := S1601536x64) S4096x64.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x4096.size a ≤ S1x1601536.size a
  hwx1_0 : ∀ i : grid1.Coords, EltTy.bits .i32 = 32 ∨ (Rect.block (s := S1x1601536) S1x4096.size (cc1_transform_0 i) (hinb1_0 i)).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096x64.size a ≤ S1601536x64.size a
  hwx1_1 : ∀ i : grid1.Coords, EltTy.bits .bf16 = 32 ∨ (Rect.block (s := S1601536x64) S4096x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1.size a ≤ S100352x1.size a
  hwx1_2 : ∀ i : grid1.Coords, EltTy.bits .f32 = 32 ∨ (Rect.block (s := S100352x1) S1024x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .bf16 = 32 ∨ (Rect.block (s := S64x64) S64x64.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1024x64.size a ≤ S100352x64.size a
  hwx1_5 : ∀ i : grid1.Coords, EltTy.bits .f32 = 32 ∨ (Rect.block (s := S100352x64) S1024x64.size (cc1_transform_5 i) (hinb1_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S4096x1024_S1024x64_S4096x64_1_0_0_1_n_n : DotDims S4096x1024 S1024x64 S4096x64 where
  lhsContracting := [1]
  rhsContracting := [0]
  lhsNonContracting := [0]
  rhsNonContracting := [1]
  lhsBatch := []
  rhsBatch := []
  wf := dot_S4096x1024_S1024x64_S4096x64_1_0_0_1_n_n_wf
def dot_S1024x4096_S4096x64_S1024x64_1_0_0_1_n_n : DotDims S1024x4096 S4096x64 S1024x64 where
  lhsContracting := [1]
  rhsContracting := [0]
  lhsNonContracting := [0]
  rhsNonContracting := [1]
  lhsBatch := []
  rhsBatch := []
  wf := dot_S1024x4096_S4096x64_S1024x64_1_0_0_1_n_n_wf
def dot_S1024x64_S64x64_S1024x64_1_0_0_1_n_n : DotDims S1024x64 S64x64 S1024x64 where
  lhsContracting := [1]
  rhsContracting := [0]
  lhsNonContracting := [0]
  rhsNonContracting := [1]
  lhsBatch := []
  rhsBatch := []
  wf := dot_S1024x64_S64x64_S1024x64_1_0_0_1_n_n_wf

abbrev win0_0 : Pipeline.Window sig grid0 :=
  Pipeline.Window.ofSpec (Memref.whole main_v12) S4096x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S1024x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S4096x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v13) S1x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v16) S4096x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11) S1024x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v14) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v15) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v17) S1024x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun _ => false | 5 => fun i => !(k1_cond2 i == 1#1) | ⟨_ + 6, h⟩ => absurd h (Nat.not_lt.2 (Nat.le_add_left _ _))

class Facts : Prop extends Facts₀ where

variable [Facts]
-- ==== ReferenceIdeal.lean ====
abbrev S100000x64 : Shape := ⟨2, ![100000, 64]⟩
abbrev S64x64 : Shape := ⟨2, ![64, 64]⟩
abbrev S64 : Shape := ⟨1, ![64]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x64 : Shape := ⟨2, ![1600000, 64]⟩
abbrev S1x64 : Shape := ⟨2, ![1, 64]⟩

abbrev nBuf : Space → Nat
  | .hbm => 38
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S64x64, .f32⟩
  | .hbm, ⟨2, _⟩ => ⟨S64, .f32⟩
  | .hbm, ⟨3, _⟩ => ⟨S1600000, .i32⟩
  | .hbm, ⟨4, _⟩ => ⟨S1600000, .i32⟩
  | .hbm, ⟨5, _⟩ => ⟨S_, .f32⟩
  | .hbm, ⟨6, _⟩ => ⟨S1600000, .f32⟩
  | .hbm, ⟨7, _⟩ => ⟨S_, .f32⟩
  | .hbm, ⟨8, _⟩ => ⟨S100000, .f32⟩
  | .hbm, ⟨9, _⟩ => ⟨S1600000x1, .i32⟩
  | .hbm, ⟨10, _⟩ => ⟨S100000, .f32⟩
  | .hbm, ⟨11, _⟩ => ⟨S100000, .f32⟩
  | .hbm, ⟨12, _⟩ => ⟨S100000x1, .f32⟩
  | .hbm, ⟨13, _⟩ => ⟨S100000x64, .f32⟩
  | .hbm, ⟨14, _⟩ => ⟨S100000x64, .f32⟩
  | .hbm, ⟨15, _⟩ => ⟨S_, .i32⟩
  | .hbm, ⟨16, _⟩ => ⟨S1600000, .i32⟩
  | .hbm, ⟨17, _⟩ => ⟨S1600000, .i1⟩
  | .hbm, ⟨18, _⟩ => ⟨S_, .i32⟩
  | .hbm, ⟨19, _⟩ => ⟨S1600000, .i32⟩
  | .hbm, ⟨20, _⟩ => ⟨S1600000, .i32⟩
  | .hbm, ⟨21, _⟩ => ⟨S1600000, .i32⟩
  | .hbm, ⟨22, _⟩ => ⟨S1600000x1, .i32⟩
  | .hbm, ⟨23, _⟩ => ⟨S1600000x64, .f32⟩
  | .hbm, ⟨24, _⟩ => ⟨S_, .f32⟩
  | .hbm, ⟨25, _⟩ => ⟨S100000x64, .f32⟩
  | .hbm, ⟨26, _⟩ => ⟨S1600000x1, .i32⟩
  | .hbm, ⟨27, _⟩ => ⟨S100000x64, .f32⟩
  | .hbm, ⟨28, _⟩ => ⟨S100000x1, .f32⟩
  | .hbm, ⟨29, _⟩ => ⟨S100000x64, .f32⟩
  | .hbm, ⟨30, _⟩ => ⟨S100000x64, .f32⟩
  | .hbm, ⟨31, _⟩ => ⟨S100000x64, .f32⟩
  | .hbm, ⟨32, _⟩ => ⟨S1x64, .f32⟩
  | .hbm, ⟨33, _⟩ => ⟨S100000x64, .f32⟩
  | .hbm, ⟨34, _⟩ => ⟨S100000x64, .f32⟩
  | .hbm, ⟨35, _⟩ => ⟨S_, .f32⟩
  | .hbm, ⟨36, _⟩ => ⟨S100000x64, .f32⟩
  | .hbm, ⟨37, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c : Ref sig .tc := ⟨.hbm, 15, rfl⟩
abbrev main_v8 : Ref sig .tc := ⟨.hbm, 16, rfl⟩
abbrev main_v9 : Ref sig .tc := ⟨.hbm, 17, rfl⟩
abbrev main_c_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_call0_cst : Ref sig .tc := ⟨.hbm, 35, rfl⟩
abbrev main_call0_v0 : Ref sig .tc := ⟨.hbm, 36, rfl⟩
abbrev main_v25 : Ref sig .tc := ⟨.hbm, 37, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1600000x1_S1600000_n_0_0_1_wf : ScatterDims.WF S100000 S1600000x1 S1600000 [] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.GatherDefs.lean ====
/-
  The gather launch (the program's first kernel region), its proof data.

  Grid point t = 98·e + k: edge tile e (4096 edges), node tile k (1024 nodes). The kernel keeps a 4096×64
  accumulator in scratch: zeroed when k = 0, then at every point increased by the product of the one-hot mask
  (edge's source id = node id) with the node tile's rows scaled by the inverse square-root degree; at k = 97 the
  accumulator is written to the output block e. `acc0` is the accumulator after the body at a point, by recursion
  on the point; the output window's staging buffer after the body is the accumulator's format change.
-/
import proofs.«407817_j53334903882610_2_alg».proof.Proof.Gen.KernelIdeal.Launch
import proofs.«407817_j53334903882610_2_alg».proof.Proof.Gen.KernelIdeal.Skeleton
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The accumulator scratch after the body at point `n`: the point's contribution added to zero when the point
    opens an edge tile (n ≡ 0 mod 98), else to what the point before left. -/
def acc0 (c : Dev nD) : (n : ℕ) → n < cfg0.N → Vec F S4096x64 .f32
  | 0, h => k0_pay2 (grid0.coords ⟨0, h⟩) (iblk0 V c 0 ⟨0, h⟩) (iblk0 V c 1 ⟨0, h⟩) (iblk0 V c 2 ⟨0, h⟩) (k0_pay1 (F := F))
  | n + 1, h => k0_pay2 (grid0.coords ⟨n + 1, h⟩) (iblk0 V c 0 ⟨n + 1, h⟩) (iblk0 V c 1 ⟨n + 1, h⟩) (iblk0 V c 2 ⟨n + 1, h⟩)
      (if (n + 1) % 98 = 0 then (k0_pay1 (F := F)) else acc0 c n (Nat.lt_of_succ_lt h))

theorem acc0_zero (c : Dev nD) (t : Fin cfg0.N) (h0 : t.val % 98 = 0) :
    acc0 V c t.val t.isLt = k0_pay2 (grid0.coords t) (iblk0 V c 0 t) (iblk0 V c 1 t) (iblk0 V c 2 t) (k0_pay1 (F := F)) := by
  obtain ⟨n, hn⟩ := t
  cases n with
  | zero => rfl
  | succ n => simp only [acc0]; rw [if_pos h0]

theorem acc0_succ (c : Dev nD) (t : Fin cfg0.N) (h0 : ¬ t.val % 98 = 0) :
    acc0 V c t.val t.isLt = k0_pay2 (grid0.coords t) (iblk0 V c 0 t) (iblk0 V c 1 t) (iblk0 V c 2 t)
      (acc0 V c (t.val - 1) (Nat.lt_of_le_of_lt (Nat.sub_le _ _) t.isLt)) := by
  obtain ⟨n, hn⟩ := t
  cases n with
  | zero => exact absurd (Nat.zero_mod _) h0
  | succ n => simp only [acc0]; rw [if_neg h0]; rfl

/-- The scratch operand as a memref. -/
abbrev scM0 : Memref sig .tc .vmem S4096x64 .f32 := Memref.whole cc0_scratch0

end Cert.KernelIdeal.Hand

end
-- ==== Proof.Schedule.lean ====
/-
  The two launches' schedules in closed form. The gather launch runs its 391 × 98 grid row-major: point t is edge
  tile t / 98 and node tile t % 98; its output block index is the edge tile, so the block is written back exactly
  at the points t % 98 = 97, and the body stores into it exactly there. The scatter launch runs its 98 × 391 grid
  likewise: point t is node tile t / 391 and edge tile t % 391, its output written back and stored exactly at
  t % 391 = 390. The accumulators are reset exactly at t % 98 = 0 and t % 391 = 0.
-/
import proofs.«407817_j53334903882610_2_alg».proof.Proof.Gen.KernelIdeal.Launch
import proofs.«407817_j53334903882610_2_alg».proof.Proof.Gen.KernelIdeal.Skeleton
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## Arithmetic of the two grids -/

theorem grid0_N : grid0.N = 38318 := by decide
theorem grid0_stride0 : grid0.stride 0 = 98 := by decide
theorem grid0_stride1 : grid0.stride 1 = 1 := by decide
theorem grid1_N : grid1.N = 38318 := by decide
theorem grid1_stride0 : grid1.stride 0 = 391 := by decide
theorem grid1_stride1 : grid1.stride 1 = 1 := by decide

theorem t0_lt (t : Fin cfg0.N) : t.val < 38318 := by
  have h := t.isLt
  have : cfg0.N = 38318 := grid0_N
  omega

theorem t1_lt (t : Fin cfg1.N) : t.val < 38318 := by
  have h := t.isLt
  have : cfg1.N = 38318 := grid1_N
  omega

/-- The kernel's test "coordinate = constant", on numbers below 2^32, is the equality of the numbers. -/
theorem cond_eq_iff (k c : Nat) (hk : k < 2 ^ 32) (hc : c < 2 ^ 32) :
    Scalar.cmpi .ne (Scalar.extui (Scalar.cmpi .eq (BitVec.ofNat 32 k) (BitVec.ofNat 32 c)) : BitVec 32) 0#32 = 1#1 ↔ k = c := by
  by_cases h : k = c
  · subst h
    simp only [iff_true]
    have : Scalar.cmpi .eq (BitVec.ofNat 32 k) (BitVec.ofNat 32 k) = 1#1 := by
      simp [Scalar.cmpi, IntOp.cmpi]
    rw [this]; decide
  · have hne : BitVec.ofNat 32 k ≠ BitVec.ofNat 32 c := by
      intro he
      have := congrArg BitVec.toNat he
      simp only [BitVec.toNat_ofNat] at this
      rw [Nat.mod_eq_of_lt hk, Nat.mod_eq_of_lt hc] at this
      exact h this
    have : Scalar.cmpi .eq (BitVec.ofNat 32 k) (BitVec.ofNat 32 c) = 0#1 := by
      have hb : (BitVec.ofNat 32 k == BitVec.ofNat 32 c) = false := beq_eq_false_iff_ne.mpr hne
      simp only [Scalar.cmpi, IntOp.cmpi, hb]
      rfl
    rw [this]
    simp only [h, iff_false]
    decide

/-! ## The gather launch -/

/-- The current staging memref of each window at point `t`. -/
abbrev st0_0 (t : Fin cfg0.N) := (cfg0.win 0).stage (cfg0.slots t 0)
abbrev st0_1 (t : Fin cfg0.N) := (cfg0.win 1).stage (cfg0.slots t 1)
abbrev st0_2 (t : Fin cfg0.N) := (cfg0.win 2).stage (cfg0.slots t 2)
abbrev st0_3 (t : Fin cfg0.N) := (cfg0.win 3).stage (cfg0.slots t 3)

/-- The kernel body at point `t`, on what the pipeline calls it with. -/
abbrev bodyAt0 (t : Fin cfg0.N) : Prog (TpuEff nD τ sig (Elt F) Λ₀ .tc) PUnit :=
  cc0__gather_kernel (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (Memref.whole cc0_scratch0) (Memref.isWhole_whole _)

/-- Point `t`'s node tile. -/
theorem coords0_k (t : Fin cfg0.N) : ((grid0.coords t) 1).val = t.val % 98 := by
  show t.val / grid0.stride 1 % 98 = t.val % 98
  rw [grid0_stride1, Nat.div_one]

/-- Point `t`'s edge tile. -/
theorem coords0_e (t : Fin cfg0.N) : ((grid0.coords t) 0).val = t.val / 98 := by
  show t.val / grid0.stride 0 % 391 = t.val / 98
  rw [grid0_stride0]
  have := t0_lt t
  omega

/-- The accumulator is reset exactly at the first node tile. -/
theorem cond0_first (t : Fin cfg0.N) :
    Scalar.cmpi .ne (Scalar.extui (Scalar.cmpi .eq (BitVec.ofNat 32 ((grid0.coords t) 1).val) 0#32) : BitVec 32) 0#32 = 1#1 ↔ t.val % 98 = 0 := by
  rw [coords0_k]
  exact cond_eq_iff (t.val % 98) 0 (by omega) (by omega)

/-- The output block is stored exactly at the last node tile. -/
theorem cond0_last (t : Fin cfg0.N) : k0_cond2 (grid0.coords t) = 1#1 ↔ t.val % 98 = 97 := by
  unfold k0_cond2
  simp only []
  rw [coords0_k]
  exact cond_eq_iff (t.val % 98) 97 (by omega) (by omega)

/-- The output window's block index at point `t` is its edge tile. -/
theorem index0_3 (t : Fin cfg0.N) : win0_3.index t = ![t.val / 98, 0] := by
  show cc0_transform_3 (grid0.coords t) = _
  unfold cc0_transform_3
  simp only []
  rw [coords0_e, BitVec.toNat_ofNat, Nat.mod_eq_of_lt (by have := t0_lt t; omega)]
  rfl

/-- The output block is written back exactly at the last node tile. -/
theorem flush0_3 (t : Fin cfg0.N) : (cfg0.win 3).flush t = true ↔ t.val % 98 = 97 := by
  show win0_3.flush t = true ↔ _
  unfold Window.flush
  have hout : win0_3.isOut = true := rfl
  have hN : grid0.N = 38318 := grid0_N
  have ht := t0_lt t
  rw [hout, Bool.true_and, Bool.or_eq_true, decide_eq_true_eq, decide_eq_true_eq]
  constructor
  · rintro (h | ⟨h, hne⟩)
    · omega
    · by_contra hk
      apply hne
      rw [index0_3, index0_3]
      have : (t.val + 1) / 98 = t.val / 98 := by omega
      show ![(t.val + 1) / 98, 0] = _
      rw [this]
  · intro hk
    by_cases hl : t.val + 1 = grid0.N
    · exact Or.inl hl
    · refine Or.inr ⟨by omega, ?_⟩
      rw [index0_3, index0_3]
      intro he
      have := congrFun he 0
      simp only [Matrix.cons_val_zero] at this
      omega

/-- The output window is idle exactly off the last node tile. -/
theorem idle0_3 (t : Fin cfg0.N) : cfg0.idle 3 (cfg0.grid.coords t) = true ↔ ¬ t.val % 98 = 97 := by
  show (!(k0_cond2 (grid0.coords t) == 1#1)) = true ↔ _
  rw [← cond0_last]
  simp

/-! ## The scatter launch -/

abbrev st1_0 (t : Fin cfg1.N) := (cfg1.win 0).stage (cfg1.slots t 0)
abbrev st1_1 (t : Fin cfg1.N) := (cfg1.win 1).stage (cfg1.slots t 1)
abbrev st1_2 (t : Fin cfg1.N) := (cfg1.win 2).stage (cfg1.slots t 2)
abbrev st1_3 (t : Fin cfg1.N) := (cfg1.win 3).stage (cfg1.slots t 3)
abbrev st1_4 (t : Fin cfg1.N) := (cfg1.win 4).stage (cfg1.slots t 4)
abbrev st1_5 (t : Fin cfg1.N) := (cfg1.win 5).stage (cfg1.slots t 5)

abbrev bodyAt1 (t : Fin cfg1.N) : Prog (TpuEff nD τ sig (Elt F) Λ₀ .tc) PUnit :=
  cc1__scatter_kernel (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (win1_4.stage (cfg1.slots t 4)) (hstage1_4 ((cfg1.slots t 4).cast nbuf1_4)) (win1_5.stage (cfg1.slots t 5)) (hstage1_5 ((cfg1.slots t 5).cast nbuf1_5)) (Memref.whole cc1_scratch0) (Memref.isWhole_whole _)

/-- Point `t`'s edge tile. -/
theorem coords1_e (t : Fin cfg1.N) : ((grid1.coords t) 1).val = t.val % 391 := by
  show t.val / grid1.stride 1 % 391 = t.val % 391
  rw [grid1_stride1, Nat.div_one]

/-- Point `t`'s node tile. -/
theorem coords1_n (t : Fin cfg1.N) : ((grid1.coords t) 0).val = t.val / 391 := by
  show t.val / grid1.stride 0 % 98 = t.val / 391
  rw [grid1_stride0]
  have := t1_lt t
  omega

theorem cond1_first (t : Fin cfg1.N) :
    Scalar.cmpi .ne (Scalar.extui (Scalar.cmpi .eq (BitVec.ofNat 32 ((grid1.coords t) 1).val) 0#32) : BitVec 32) 0#32 = 1#1 ↔ t.val % 391 = 0 := by
  rw [coords1_e]
  exact cond_eq_iff (t.val % 391) 0 (by omega) (by omega)

theorem cond1_last (t : Fin cfg1.N) : k1_cond2 (grid1.coords t) = 1#1 ↔ t.val % 391 = 390 := by
  unfold k1_cond2
  simp only []
  rw [coords1_e]
  exact cond_eq_iff (t.val % 391) 390 (by omega) (by omega)

/-- The output window's block index at point `t` is its node tile. -/
theorem index1_5 (t : Fin cfg1.N) : win1_5.index t = ![t.val / 391, 0] := by
  show cc1_transform_5 (grid1.coords t) = _
  unfold cc1_transform_5
  simp only []
  rw [coords1_n, BitVec.toNat_ofNat, Nat.mod_eq_of_lt (by have := t1_lt t; omega)]
  rfl

theorem flush1_5 (t : Fin cfg1.N) : (cfg1.win 5).flush t = true ↔ t.val % 391 = 390 := by
  show win1_5.flush t = true ↔ _
  unfold Window.flush
  have hout : win1_5.isOut = true := rfl
  have hN : grid1.N = 38318 := grid1_N
  have ht := t1_lt t
  rw [hout, Bool.true_and, Bool.or_eq_true, decide_eq_true_eq, decide_eq_true_eq]
  constructor
  · rintro (h | ⟨h, hne⟩)
    · omega
    · by_contra hk
      apply hne
      rw [index1_5, index1_5]
      have : (t.val + 1) / 391 = t.val / 391 := by omega
      show ![(t.val + 1) / 391, 0] = _
      rw [this]
  · intro hk
    by_cases hl : t.val + 1 = grid1.N
    · exact Or.inl hl
    · refine Or.inr ⟨by omega, ?_⟩
      rw [index1_5, index1_5]
      intro he
      have := congrFun he 0
      simp only [Matrix.cons_val_zero] at this
      omega

theorem idle1_5 (t : Fin cfg1.N) : cfg1.idle 5 (cfg1.grid.coords t) = true ↔ ¬ t.val % 391 = 390 := by
  show (!(k1_cond2 (grid1.coords t) == 1#1)) = true ↔ _
  rw [← cond1_last]
  simp

end Cert.KernelIdeal.Hand

end
-- ==== Proof.Gather.lean ====
/-
  The gather launch: what its body does at each grid point, and the launch's proof data.

  At every point the body adds to the accumulator scratch the product of the one-hot mask of the point's edge tile
  against the point's node tile with that node tile's scaled rows; it first zeroes the accumulator at the points
  that open an edge tile, and stores the accumulator's format change into the output block at the points that
  close one. Between points the accumulator holds `acc0`; the output window is idle off the closing points.
-/
import proofs.«407817_j53334903882610_2_alg».proof.Proof.Gen.KernelIdeal.Launch
import proofs.«407817_j53334903882610_2_alg».proof.Proof.Gen.KernelIdeal.Skeleton
import proofs.«407817_j53334903882610_2_alg».proof.Proof.GatherDefs
import proofs.«407817_j53334903882610_2_alg».proof.Proof.Schedule
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the launch's invariant holds besides the accumulator scratch: the core's other scoped buffers, each whole at
    some contents, and the generator register at some state. -/
def Rest0 (c : Dev nD) : sProp 𝕄 :=
  iprop(((∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg1_1), ((c : Thread nD τ).loc cc1_stg1_1) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg2_1), ((c : Thread nD τ).loc cc1_stg2_1) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg4_0), ((c : Thread nD τ).loc cc1_stg4_0) ↦{fullShare} f)
    ∗ (∃ f : Buf (Elt F) ((c : Thread nD τ).loc cc1_stg5_0), ((c : Thread nD τ).loc cc1_stg5_0) ↦{fullShare} f)
    ∗ (∃ f : Buf (Elt F) ((c : Thread nD τ).loc cc1_stg5_1), ((c : Thread nD τ).loc cc1_stg5_1) ↦{fullShare} f)
    ∗ (∃ f : Buf (Elt F) ((c : Thread nD τ).loc cc1_scratch0), ((c : Thread nD τ).loc cc1_scratch0) ↦{fullShare} f))
    ∗ (∃ r, prngReg c r))

/-- Separating conjunction reassociated, as an equality of assertions. -/
theorem sep_assoc_eq0 (A R G : sProp 𝕄) : iprop((A ∗ R) ∗ G) = iprop(A ∗ (R ∗ G)) := by
  have h₁ : iprop((A ∗ R) ∗ G) ⊢ iprop(A ∗ (R ∗ G)) := by
    iintro ⟨⟨HA, HR⟩, Hg⟩
    isplitl [HA]
    · iexact HA
    isplitl [HR]
    · iexact HR
    iexact Hg
  have h₂ : iprop(A ∗ (R ∗ G)) ⊢ iprop((A ∗ R) ∗ G) := by
    iintro ⟨HA, HR, Hg⟩
    isplitr [Hg]
    · isplitl [HA]
      · iexact HA
      iexact HR
    iexact Hg
  exact BI.equiv_iff.mp ⟨h₁, h₂⟩

/-- The class invariant with the accumulator scratch split off. -/
theorem PhiA0_eq (c : Dev nD) :
    (Pipeline.ΦA spec0 c : sProp 𝕄) = iprop((∃ d, owns (c : Thread nD τ) scM0 fullShare d) ∗ Rest0 (F := F) c) := by
  unfold Pipeline.ΦA Rest0
  rw [scopedRest0_eq]
  simp only [scM0, owns_whole]
  exact sep_assoc_eq0 _ _ _

/-- The launch's invariant before point `n`: before the first point the class's; afterwards the accumulator scratch at
    what the point before left, beside the rest. -/
def Phi0 (c : Dev nD) : (n : ℕ) → n ≤ cfg0.N → sProp 𝕄
  | 0, _ => Pipeline.ΦA spec0 c
  | n + 1, hn => iprop(owns (c : Thread nD τ) scM0 fullShare (acc0 V c n hn) ∗ Rest0 (F := F) c)

theorem Phi0_zero (c : Dev nD) (n : ℕ) (h : n ≤ cfg0.N) (hz : n = 0) : Phi0 V c n h = Pipeline.ΦA spec0 c := by
  subst hz; rfl

theorem Phi0_succ (c : Dev nD) (n : ℕ) (hn : n < cfg0.N) :
    Phi0 V c (n + 1) hn = iprop(owns (c : Thread nD τ) scM0 fullShare (acc0 V c n hn) ∗ Rest0 (F := F) c) := rfl

theorem Phi0_pos (c : Dev nD) (n : ℕ) (h : n ≤ cfg0.N) (hz : n ≠ 0) :
    Phi0 V c n h = iprop(owns (c : Thread nD τ) scM0 fullShare (acc0 V c (n - 1) (by omega)) ∗ Rest0 (F := F) c) := by
  cases n with
  | zero => exact absurd rfl hz
  | succ n => rfl

/-- The launch's proof data on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => k0_pay3 (acc0 V c t.val t.isLt)
  Φ t := Phi0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = k0_pay3 (acc0 V c t.val t.isLt) := by dsimp only [dat0]

/-! ## The body on whole buffers, case by case -/

/-- The zero offset of a rank-2 access. -/
theorem hz2_0 : (![0, 0] : Fin 2 → Nat) = fun _ => 0 := by
  funext a; fin_cases a <;> rfl

/-- A store of the whole 4096×64 buffer, last, covers it. -/
theorem cover_unit0 {e : EltTy} (p : S4096x64.Idx → Elt F e) (L : List (View.Piece (Elt F) S4096x64 e)) (y : S4096x64.Idx) :
    ∃ pc ∈ ((⟨Rect.unit (s := S4096x64) ![0, 0] S4096x64.size inb_S4096x64_S4096x64_0_0, p⟩ : View.Piece (Elt F) S4096x64 e) :: L), y ∈ pc.1.set :=
  ⟨_, List.mem_cons_self .., View.mem_set_unit_zero (S := S4096x64) hz2_0 inb_S4096x64_S4096x64_0_0 y⟩

set_option maxHeartbeats 1000000 in
/-- The body off the opening and the closing points: the inputs are read, the accumulator is replaced by its update. -/
theorem gather_mid (c : Dev nD) (E : Set ℕ) (i : grid0.Coords) (arg2 : Memref sig .tc .vmem S4096x1 .i32) (harg2 : arg2.IsWhole) (arg3 : Memref sig .tc .vmem S1024x64 .f32) (harg3 : arg3.IsWhole) (arg4 : Memref sig .tc .vmem S1024x1 .f32) (harg4 : arg4.IsWhole) (arg5 : Memref sig .tc .vmem S4096x64 .bf16) (harg5 : arg5.IsWhole) (arg6 : Memref sig .tc .vmem S4096x64 .f32) (harg6 : arg6.IsWhole)
    (hc1 : ¬ Scalar.cmpi .ne (Scalar.extui (Scalar.cmpi .eq (BitVec.ofNat 32 (i 1).val) 0#32) : BitVec 32) 0#32 = 1#1) (hc2 : ¬ k0_cond2 i = 1#1)
    (x0 : Vec F S4096x1 .i32) (x1 : Vec F S1024x64 .f32) (x2 : Vec F S1024x1 .f32) (s : Vec F S4096x64 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg6 fullShare s
        ∗ (iprop(owns (c : Thread nD τ) arg2 fullShare x0 ∗ owns (c : Thread nD τ) arg3 fullShare x1 ∗ owns (c : Thread nD τ) arg4 fullShare x2
            ∗ owns (c : Thread nD τ) arg6 fullShare (k0_pay2 i x0 x1 x2 s)) -∗ K ⟨⟩))
      ⊢ wp frame (wpE (defs₀ (F := F)) Variants.none c none) E (cc0__gather_kernel i arg2 harg2 arg3 harg3 arg4 harg4 arg5 harg5 arg6 harg6) K := by
  simp only [cc0__gather_kernel_eq_skeleton]; unfold cc0__gather_kernel_skel
  unfold owns
  iintro ⟨⟨%f0, %hf0, H0⟩, ⟨%f1, %hf1, H1⟩, ⟨%f2, %hf2, H2⟩, ⟨%fs, %hfs, HS⟩, Hk⟩
  subst hf0; subst hf1; subst hf2; subst hfs
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HS
  ipureintro
  sl_unfold_run_names
  rw [View.read_writes_eq_canon _ _ _ (cover_unit0 _ _), View.canon_cons_unit_zero hz2_0]
  simp only [View.readAt_eq_ld, View.readCov_unit_zero (S := S4096x64) _ hz2_0, View.ld_unit_zero (S := S4096x1) hz2_0, View.ld_unit_zero (S := S4096x64) hz2_0, View.ld_unit_zero (S := S1024x64) hz2_0, View.ld_unit_zero (S := S1024x1) hz2_0]

set_option maxHeartbeats 1000000 in
/-- The body at an opening point that is no closing point: the accumulator is zeroed, then replaced by its update. -/
theorem gather_first (c : Dev nD) (E : Set ℕ) (i : grid0.Coords) (arg2 : Memref sig .tc .vmem S4096x1 .i32) (harg2 : arg2.IsWhole) (arg3 : Memref sig .tc .vmem S1024x64 .f32) (harg3 : arg3.IsWhole) (arg4 : Memref sig .tc .vmem S1024x1 .f32) (harg4 : arg4.IsWhole) (arg5 : Memref sig .tc .vmem S4096x64 .bf16) (harg5 : arg5.IsWhole) (arg6 : Memref sig .tc .vmem S4096x64 .f32) (harg6 : arg6.IsWhole)
    (hc1 : Scalar.cmpi .ne (Scalar.extui (Scalar.cmpi .eq (BitVec.ofNat 32 (i 1).val) 0#32) : BitVec 32) 0#32 = 1#1) (hc2 : ¬ k0_cond2 i = 1#1)
    (x0 : Vec F S4096x1 .i32) (x1 : Vec F S1024x64 .f32) (x2 : Vec F S1024x1 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg6 fullShare (k0_pay2 i x0 x1 x2 (k0_pay1 (F := F)))) -∗ K ⟨⟩))
      ⊢ wp frame (wpE (defs₀ (F := F)) Variants.none c none) E (cc0__gather_kernel i arg2 harg2 arg3 harg3 arg4 harg4 arg5 harg5 arg6 harg6) K := by
  simp only [cc0__gather_kernel_eq_skeleton]; unfold cc0__gather_kernel_skel
  unfold owns
  iintro ⟨⟨%f0, %hf0, H0⟩, ⟨%f1, %hf1, H1⟩, ⟨%f2, %hf2, H2⟩, ⟨%ds, %fs, -, HS⟩, Hk⟩
  subst hf0; subst hf1; subst hf2
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HS
  ipureintro
  sl_unfold_run_names
  rw [View.read_writes_eq_canon _ _ _ (cover_unit0 _ _), View.canon_cons_unit_zero hz2_0]
  simp only [View.readAt_eq_ld, View.readCov_unit_zero (S := S4096x64) _ hz2_0, View.ld_unit_zero (S := S4096x1) hz2_0, View.ld_unit_zero (S := S4096x64) hz2_0, View.ld_unit_zero (S := S1024x64) hz2_0, View.ld_unit_zero (S := S1024x1) hz2_0]

set_option maxHeartbeats 1000000 in
/-- The body at a closing point that is no opening point: the accumulator is replaced by its update, whose format change
    is stored into the output block. -/
theorem gather_last (c : Dev nD) (E : Set ℕ) (i : grid0.Coords) (arg2 : Memref sig .tc .vmem S4096x1 .i32) (harg2 : arg2.IsWhole) (arg3 : Memref sig .tc .vmem S1024x64 .f32) (harg3 : arg3.IsWhole) (arg4 : Memref sig .tc .vmem S1024x1 .f32) (harg4 : arg4.IsWhole) (arg5 : Memref sig .tc .vmem S4096x64 .bf16) (harg5 : arg5.IsWhole) (arg6 : Memref sig .tc .vmem S4096x64 .f32) (harg6 : arg6.IsWhole)
    (hc1 : ¬ Scalar.cmpi .ne (Scalar.extui (Scalar.cmpi .eq (BitVec.ofNat 32 (i 1).val) 0#32) : BitVec 32) 0#32 = 1#1) (hc2 : k0_cond2 i = 1#1)
    (x0 : Vec F S4096x1 .i32) (x1 : Vec F S1024x64 .f32) (x2 : Vec F S1024x1 .f32) (s : Vec F S4096x64 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare s
        ∗ (iprop(owns (c : Thread nD τ) arg2 fullShare x0 ∗ owns (c : Thread nD τ) arg3 fullShare x1 ∗ owns (c : Thread nD τ) arg4 fullShare x2
            ∗ owns (c : Thread nD τ) arg5 fullShare (k0_pay3 (k0_pay2 i x0 x1 x2 s))
            ∗ owns (c : Thread nD τ) arg6 fullShare (k0_pay2 i x0 x1 x2 s)) -∗ K ⟨⟩))
      ⊢ wp frame (wpE (defs₀ (F := F)) Variants.none c none) E (cc0__gather_kernel i arg2 harg2 arg3 harg3 arg4 harg4 arg5 harg5 arg6 harg6) K := by
  simp only [cc0__gather_kernel_eq_skeleton]; unfold cc0__gather_kernel_skel
  unfold owns
  iintro ⟨⟨%f0, %hf0, H0⟩, ⟨%f1, %hf1, H1⟩, ⟨%f2, %hf2, H2⟩, ⟨%d5, %f5, -, H5⟩, ⟨%fs, %hfs, HS⟩, Hk⟩
  subst hf0; subst hf1; subst hf2; subst hfs
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H5]
  · iexists _; isplitr
    swap; · iexact H5
    ipureintro
    sl_unfold_run_names
    rw [View.read_writes_eq_canon _ _ _ (cover_unit0 _ _), View.canon_cons_unit_zero hz2_0]
    simp only [View.readAt_eq_ld, View.readCov_unit_zero (S := S4096x64) _ hz2_0, View.ld_unit_zero (S := S4096x1) hz2_0, View.ld_unit_zero (S := S4096x64) hz2_0, View.ld_unit_zero (S := S1024x64) hz2_0, View.ld_unit_zero (S := S1024x1) hz2_0]
  iexists _; isplitr
  swap; · iexact HS
  ipureintro
  sl_unfold_run_names
  rw [View.read_writes_eq_canon _ _ _ (cover_unit0 _ _), View.canon_cons_unit_zero hz2_0]
  simp only [View.readAt_eq_ld, View.readCov_unit_zero (S := S4096x64) _ hz2_0, View.ld_unit_zero (S := S4096x1) hz2_0, View.ld_unit_zero (S := S4096x64) hz2_0, View.ld_unit_zero (S := S1024x64) hz2_0, View.ld_unit_zero (S := S1024x1) hz2_0]

/-! ## The body obligation -/

/-- Input window 0's current buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_0 (c : Dev nD) (t : Fin cfg0.N) (d) : (dat0 V c).before 0 t d = iblk0 V c 0 t :=
  before0_0_of V (dat0 V c) (A_eq0 V c 0) (after0_0 V c) t d

/-- Input window 1's current buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_1 (c : Dev nD) (t : Fin cfg0.N) (d) : (dat0 V c).before 1 t d = iblk0 V c 1 t :=
  before0_1_of V (dat0 V c) (A_eq0 V c 1) (after0_1 V c) t d

/-- Input window 2's current buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_2 (c : Dev nD) (t : Fin cfg0.N) (d) : (dat0 V c).before 2 t d = iblk0 V c 2 t :=
  before0_2_of V (dat0 V c) (A_eq0 V c 2) (after0_2 V c) t d

/-- The launch's invariant before any point gives the accumulator scratch at some contents beside the rest. -/
theorem Phi0_some (c : Dev nD) (n : ℕ) (h : n ≤ cfg0.N) :
    Phi0 V c n h ⊢ iprop((∃ d, owns (c : Thread nD τ) scM0 fullShare d) ∗ Rest0 (F := F) c) := by
  cases n with
  | zero =>
    rw [Phi0_zero V c 0 h rfl, PhiA0_eq]
    try exact Idealize.SL.BI.Entails.refl _
  | succ n =>
    rw [Phi0_succ]
    iintro ⟨HS, HR⟩
    isplitl [HS]
    · iexists _; iexact HS
    iexact HR

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

theorem leaves0_0 (c : Dev nD) (t : Fin cfg0.N) :
    (dat0 V c).leavesExact 0 t = owns (c : Thread nD τ) (st0_0 t) fullShare (iblk0 V c 0 t) := by
  rw [← after0_0]
theorem leaves0_1 (c : Dev nD) (t : Fin cfg0.N) :
    (dat0 V c).leavesExact 1 t = owns (c : Thread nD τ) (st0_1 t) fullShare (iblk0 V c 1 t) := by
  rw [← after0_1]
theorem leaves0_2 (c : Dev nD) (t : Fin cfg0.N) :
    (dat0 V c).leavesExact 2 t = owns (c : Thread nD τ) (st0_2 t) fullShare (iblk0 V c 2 t) := by
  rw [← after0_2]

/-- Off the closing points the output window is handed back as found. -/
theorem leaves0_3_idle (c : Dev nD) (t : Fin cfg0.N) (h97 : ¬ t.val % 98 = 97) :
    (dat0 V c).leavesExact 3 t = iprop(∃ d, owns (c : Thread nD τ) (st0_3 t) fullShare ((dat0 V c).before 3 t d)) :=
  Dat.leavesExact_idle (dat0 V c) 3 t ((idle0_3 t).mpr h97) (by rw [Bool.eq_false_iff]; exact fun h => h97 ((flush0_3 t).mp h))

/-- At a closing point it holds the accumulator's format change. -/
theorem leaves0_3_last (c : Dev nD) (t : Fin cfg0.N) (h97 : t.val % 98 = 97) :
    (dat0 V c).leavesExact 3 t = owns (c : Thread nD τ) (st0_3 t) fullShare (k0_pay3 (acc0 V c t.val t.isLt)) := by
  have hi : cfg0.idle 3 (cfg0.grid.coords t) = false := by
    rw [Bool.eq_false_iff]; exact fun h => (idle0_3 t).mp h h97
  rw [← after0_3]
  unfold Dat.leavesExact; rw [hi]

set_option maxHeartbeats 4000000 in
/-- The body at any point: by cases on the point's place in its edge tile's run of node tiles. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = Phi0 V c (t.val + 1) t.isLt from rfl, Phi0_succ]
  rw [show (dat0 V c).Φ t.castSucc = Phi0 V c t.val (Nat.le_of_lt t.isLt) from rfl]
  rw [leaves0_0, leaves0_1, leaves0_2]
  by_cases h0 : t.val % 98 = 0
  · have h97 : ¬ t.val % 98 = 97 := by omega
    rw [leaves0_3_idle V c t h97, acc0_zero V c t h0]
    iintro ⟨HΦ, Ho, ⟨%d0, H0⟩, ⟨%d1, H1⟩, ⟨%d2, H2⟩, ⟨%d3, H3⟩⟩
    ihave HΦ' := (Phi0_some V c t.val (Nat.le_of_lt t.isLt)) $$ HΦ
    icases HΦ' with ⟨HS, HR⟩
    iapply (gather_first c Set.univ (grid0.coords t) _ _ _ _ _ _ _ _ _ _ ((cond0_first t).mpr h0) (fun h => h97 ((cond0_last t).mp h))
      (iblk0 V c 0 t) (iblk0 V c 1 t) (iblk0 V c 2 t) _)
    isplitl [H0]; · iexact H0
    isplitl [H1]; · iexact H1
    isplitl [H2]; · iexact H2
    isplitl [HS]; · iexact HS
    iintro ⟨H0, H1, H2, HS⟩
    isplitl [HS HR]
    · isplitl [HS]; · iexact HS
      iexact HR
    isplitl [Ho]; · iexact Ho
    isplitl [H0]; · iexact H0
    isplitl [H1]; · iexact H1
    isplitl [H2]; · iexact H2
    iexists _; iexact H3
  · have hz : t.val ≠ 0 := fun h => h0 (by rw [h])
    rw [Phi0_pos V c _ _ hz, acc0_succ V c t h0]
    by_cases h97 : t.val % 98 = 97
    · rw [leaves0_3_last V c t h97, acc0_succ V c t h0]
      iintro ⟨⟨HS, HR⟩, Ho, ⟨%d0, H0⟩, ⟨%d1, H1⟩, ⟨%d2, H2⟩, ⟨%d3, H3⟩⟩
      iapply (gather_last c Set.univ (grid0.coords t) _ _ _ _ _ _ _ _ _ _ (fun h => h0 ((cond0_first t).mp h)) ((cond0_last t).mpr h97)
        (iblk0 V c 0 t) (iblk0 V c 1 t) (iblk0 V c 2 t) (acc0 V c (t.val - 1) (Nat.lt_of_le_of_lt (Nat.sub_le _ _) t.isLt)) _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS HR]
      · isplitl [HS]; · iexact HS
        iexact HR
      isplitl [Ho]; · iexact Ho
      isplitl [H0]; · iexact H0
      isplitl [H1]; · iexact H1
      isplitl [H2]; · iexact H2
      iexact H3
    · rw [leaves0_3_idle V c t h97]
      iintro ⟨⟨HS, HR⟩, Ho, ⟨%d0, H0⟩, ⟨%d1, H1⟩, ⟨%d2, H2⟩, ⟨%d3, H3⟩⟩
      iapply (gather_mid c Set.univ (grid0.coords t) _ _ _ _ _ _ _ _ _ _ (fun h => h0 ((cond0_first t).mp h)) (fun h => h97 ((cond0_last t).mp h))
        (iblk0 V c 0 t) (iblk0 V c 1 t) (iblk0 V c 2 t) (acc0 V c (t.val - 1) (Nat.lt_of_le_of_lt (Nat.sub_le _ _) t.isLt)) _)
      isplitl [H0]; · iexact H0
      isplitl [H1]; · iexact H1
      isplitl [H2]; · iexact H2
      isplitl [HS]; · iexact HS
      iintro ⟨H0, H1, H2, HS⟩
      isplitl [HS HR]
      · isplitl [HS]; · iexact HS
        iexact HR
      isplitl [Ho]; · iexact Ho
      isplitl [H0]; · iexact H0
      isplitl [H1]; · iexact H1
      isplitl [H2]; · iexact H2
      iexists _; iexact H3

/-- The body obligation at every point. -/
theorem body_obligation0 (c : Dev nD) : BodyObligation (dat0 (F := F) V c) (defs₀ (F := F)) Variants.none () Set.univ := fun t => by
  rw [bigSep_W0, bigSep_W0]
  exact sound_body0 V c t

/-- The class invariant is the launch's at the first point. -/
theorem hin0 (c : Dev nD) : (Pipeline.ΦA spec0 c : sProp 𝕄) ⊢ (dat0 V c).Φ 0 := by
  rw [show (dat0 V c).Φ 0 = Phi0 V c 0 (Nat.zero_le _) from rfl, Phi0_zero V c 0 _ rfl]
  try exact Idealize.SL.BI.Entails.refl _

/-- The launch's invariant after the last point gives the class invariant back. -/
theorem hout0 (c : Dev nD) : (dat0 V c).Φ (Fin.last cfg0.N) ⊢ (Pipeline.ΦA spec0 c : sProp 𝕄) := by
  have hN : cfg0.N = 38318 := N_0
  rw [show (dat0 V c).Φ (Fin.last cfg0.N) = Phi0 V c (Fin.last cfg0.N).val (Nat.le_of_lt_succ (Fin.last cfg0.N).isLt) from rfl,
    Phi0_pos V c _ _ (by rw [Fin.val_last]; omega), PhiA0_eq]
  iintro ⟨HS, HR⟩
  isplitl [HS]
  · iexists _; iexact HS
  iexact HR

end Cert.KernelIdeal.Hand

end
-- ==== Proof.ScatterDefs.lean ====
/-
  The scatter launch (the program's second kernel region), its proof data.

  Grid point t = 391·n + e: node tile n (1024 nodes), edge tile e (4096 edges). The kernel keeps a 1024×64
  accumulator in scratch: zeroed when e = 0, then at every point increased by the product of the one-hot mask
  (node id = edge's target id) with the edge tile's gathered rows; at e = 390 the accumulator is scaled by the
  inverse square-root degree, multiplied by the weight matrix, shifted by the bias, clamped at zero from below and
  written to the output block n. `acc1` is the accumulator after the body at a point, by recursion on the point.
-/
import proofs.«407817_j53334903882610_2_alg».proof.Proof.Gen.KernelIdeal.Launch
import proofs.«407817_j53334903882610_2_alg».proof.Proof.Gen.KernelIdeal.Skeleton
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The accumulator scratch after the body at point `n`: the point's contribution added to zero when the point
    opens a node tile (n ≡ 0 mod 391), else to what the point before left. -/
def acc1 (c : Dev nD) : (n : ℕ) → n < cfg1.N → Vec F S1024x64 .f32
  | 0, h => k1_pay2 (grid1.coords ⟨0, h⟩) (iblk1 V c 0 ⟨0, h⟩) (iblk1 V c 1 ⟨0, h⟩) (k1_pay1 (F := F))
  | n + 1, h => k1_pay2 (grid1.coords ⟨n + 1, h⟩) (iblk1 V c 0 ⟨n + 1, h⟩) (iblk1 V c 1 ⟨n + 1, h⟩)
      (if (n + 1) % 391 = 0 then (k1_pay1 (F := F)) else acc1 c n (Nat.lt_of_succ_lt h))

theorem acc1_zero (c : Dev nD) (t : Fin cfg1.N) (h0 : t.val % 391 = 0) :
    acc1 V c t.val t.isLt = k1_pay2 (grid1.coords t) (iblk1 V c 0 t) (iblk1 V c 1 t) (k1_pay1 (F := F)) := by
  obtain ⟨n, hn⟩ := t
  cases n with
  | zero => rfl
  | succ n => simp only [acc1]; rw [if_pos h0]

theorem acc1_succ (c : Dev nD) (t : Fin cfg1.N) (h0 : ¬ t.val % 391 = 0) :
    acc1 V c t.val t.isLt = k1_pay2 (grid1.coords t) (iblk1 V c 0 t) (iblk1 V c 1 t)
      (acc1 V c (t.val - 1) (Nat.lt_of_le_of_lt (Nat.sub_le _ _) t.isLt)) := by
  obtain ⟨n, hn⟩ := t
  cases n with
  | zero => exact absurd (Nat.zero_mod _) h0
  | succ n => simp only [acc1]; rw [if_neg h0]; rfl

/-- What the output block holds after the body at a point that closes a node tile. -/
def out1 (c : Dev nD) (t : Fin cfg1.N) : Vec F S1024x64 .f32 :=
  k1_pay3 (acc1 V c t.val t.isLt) (iblk1 V c 2 t) (iblk1 V c 3 t) (iblk1 V c 4 t)

/-- The scratch operand as a memref. -/
abbrev scM1 : Memref sig .tc .vmem S1024x64 .f32 := Memref.whole cc1_scratch0

end Cert.KernelIdeal.Hand

end
-- ==== Proof.Scatter.lean ====
/-
  The scatter launch: what its body does at each grid point, and the launch's proof data.

  At every point the body adds to the accumulator scratch the product of the one-hot mask of the point's node tile
  against the point's edge tile with that edge tile's gathered rows; it first zeroes the accumulator at the points
  that open a node tile, and at the points that close one stores the output block: the accumulator scaled by the
  inverse square-root degree, times the weight matrix, plus the bias, clamped at zero from below. Between points the
  accumulator holds `acc1`; the output window is idle off the closing points.
-/
import proofs.«407817_j53334903882610_2_alg».proof.Proof.Gen.KernelIdeal.Launch
import proofs.«407817_j53334903882610_2_alg».proof.Proof.Gen.KernelIdeal.Skeleton
import proofs.«407817_j53334903882610_2_alg».proof.Proof.ScatterDefs
import proofs.«407817_j53334903882610_2_alg».proof.Proof.Schedule
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the launch's invariant holds besides the accumulator scratch: the core's other scoped buffers, each whole at
    some contents, and the generator register at some state. -/
def Rest1 (c : Dev nD) : sProp 𝕄 :=
  iprop(((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg3_1), ((c : Thread nD τ).loc cc0_stg3_1) ↦{fullShare} f)
    ∗ (∃ f : Buf (Elt F) ((c : Thread nD τ).loc cc0_scratch0), ((c : Thread nD τ).loc cc0_scratch0) ↦{fullShare} f))
    ∗ (∃ r, prngReg c r))

/-- The class invariant with the accumulator scratch split off. -/
theorem PhiA1_eq (c : Dev nD) :
    (Pipeline.ΦA spec1 c : sProp 𝕄) = iprop((∃ d, owns (c : Thread nD τ) scM1 fullShare d) ∗ Rest1 (F := F) c) := by
  unfold Pipeline.ΦA Rest1
  rw [scopedRest1_eq]
  simp only [scM1, owns_whole]
  apply BI.equiv_iff.mp
  refine ⟨?_, ?_⟩
  · show (_ : sProp 𝕄) ⊢ _
    iintro ⟨⟨H0, H1, H2, H3, H4, H5, H6, H7, H8, H9⟩, Hg⟩
    isplitl [H9]; · iexact H9
    isplitr [Hg]
    swap; · iexact Hg
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · show (_ : sProp 𝕄) ⊢ _
    iintro ⟨H9, ⟨H0, H1, H2, H3, H4, H5, H6, H7, H8⟩, Hg⟩
    isplitr [Hg]
    swap; · iexact Hg
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

/-- The launch's invariant before point `n`: before the first point the class's; afterwards the accumulator scratch at
    what the point before left, beside the rest. -/
def Phi1 (c : Dev nD) : (n : ℕ) → n ≤ cfg1.N → sProp 𝕄
  | 0, _ => Pipeline.ΦA spec1 c
  | n + 1, hn => iprop(owns (c : Thread nD τ) scM1 fullShare (acc1 V c n hn) ∗ Rest1 (F := F) c)

theorem Phi1_zero (c : Dev nD) (n : ℕ) (h : n ≤ cfg1.N) (hz : n = 0) : Phi1 V c n h = Pipeline.ΦA spec1 c := by
  subst hz; rfl

theorem Phi1_succ (c : Dev nD) (n : ℕ) (hn : n < cfg1.N) :
    Phi1 V c (n + 1) hn = iprop(owns (c : Thread nD τ) scM1 fullShare (acc1 V c n hn) ∗ Rest1 (F := F) c) := rfl

theorem Phi1_pos (c : Dev nD) (n : ℕ) (h : n ≤ cfg1.N) (hz : n ≠ 0) :
    Phi1 V c n h = iprop(owns (c : Thread nD τ) scM1 fullShare (acc1 V c (n - 1) (by omega)) ∗ Rest1 (F := F) c) := by
  cases n with
  | zero => exact absurd rfl hz
  | succ n => rfl

/-- The launch's proof data on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1 V c t
  Φ t := Phi1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1 V c t := by dsimp only [dat1]

/-! ## The body on whole buffers, case by case -/

/-- The test that opens a node tile: the point's edge-tile coordinate is zero. -/
abbrev cond1a (i : grid1.Coords) : Prop :=
  Scalar.cmpi .ne (Scalar.extui (Scalar.cmpi .eq (BitVec.ofNat 32 (i 1).val) 0#32) : BitVec 32) 0#32 = 1#1

theorem hz2_1 : (![0, 0] : Fin 2 → Nat) = fun _ => 0 := by
  funext a; fin_cases a <;> rfl

set_option maxHeartbeats 1000000 in
/-- Off the opening and closing points the body adds the point's contribution to the accumulator and touches nothing else. -/
theorem kernel1_mid (c : Dev nD) (E : Set ℕ) (i : grid1.Coords) (arg2 : Memref sig .tc .vmem S1x4096 .i32) (harg2 : arg2.IsWhole) (arg3 : Memref sig .tc .vmem S4096x64 .bf16) (harg3 : arg3.IsWhole) (arg4 : Memref sig .tc .vmem S1024x1 .f32) (harg4 : arg4.IsWhole) (arg5 : Memref sig .tc .vmem S64x64 .bf16) (harg5 : arg5.IsWhole) (arg6 : Memref sig .tc .vmem S1x64 .f32) (harg6 : arg6.IsWhole) (arg7 : Memref sig .tc .vmem S1024x64 .f32) (harg7 : arg7.IsWhole) (arg8 : Memref sig .tc .vmem S1024x64 .f32) (harg8 : arg8.IsWhole)
    (hc1 : ¬ cond1a i) (hc2 : ¬ k1_cond2 i = 1#1)
    (x0 : Vec F S1x4096 .i32) (x1 : Vec F S4096x64 .bf16) (s : Vec F S1024x64 .f32) (K : PUnit → sProp 𝕄) :
    iprop(owns (c : Thread nD τ) arg2 fullShare x0 ∗ owns (c : Thread nD τ) arg3 fullShare x1 ∗ owns (c : Thread nD τ) arg8 fullShare s
        ∗ (iprop(owns (c : Thread nD τ) arg2 fullShare x0 ∗ owns (c : Thread nD τ) arg3 fullShare x1
            ∗ owns (c : Thread nD τ) arg8 fullShare (k1_pay2 i x0 x1 s)) -∗ K ⟨⟩))
      ⊢ wp frame (wpE (defs₀ (F := F)) Variants.none c none) E (cc1__scatter_kernel i arg2 harg2 arg3 harg3 arg4 harg4 arg5 harg5 arg6 harg6 arg7 harg7 arg8 harg8) K := by
  simp only [cc1__scatter_kernel_eq_skeleton]; unfold cc1__scatter_kernel_skel
  unfold owns
  iintro ⟨⟨%f0, %hf0, H0⟩, ⟨%f1, %hf1, H1⟩, ⟨%fs, %hfs, HS⟩, Hk⟩
  subst hf0; subst hf1; subst hfs
  sl_exec (disch := first | exact hc1 | exact hc2)
  sl_step
  iapply Hk
  isplitl [H0]
  · iexists f0; isplitr; · ipureintro; rfl
    iexact H0
  isplitl [H1]
  · iexists f1; isplitr; · ipureintro; rfl
    iexact H1
  iexists _; isplitr
  swap; · iexact HS
  ipureintro
  rw [View.read_writes_eq_canon _ _ _ (fun y => ⟨_, List.mem_singleton_self _, View.mem_set_unit_zero hz2_1 inb_S1024x64_S1024x64_0_0 y⟩), View.canon_unit_zero hz2_1]
  simp only [View.readAt_eq_ld, View.ld_unit_zero (S := S1x4096) hz2_1, View.ld_unit_zero (S := S4096x64) hz2_1, View.ld_unit_zero (S := S1024x64) hz2_1]

set_option maxHeartbeats 1000000 in
/-- At a point that opens a node tile the body zeroes the accumulator, whatever it held, and adds the point's contribution. -/
theorem kernel1_first (c : Dev nD) (E : Set ℕ) (i : grid1.Coords) (arg2 : Memref sig .tc .vmem S1x4096 .i32) (harg2 : arg2.IsWhole) (arg3 : Memref sig .tc .vmem S4096x64 .bf16) (harg3 : arg3.IsWhole) (arg4 : Memref sig .tc .vmem S1024x1 .f32) (harg4 : arg4.IsWhole) (arg5 : Memref sig .tc .vmem S64x64 .bf16) (harg5 : arg5.IsWhole) (arg6 : Memref sig .tc .vmem S1x64 .f32) (harg6 : arg6.IsWhole) (arg7 : Memref sig .tc .vmem S1024x64 .f32) (harg7 : arg7.IsWhole) (arg8 : Memref sig .tc .vmem S1024x64 .f32) (harg8 : arg8.IsWhole)
    (hc1 : cond1a i) (hc2 : ¬ k1_cond2 i = 1#1)
    (x0 : Vec F S1x4096 .i32) (x1 : Vec F S4096x64 .bf16) (K : PUnit → sProp 𝕄) :
    iprop(owns (c : Thread nD τ) arg2 fullShare x0 ∗ owns (c : Thread nD τ) arg3 fullShare x1 ∗ (∃ d, owns (c : Thread nD τ) arg8 fullShare d)
        ∗ (iprop(owns (c : Thread nD τ) arg2 fullShare x0 ∗ owns (c : Thread nD τ) arg3 fullShare x1
            ∗ owns (c : Thread nD τ) arg8 fullShare (k1_pay2 i x0 x1 (k1_pay1 (F := F)))) -∗ K ⟨⟩))
      ⊢ wp frame (wpE (defs₀ (F := F)) Variants.none c none) E (cc1__scatter_kernel i arg2 harg2 arg3 harg3 arg4 harg4 arg5 harg5 arg6 harg6 arg7 harg7 arg8 harg8) K := by
  simp only [cc1__scatter_kernel_eq_skeleton]; unfold cc1__scatter_kernel_skel
  unfold owns
  iintro ⟨⟨%f0, %hf0, H0⟩, ⟨%f1, %hf1, H1⟩, ⟨%ds, %fs, -, HS⟩, Hk⟩
  subst hf0; subst hf1
  sl_exec (disch := first | exact hc1 | exact hc2)
  sl_step
  iapply Hk
  isplitl [H0]
  · iexists f0; isplitr; · ipureintro; rfl
    iexact H0
  isplitl [H1]
  · iexists f1; isplitr; · ipureintro; rfl
    iexact H1
  iexists _; isplitr
  swap; · iexact HS
  ipureintro
  sl_unfold_words
  rw [View.read_writes_eq_canon _ _ _ (fun y => ⟨_, List.mem_cons_self, View.mem_set_unit_zero hz2_1 inb_S1024x64_S1024x64_0_0 y⟩), View.canon_cons_unit_zero hz2_1]
  simp only [View.readAt_eq_ld, View.ld_unit_zero (S := S1x4096) hz2_1, View.ld_unit_zero (S := S4096x64) hz2_1, View.readCov_unit_zero (S := S1024x64) _ hz2_1]

set_option maxHeartbeats 1000000 in
/-- At a point that closes a node tile the body adds the point's contribution to the accumulator and stores the output
    block computed from the accumulator, whatever the output buffer held. -/
theorem kernel1_last (c : Dev nD) (E : Set ℕ) (i : grid1.Coords) (arg2 : Memref sig .tc .vmem S1x4096 .i32) (harg2 : arg2.IsWhole) (arg3 : Memref sig .tc .vmem S4096x64 .bf16) (harg3 : arg3.IsWhole) (arg4 : Memref sig .tc .vmem S1024x1 .f32) (harg4 : arg4.IsWhole) (arg5 : Memref sig .tc .vmem S64x64 .bf16) (harg5 : arg5.IsWhole) (arg6 : Memref sig .tc .vmem S1x64 .f32) (harg6 : arg6.IsWhole) (arg7 : Memref sig .tc .vmem S1024x64 .f32) (harg7 : arg7.IsWhole) (arg8 : Memref sig .tc .vmem S1024x64 .f32) (harg8 : arg8.IsWhole)
    (hc1 : ¬ cond1a i) (hc2 : k1_cond2 i = 1#1)
    (x0 : Vec F S1x4096 .i32) (x1 : Vec F S4096x64 .bf16) (x2 : Vec F S1024x1 .f32) (x3 : Vec F S64x64 .bf16) (x4 : Vec F S1x64 .f32)
    (s : Vec F S1024x64 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ (∃ d, owns (c : Thread nD τ) arg7 fullShare d)
        ∗ owns (c : Thread nD τ) arg8 fullShare s
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (k1_pay3 (k1_pay2 i x0 x1 s) x2 x3 x4)
            ∗ owns (c : Thread nD τ) arg8 fullShare (k1_pay2 i x0 x1 s)) -∗ K ⟨⟩))
      ⊢ wp frame (wpE (defs₀ (F := F)) Variants.none c none) E (cc1__scatter_kernel i arg2 harg2 arg3 harg3 arg4 harg4 arg5 harg5 arg6 harg6 arg7 harg7 arg8 harg8) K := by
  simp only [cc1__scatter_kernel_eq_skeleton]; unfold cc1__scatter_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs, %hfs, HS⟩, Hk⟩
  subst hf0; subst hf1; subst hf2; subst hf3; subst hf4; subst hfs
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    sl_unfold_words
    rw [View.read_writes_eq_canon _ _ _ (fun y => ⟨_, List.mem_singleton_self _, View.mem_set_unit_zero hz2_1 inb_S1024x64_S1024x64_0_0 y⟩), View.canon_unit_zero hz2_1]
    simp only [View.readAt_eq_ld, View.readCov_unit_zero (S := S1024x64) _ hz2_1, View.ld_unit_zero (S := S1x4096) hz2_1, View.ld_unit_zero (S := S4096x64) hz2_1, View.ld_unit_zero (S := S1024x64) hz2_1, View.ld_unit_zero (S := S1024x1) hz2_1, View.ld_unit_zero (S := S64x64) hz2_1, View.ld_unit_zero (S := S1x64) hz2_1]
  iexists _; isplitr
  swap; · iexact HS
  ipureintro
  sl_unfold_words
  rw [View.read_writes_eq_canon _ _ _ (fun y => ⟨_, List.mem_singleton_self _, View.mem_set_unit_zero hz2_1 inb_S1024x64_S1024x64_0_0 y⟩), View.canon_unit_zero hz2_1]
  simp only [View.readAt_eq_ld, View.ld_unit_zero (S := S1x4096) hz2_1, View.ld_unit_zero (S := S4096x64) hz2_1, View.ld_unit_zero (S := S1024x64) hz2_1]

/-! ## The body obligation -/

/-- Each input window's current buffer holds its block at every point, fetched there or not. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl)
    (fun t => by rw [after1_4]; unfold Dat.blockOf iblk1; rw [A_eq1]; try rfl) t d).trans
    (by unfold Dat.fetched Dat.blockOf iblk1; rw [A_eq1]; try rfl)

/-- The invariant at a point's start, restated at the point's number. -/
theorem Phi1_castSucc (c : Dev nD) (t : Fin cfg1.N) :
    (dat1 V c).Φ t.castSucc = Phi1 V c t.val (Nat.le_of_lt t.isLt) := by
  dsimp only [dat1]; simp only [Fin.coe_castSucc]

/-- The inputs are never idle: the body leaves each at its block. -/
theorem leaves1_0 (c : Dev nD) (t : Fin cfg1.N) :
    (dat1 V c).leavesExact 0 t = owns (c : Thread nD τ) (st1_0 t) fullShare (iblk1 V c 0 t) := by
  unfold Dat.leavesExact
  rw [show cfg1.idle 0 (cfg1.grid.coords t) = false from rfl, after1_0]
theorem leaves1_1 (c : Dev nD) (t : Fin cfg1.N) :
    (dat1 V c).leavesExact 1 t = owns (c : Thread nD τ) (st1_1 t) fullShare (iblk1 V c 1 t) := by
  unfold Dat.leavesExact
  rw [show cfg1.idle 1 (cfg1.grid.coords t) = false from rfl, after1_1]
theorem leaves1_2 (c : Dev nD) (t : Fin cfg1.N) :
    (dat1 V c).leavesExact 2 t = owns (c : Thread nD τ) (st1_2 t) fullShare (iblk1 V c 2 t) := by
  unfold Dat.leavesExact
  rw [show cfg1.idle 2 (cfg1.grid.coords t) = false from rfl, after1_2]
theorem leaves1_3 (c : Dev nD) (t : Fin cfg1.N) :
    (dat1 V c).leavesExact 3 t = owns (c : Thread nD τ) (st1_3 t) fullShare (iblk1 V c 3 t) := by
  unfold Dat.leavesExact
  rw [show cfg1.idle 3 (cfg1.grid.coords t) = false from rfl, after1_3]
theorem leaves1_4 (c : Dev nD) (t : Fin cfg1.N) :
    (dat1 V c).leavesExact 4 t = owns (c : Thread nD τ) (st1_4 t) fullShare (iblk1 V c 4 t) := by
  unfold Dat.leavesExact
  rw [show cfg1.idle 4 (cfg1.grid.coords t) = false from rfl, after1_4]

/-- Off the closing points the output window is idle and not written back: its buffer is handed back as found. -/
theorem leaves1_5_idle (c : Dev nD) (t : Fin cfg1.N) (h1 : ¬ t.val % 391 = 390) :
    (dat1 V c).leavesExact 5 t = iprop(∃ d, owns (c : Thread nD τ) (st1_5 t) fullShare ((dat1 V c).before 5 t d)) :=
  Dat.leavesExact_idle (dat1 V c) 5 t ((idle1_5 t).mpr h1)
    (Bool.eq_false_iff.mpr fun hf => h1 ((flush1_5 t).mp hf))

/-- At the closing points the output window's buffer is left at the output block. -/
theorem leaves1_5_live (c : Dev nD) (t : Fin cfg1.N) (h1 : t.val % 391 = 390) :
    (dat1 V c).leavesExact 5 t = owns (c : Thread nD τ) (st1_5 t) fullShare (out1 V c t) := by
  unfold Dat.leavesExact
  rw [show cfg1.idle 5 (cfg1.grid.coords t) = false from Bool.eq_false_iff.mpr fun hi => (idle1_5 t).mp hi h1, after1_5]

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)
set_option maxHeartbeats 4000000 in
/-- The body at any point. The inputs' buffers hold their blocks; the point's number modulo 391 says which of the
    three cases it is in; the invariant hands the body the accumulator at what the point before left (at anything
    before the first point) and takes it back at this point's value. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = Phi1 V c (t.val + 1) t.isLt from rfl, Phi1_succ]
  rw [leaves1_0, leaves1_1, leaves1_2, leaves1_3, leaves1_4]
  have hN := t1_lt t
  by_cases h0 : t.val % 391 = 0
  · have h1 : ¬ t.val % 391 = 390 := by omega
    rw [leaves1_5_idle V c t h1, acc1_zero V c t h0]
    by_cases hz : t.val = 0
    ·
      rw [Phi1_castSucc V c t, Phi1_zero V c _ _ hz, PhiA1_eq]
      iintro ⟨⟨HS, Hr⟩, Ho, ⟨%d0, H0⟩, ⟨%d1, H1⟩, ⟨%d2, H2⟩, ⟨%d3, H3⟩, ⟨%d4, H4⟩, ⟨%d5, H5⟩⟩
      iapply (kernel1_first c Set.univ (grid1.coords t) _ _ _ _ _ _ _ _ _ _ _ _ _ _ ((cond1_first t).mpr h0)
        (fun h => h1 ((cond1_last t).mp h)) (iblk1 V c 0 t) (iblk1 V c 1 t) _)
      isplitl [H0]; · iexact H0
      isplitl [H1]; · iexact H1
      isplitl [HS]; · iexact HS
      iintro ⟨H0, H1, HS⟩
      isplitl [HS Hr]
      · isplitl [HS]; · iexact HS
        iexact Hr
      isplitl [Ho]; · iexact Ho
      isplitl [H0]; · iexact H0
      isplitl [H1]; · iexact H1
      isplitl [H2]; · iexact H2
      isplitl [H3]; · iexact H3
      isplitl [H4]; · iexact H4
      iexists _; iexact H5
    ·
      rw [Phi1_castSucc V c t, Phi1_pos V c _ _ hz]
      iintro ⟨⟨HS, Hr⟩, Ho, ⟨%d0, H0⟩, ⟨%d1, H1⟩, ⟨%d2, H2⟩, ⟨%d3, H3⟩, ⟨%d4, H4⟩, ⟨%d5, H5⟩⟩
      iapply (kernel1_first c Set.univ (grid1.coords t) _ _ _ _ _ _ _ _ _ _ _ _ _ _ ((cond1_first t).mpr h0)
        (fun h => h1 ((cond1_last t).mp h)) (iblk1 V c 0 t) (iblk1 V c 1 t) _)
      isplitl [H0]; · iexact H0
      isplitl [H1]; · iexact H1
      isplitl [HS]; · iexists _; iexact HS
      iintro ⟨H0, H1, HS⟩
      isplitl [HS Hr]
      · isplitl [HS]; · iexact HS
        iexact Hr
      isplitl [Ho]; · iexact Ho
      isplitl [H0]; · iexact H0
      isplitl [H1]; · iexact H1
      isplitl [H2]; · iexact H2
      isplitl [H3]; · iexact H3
      isplitl [H4]; · iexact H4
      iexists _; iexact H5
  · have hz : t.val ≠ 0 := fun hz => h0 (by rw [hz])
    rw [Phi1_castSucc V c t, Phi1_pos V c _ _ hz, acc1_succ V c t h0]
    by_cases h1 : t.val % 391 = 390
    · rw [leaves1_5_live V c t h1]
      unfold out1
      rw [acc1_succ V c t h0]
      iintro ⟨⟨HS, Hr⟩, Ho, ⟨%d0, H0⟩, ⟨%d1, H1⟩, ⟨%d2, H2⟩, ⟨%d3, H3⟩, ⟨%d4, H4⟩, ⟨%d5, H5⟩⟩
      iapply (kernel1_last c Set.univ (grid1.coords t) _ _ _ _ _ _ _ _ _ _ _ _ _ _ (fun h => h0 ((cond1_first t).mp h))
        ((cond1_last t).mpr h1) (iblk1 V c 0 t) (iblk1 V c 1 t) (iblk1 V c 2 t) (iblk1 V c 3 t) (iblk1 V c 4 t) _ _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, H5, HS⟩
      isplitl [HS Hr]
      · isplitl [HS]; · iexact HS
        iexact Hr
      isplitl [Ho]; · iexact Ho
      isplitl [H0]; · iexact H0
      isplitl [H1]; · iexact H1
      isplitl [H2]; · iexact H2
      isplitl [H3]; · iexact H3
      isplitl [H4]; · iexact H4
      iexact H5
    · rw [leaves1_5_idle V c t h1]
      iintro ⟨⟨HS, Hr⟩, Ho, ⟨%d0, H0⟩, ⟨%d1, H1⟩, ⟨%d2, H2⟩, ⟨%d3, H3⟩, ⟨%d4, H4⟩, ⟨%d5, H5⟩⟩
      iapply (kernel1_mid c Set.univ (grid1.coords t) _ _ _ _ _ _ _ _ _ _ _ _ _ _ (fun h => h0 ((cond1_first t).mp h))
        (fun h => h1 ((cond1_last t).mp h)) (iblk1 V c 0 t) (iblk1 V c 1 t) _ _)
      isplitl [H0]; · iexact H0
      isplitl [H1]; · iexact H1
      isplitl [HS]; · iexact HS
      iintro ⟨H0, H1, HS⟩
      isplitl [HS Hr]
      · isplitl [HS]; · iexact HS
        iexact Hr
      isplitl [Ho]; · iexact Ho
      isplitl [H0]; · iexact H0
      isplitl [H1]; · iexact H1
      isplitl [H2]; · iexact H2
      isplitl [H3]; · iexact H3
      isplitl [H4]; · iexact H4
      iexists _; iexact H5

/-- The body obligation at every point. -/
theorem body_obligation1 (c : Dev nD) : BodyObligation (dat1 (F := F) V c) (defs₀ (F := F)) Variants.none () Set.univ := fun t => by
  rw [bigSep_W1, bigSep_W1]
  exact sound_body1 V c t

/-- The class invariant is the launch's at the first point. -/
theorem hin1 (c : Dev nD) : (Pipeline.ΦA spec1 c : sProp 𝕄) ⊢ (dat1 V c).Φ 0 := by
  rw [show (dat1 V c).Φ 0 = Phi1 V c 0 (Nat.zero_le _) from rfl, Phi1_zero V c 0 _ rfl]

theorem Phi1_out (c : Dev nD) (t : Fin (cfg1.N + 1)) (ht : t.val ≠ 0) : (dat1 V c).Φ t ⊢ (Pipeline.ΦA spec1 c : sProp 𝕄) := by
  rw [show (dat1 V c).Φ t = Phi1 V c t.val (Nat.le_of_lt_succ t.isLt) from rfl, Phi1_pos V c _ _ ht, PhiA1_eq]
  iintro ⟨HS, Hr⟩
  isplitl [HS]
  · iexists _; iexact HS
  iexact Hr

/-- The launch's invariant after the last point gives the class invariant back. -/
theorem hout1 (c : Dev nD) : (dat1 V c).Φ (Fin.last cfg1.N) ⊢ (Pipeline.ΦA spec1 c : sProp 𝕄) :=
  Phi1_out V c _ (by rw [Fin.val_last]; have : cfg1.N = 38318 := grid1_N; omega)

end Cert.KernelIdeal.Hand

end
-- ==== Proof.Run.lean ====
/-
  The launch of the whole program: ten stretches of host operations and the two kernel regions between them, run
  from the launch memory to the return.

  Between two items every core holds each of its unscoped buffers whole, at a valuation: the launch contents, then
  what each host stretch computes from the one before, then — after a region — the same with the region's output
  array replaced by what the region's write-backs leave in it. The gather's output is the first region's only
  change, the scatter's output the second's; the program's result is computed from the last valuation, and no item
  writes an argument.
-/
import proofs.«407817_j53334903882610_2_alg».proof.Proof.Gen.KernelIdeal.Launch
import proofs.«407817_j53334903882610_2_alg».proof.Proof.Gen.KernelIdeal.Skeleton
import proofs.«407817_j53334903882610_2_alg».proof.Proof.Gen.KernelIdeal.Regions
import proofs.«407817_j53334903882610_2_alg».proof.Proof.GatherDefs
import proofs.«407817_j53334903882610_2_alg».proof.Proof.Schedule
import proofs.«407817_j53334903882610_2_alg».proof.Proof.Gather
import proofs.«407817_j53334903882610_2_alg».proof.Proof.Scatter
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents the regions are entered from and leave -/

/-- The gather region's entry contents: the valuation after the ninth host stretch, read at the TensorCore's
    references. -/
abbrev Vin0 : (c : Dev nD) → (b : Ref sig .tc) → Buf (Elt F) ((c : Thread nD τ).loc b) := fun c b => Gen.V9 m c b

/-- What the gather region leaves in its output array (any other reference reads the launch memory: the
    valuations never ask). -/
def outsG : Gen.Outs (F := F) := fun _ r c =>
  if h : r = main_v16 then h ▸ (dat0 (Vin0 m) c).arrAt 3 cfg0.N else m ((c : Thread nD τ).loc r)

/-- The gather's entry contents with the gather's output in place. -/
abbrev VinS : (c : Dev nD) → (b : Ref sig .tc) → Buf (Elt F) ((c : Thread nD τ).loc b) := fun c b => Gen.V10 m (outsG m) c b

/-- What the regions leave: the gather's output array after its write-backs, and the scatter's output array after
    its own — the scatter entered from the valuation that has the gather's output in place. -/
def outs : Gen.Outs (F := F) := fun n r c =>
  if n = 11 then
    (if h : r = main_v17 then h ▸ (dat1 (VinS m) c).arrAt 5 cfg1.N else m ((c : Thread nD τ).loc r))
  else outsG m n r c

theorem outs_10_eq : outs m 10 = outsG m 10 := by
  funext r c; unfold outs; rw [if_neg (by decide)]

/-- The valuation after the gather region only asks what that region leaves. -/
theorem V10_outs (c : Dev nD) : Gen.V10 m (outs m) c = Gen.V10 m (outsG m) c := by
  unfold Gen.V10; rw [outs_10_eq]

/-- The scatter region's entry contents: the gather's entry contents with the gather's output in place. -/
abbrev Vin1 : (c : Dev nD) → (b : Ref sig .tc) → Buf (Elt F) ((c : Thread nD τ).loc b) := fun c b => Gen.V10 m (outs m) c b

theorem Vin1_eq : Vin1 m = VinS m := by
  funext c b; unfold Vin1 VinS; rw [V10_outs]

theorem outs_10 (c : Dev nD) : outs m 10 main_v16 c = (dat0 (Vin0 m) c).arrAt 3 cfg0.N := by
  rw [outs_10_eq]; unfold outsG; rw [dif_pos rfl]

theorem outs_11 (c : Dev nD) : outs m 11 main_v17 c = (dat1 (Vin1 m) c).arrAt 5 cfg1.N := by
  rw [Vin1_eq]; unfold outs; rw [if_pos rfl, dif_pos rfl]

/-! ## The proof data family and what rides beside the buffers -/

/-- Both launches' proof data, each at its region's entry contents. -/
def pdats : (p : Fin 2) → (c : Dev nD) → Dat τ (Elt F) Unit ℕ (UR sig nD τ) ℕ (Pipeline.pin (pcfgs (F := F)) Gen.adm p) c
  | ⟨0, _⟩ => fun c => dat0 (Vin0 m) c
  | ⟨1, _⟩ => fun c => dat1 (Vin1 m) c

abbrev 𝒱₀ : Variants := Variants.none
/-- No core owes another anything: no level is assigned. -/
abbrev L : GSem nD τ sig → Finset Unit := fun _ => ∅
abbrev lv : GSem nD τ sig → Unit → ℕ := fun _ _ => 0

/-- What rides beside the buffers through every item: the core's generator register at some state and its dues, at
    nothing. -/
abbrev R (c : Dev nD) : sProp 𝕄 := iprop((∃ r, prngReg c r) ∗ ∃ W, owes (c : Thread nD τ) (0 : CellTallies nD τ sig Unit) W)

abbrev E : Fin 3 → Dev nD → sProp 𝕄 := fun _ c => R (F := F) c

/-! ## The gather region -/

/-- After the gather every array of it holds what the valuation after it says: the inputs are never written, the
    output is the valuation's replaced entry. -/
theorem hF0 (c : Dev nD) : ∀ w : Fin cfg0.W, (dat0 (Vin0 m) c).arrAt w cfg0.N = Vin1 m c (Pipeline.arrRef spec0 w)
  | ⟨0, _⟩ => ((dat0 (Vin0 m) c).arrAt_in 0 rfl _).trans ((A_eq0 (Vin0 m) c 0).trans (Gen.V10_of m (outs m) c main_v12 (by decide)).symm)
  | ⟨1, _⟩ => ((dat0 (Vin0 m) c).arrAt_in 1 rfl _).trans ((A_eq0 (Vin0 m) c 1).trans (Gen.V10_of m (outs m) c main_v9 (by decide)).symm)
  | ⟨2, _⟩ => ((dat0 (Vin0 m) c).arrAt_in 2 rfl _).trans ((A_eq0 (Vin0 m) c 2).trans (Gen.V10_of m (outs m) c main_v11 (by decide)).symm)
  | ⟨3, _⟩ => by
    refine (outs_10 m c).symm.trans ?_
    show _ = Function.update (Gen.V9 m c) (Proc.devRef .tc main_v16) (outs m 10 main_v16 c) (Proc.devRef .tc main_v16)
    rw [Function.update_self]

/-- Off the gather's arrays the valuation after it is the one before. -/
theorem hrest0 (c : Dev nD) : ∀ b, b ∉ Finset.univ.image (Pipeline.arrRef spec0) → Vin1 m c b = Vin0 m c b := fun b hb =>
  Gen.V10_of m (outs m) c b (by
    intro h
    rw [List.mem_singleton] at h
    exact hb (Finset.mem_image.mpr ⟨3, Finset.mem_univ _, h.symm⟩))

set_option backward.isDefEq.respectTransparency.types false in
/-- The gather region over the thread state: entered from every unscoped buffer at the valuation before it, left at
    the one after it. Its arrays are split out of the unscoped buffers and put back at their final contents; the
    generator register goes into the class invariant and comes back; nothing is owed; the kernel has no semaphore
    of its own. -/
def reg0 : Pipeline.RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vin0 m) c).loose
  hwaits := Pipeline.hwaits_of_owed_zero _ _ _ _ L lv 0 fun _ _ => rfl
  pre c := iprop(StableHlo.held (c : Thread nD τ) (Pipeline.ucRefs τ sig) (Gen.V9 m c) ∗ R c)
  post c := iprop(StableHlo.held (c : Thread nD τ) (Pipeline.ucRefs τ sig) (Gen.V10 m (outs m) c) ∗ R c)
  X c := iprop(∃ r, prngReg c r)
  Y c := iprop(∃ r, prngReg c r)
  Z c := Pipeline.unscopedRest (Ix := Unit) (Name := ℕ) (U := UR sig nD τ) (Lvl := ℕ) spec0 c (Vin0 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (Vin0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show (Pipeline.ΦA spec0 c : sProp 𝕄) ⊢ (pdats m 0 c).Φ 0 from hin0 (Vin0 m) c)
    unfold Pipeline.ΦA
    iintro ⟨Hp, -, Hr⟩
    isplitl [Hr]; · iexact Hr
    iexact Hp
  hout c := by
    rw [Pipeline.ownSems0_none]
    refine BIBase.Entails.trans (show (pdats m 0 c).Φ (Fin.last _) ⊢ (Pipeline.ΦA spec0 c : sProp 𝕄) from hout0 (Vin0 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (Vin0 m c) (Vin1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The scatter region -/

/-- The valuation after the scatter region, read at the TensorCore's references. -/
abbrev Vend : (c : Dev nD) → (b : Ref sig .tc) → Buf (Elt F) ((c : Thread nD τ).loc b) := fun c b => Gen.V11 m (outs m) c b

/-- After the scatter every array of it holds what the valuation after it says: the inputs are never written, the
    output is the valuation's replaced entry. -/
theorem hF1 (c : Dev nD) : ∀ w : Fin cfg1.W, (dat1 (Vin1 m) c).arrAt w cfg1.N = Vend m c (Pipeline.arrRef spec1 w)
  | ⟨0, _⟩ => ((dat1 (Vin1 m) c).arrAt_in 0 rfl _).trans ((A_eq1 (Vin1 m) c 0).trans (Gen.V11_of m (outs m) c main_v13 (by decide)).symm)
  | ⟨1, _⟩ => ((dat1 (Vin1 m) c).arrAt_in 1 rfl _).trans ((A_eq1 (Vin1 m) c 1).trans (Gen.V11_of m (outs m) c main_v16 (by decide)).symm)
  | ⟨2, _⟩ => ((dat1 (Vin1 m) c).arrAt_in 2 rfl _).trans ((A_eq1 (Vin1 m) c 2).trans (Gen.V11_of m (outs m) c main_v11 (by decide)).symm)
  | ⟨3, _⟩ => ((dat1 (Vin1 m) c).arrAt_in 3 rfl _).trans ((A_eq1 (Vin1 m) c 3).trans (Gen.V11_of m (outs m) c main_v14 (by decide)).symm)
  | ⟨4, _⟩ => ((dat1 (Vin1 m) c).arrAt_in 4 rfl _).trans ((A_eq1 (Vin1 m) c 4).trans (Gen.V11_of m (outs m) c main_v15 (by decide)).symm)
  | ⟨5, _⟩ => by
    refine (outs_11 m c).symm.trans ?_
    show _ = Function.update (Gen.V10 m (outs m) c) (Proc.devRef .tc main_v17) (outs m 11 main_v17 c) (Proc.devRef .tc main_v17)
    rw [Function.update_self]

/-- Off the scatter's arrays the valuation after it is the one before. -/
theorem hrest1 (c : Dev nD) : ∀ b, b ∉ Finset.univ.image (Pipeline.arrRef spec1) → Vend m c b = Vin1 m c b := fun b hb =>
  Gen.V11_of m (outs m) c b (by
    intro h
    rw [List.mem_singleton] at h
    exact hb (Finset.mem_image.mpr ⟨5, Finset.mem_univ _, h.symm⟩))

set_option backward.isDefEq.respectTransparency.types false in
/-- The scatter region over the thread state: entered from every unscoped buffer at the valuation the gather leaves,
    left at the one with the scatter's output in place; the rest as for the gather. -/
def reg1 : Pipeline.RegionSeg (pcfgs (F := F)) Gen.adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vin1 m) c).loose
  hwaits := Pipeline.hwaits_of_owed_zero _ _ _ _ L lv 1 fun _ _ => rfl
  pre c := iprop(StableHlo.held (c : Thread nD τ) (Pipeline.ucRefs τ sig) (Gen.V10 m (outs m) c) ∗ R c)
  post c := iprop(StableHlo.held (c : Thread nD τ) (Pipeline.ucRefs τ sig) (Gen.V11 m (outs m) c) ∗ R c)
  X c := iprop(∃ r, prngReg c r)
  Y c := iprop(∃ r, prngReg c r)
  Z c := Pipeline.unscopedRest (Ix := Unit) (Name := ℕ) (U := UR sig nD τ) (Lvl := ℕ) spec1 c (Vin1 m c)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (Vin1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show (Pipeline.ΦA spec1 c : sProp 𝕄) ⊢ (pdats m 1 c).Φ 0 from hin1 (Vin1 m) c)
    unfold Pipeline.ΦA
    iintro ⟨Hp, -, Hr⟩
    isplitl [Hr]; · iexact Hr
    iexact Hp
  hout c := by
    rw [Pipeline.ownSems0_none]
    refine BIBase.Entails.trans (show (pdats m 1 c).Φ (Fin.last _) ⊢ (Pipeline.ΦA spec1 c : sProp 𝕄) from hout1 (Vin1 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (Vin1 m c) (Vend m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

/-- What rides beside the buffers ends owing nothing. -/
theorem R_owes (c : Dev nD) : (R (F := F) c) ⊢ (iprop(∃ W, owes (c : Thread nD τ) (0 : CellTallies nD τ sig Unit) W) : sProp 𝕄) := by
  iintro ⟨-, HO⟩; iexact HO

set_option backward.isDefEq.respectTransparency.types false in
/-- From any memory with zero counters, every weakly fair execution of the program on the TensorCores terminates,
    and every final memory holds the result buffer at what the last host stretch computes from the valuation the
    two regions leave, and each argument as launched. -/
theorem run_main : θ_run defs (onTc (τ := τ) (main (F := F))) ⟨m, fun _ => 0, ρ⟩ (fun r => ∀ c : Dev nD,
    r.2.mem ((c.tc : Thread nD τ).loc main_v18) = Gen.V12 m (outs m) c main_v18
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)) := by
  refine Pipeline.θ_run_regions_kit_dev (pcfgs (F := F)) Gen.adm (pdats m) () cellOf_inj emb₁ defs₀ 𝒱₀ L lv m ρ main
    (Gen.segs m (outs m) 𝒱₀ L lv (E (F := F)) () (pdats m) (reg0 m) (reg1 m))
    (fun c Q => by
      rewrite [main_chain c, Pipeline.Seg.run_eq_chain,
        show (Gen.segs m (outs m) 𝒱₀ L lv (E (F := F)) () (pdats m) (reg0 m) (reg1 m) c).map Pipeline.Seg.prog = [
          StableHlo.seq hostOps0,
          StableHlo.seq hostOps0_1,
          StableHlo.seq hostOps0_2,
          StableHlo.seq hostOps0_3,
          StableHlo.seq hostOps0_4,
          StableHlo.seq hostOps0_5,
          StableHlo.seq hostOps0_6,
          StableHlo.seq hostOps0_7,
          StableHlo.seq hostOps0_8,
          Prog.lift (.customCall (Pipeline.entry 0) ()),
          Prog.lift (.customCall (Pipeline.entry 1) ()),
          StableHlo.seq hostOps2 ] from rfl]
      exact .rfl)
    (fun c => by simp only [Gen.segs, Pipeline.Seg.pipes_host, Pipeline.Seg.pipes_region, Pipeline.Seg.pipes_nil]; decide)
    0 (fun _ _ => rfl) (fun _ => iprop(emp))
    (initOf (Pipeline.cells cfgs cellOf_inj) (Pipeline.launchToks cfgs cellOf_inj)) ?_
    (T₀ := fun c => iprop(StableHlo.held (c : Thread nD τ) (Pipeline.ucRefs τ sig) (Gen.V0 m c) ∗ R c))
    (Tₙ := fun c => StableHlo.held (c : Thread nD τ) (Pipeline.ucRefs τ sig) (Gen.V12 m (outs m) c))
    (hch := fun c => ⟨.rfl, .rfl, .rfl, .rfl, .rfl, .rfl, .rfl, .rfl, .rfl, .rfl, .rfl, .rfl, sep_mono .rfl (R_owes c)⟩)
    (hinit := ?_)
    (QY := fun c s => s.mem ((c.tc : Thread nD τ).loc main_v18) = Gen.V12 m (outs m) c main_v18
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4))
    (hfin := fun c s' => ?_) (hQ := fun _ h => h)
  · -- the launch element is the pipelines' own; no ghost resource beside it
    iintro Hu; imodintro
    isplitl [Hu]
    · iapply (show (ownU (initOf (Pipeline.cells cfgs cellOf_inj) (Pipeline.launchToks cfgs cellOf_inj)) : sProp 𝕄)
          ⊢ BI.own (emb₁ (initOf (Pipeline.cells cfgs cellOf_inj) (Pipeline.launchToks cfgs cellOf_inj))) from .rfl)
      iexact Hu
    iapply (show (BI.emp : sProp 𝕄) ⊢ bigSep Finset.univ (fun _ : Dev nD => (BI.emp : sProp 𝕄)) from by rw [BI.bigSep_emp_const])
    iempintro
  · -- the launch: every unscoped buffer at the launch memory, the generator register, nothing owed
    refine Pipeline.initEach L lv fun c => ?_
    rw [show unscopedBufs c (fun b => m ((c : Thread nD τ).loc b)) = StableHlo.held (c : Thread nD τ) (Pipeline.ucRefs τ sig) (Gen.V0 m c)
      from Pipeline.unscopedBufs_held c (Gen.V0 m c)]
    iintro ⟨⟨Hh, -, HO, -, Hp, -⟩, -⟩
    imodintro
    isplitl [Hh]; · iexact Hh
    isplitl [Hp]; · iexists _; iexact Hp
    iexists ∅; iexact HO
  · -- the end: the result and each argument read off the last valuation
    unfold StableHlo.held
    iintro ⟨Hh, HSI⟩
    ihave Hr := (pointsTo_read_all (Pipeline.ucRefs τ sig) (fun b => ((c : Thread nD τ).1, b)) (Gen.V12 m (outs m) c) s') $$ [Hh HSI]
    · isplitl [Hh] <;> iassumption
    icases Hr with ⟨%h, HSI⟩
    imodintro
    isplitr
    · ipureintro
      exact ⟨h (Proc.devRef .tc main_v18) (Finset.mem_filter.mpr ⟨StableHlo.devRef_mem_tcRefs main_v18, by decide⟩),
        (h (Proc.devRef .tc main_arg0) (Finset.mem_filter.mpr ⟨StableHlo.devRef_mem_tcRefs main_arg0, by decide⟩)).trans (Gen.V12_main_arg0 m (outs m) c),
        (h (Proc.devRef .tc main_arg1) (Finset.mem_filter.mpr ⟨StableHlo.devRef_mem_tcRefs main_arg1, by decide⟩)).trans (Gen.V12_main_arg1 m (outs m) c),
        (h (Proc.devRef .tc main_arg2) (Finset.mem_filter.mpr ⟨StableHlo.devRef_mem_tcRefs main_arg2, by decide⟩)).trans (Gen.V12_main_arg2 m (outs m) c),
        (h (Proc.devRef .tc main_arg3) (Finset.mem_filter.mpr ⟨StableHlo.devRef_mem_tcRefs main_arg3, by decide⟩)).trans (Gen.V12_main_arg3 m (outs m) c),
        (h (Proc.devRef .tc main_arg4) (Finset.mem_filter.mpr ⟨StableHlo.devRef_mem_tcRefs main_arg4, by decide⟩)).trans (Gen.V12_main_arg4 m (outs m) c)⟩
    · iexact HSI

/-- The frame: every argument ends as launched. -/
theorem frame : θ_run defs (onTc (τ := τ) (main (F := F))) ⟨m, fun _ => 0, ρ⟩ (fun r => ∀ c : Dev nD,
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)) :=
  (θ_run _ _ _).mono (fun r h c => (h c).2) (run_main m ρ)

end Cert.KernelIdeal.Hand

end
-- ==== Proof.RefValue.lean ====
/-
  The reference's result at an index, at the exact-arithmetic reading.

  The reference computes, for a graph with 100000 nodes and 1600000 edges (edge e goes from node src e to node
  tgt e): the in-degree deg n = #{e | tgt e = n}; the normalized features inv n * x n with inv = deg^(-1/2); for every
  edge the normalized row of its source; for every node the sum of the rows of the edges that end in it, scaled by
  inv n again; a dense layer and a maximum with zero.
-/
import proofs.«407817_j53334903882610_2_alg».proof.Defs
import proofs.«407817_j53334903882610_2_alg».proof.Proof.Gen.ReferenceIdeal.Run
import proofs.«407817_j53334903882610_2_alg».proof.Proof.Gen.ReferenceIdeal.Read
import Idealize.ShloMosaic.Lib.ValueIdx
import Idealize.ShloMosaic.Lib.IdealHost
import Idealize.ShloMosaic.Lib.Pipeline.Value
import Idealize.ShloMosaic.PureOps.Ideal.Laws
import Idealize.ShloMosaic.Lib.StableHlo.Run

noncomputable section

namespace Cert.ReferenceIdeal.Hand

open Idealize.ShloMosaic Idealize.ShloMosaic.TcCoe Idealize.SL.Sem
open Cert.ReferenceIdeal Cert.ReferenceIdeal.Gen
open Idealize.ShloMosaic.ValueIdx

/-! ## The run's result as a function of the five arguments -/

/-- The reference's result array as a function of the features `x`, the weights `W`, the bias `b` and the edges'
    source and target node ids. -/
def refOut (x : FVec Ideal S100000x64 .f32) (W : FVec Ideal S64x64 .f32) (b : FVec Ideal S64 .f32)
    (src tgt : IVec S1600000 32) : FVec Ideal S100000x64 .f32 :=
  Read.val_main_v25 (F := Ideal) x W b src tgt

/-- Every weakly fair execution of the reference ends with its result at `refOut` of the arguments' launch
    contents, the arguments unchanged. -/
theorem ref_run (m' : (ℓ : Loc nD τ sig) → Buf (Elt Ideal) ℓ) (ρ' : Dev nD → PrngReg) :
    θ_run (defs (F := Ideal)) (onTc (τ := τ) (main (F := Ideal))) ⟨m', fun _ => 0, ρ'⟩ (fun r => ∀ c : Dev nD,
      r.2.mem ((c.tc : Thread nD τ).loc main_v25)
        = refOut (m' ((c.tc : Thread nD τ).loc main_arg0)) (m' ((c.tc : Thread nD τ).loc main_arg1))
            (m' ((c.tc : Thread nD τ).loc main_arg2)) (m' ((c.tc : Thread nD τ).loc main_arg3))
            (m' ((c.tc : Thread nD τ).loc main_arg4))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4)) :=
  (θ_run defs _ _).mono (fun _ h c => ⟨(h c).1.trans (Read.val_main_v25_eq _ _ _ _ _), (h c).2⟩)
    (Value.run (F := Ideal) m' ρ')

/-! ## The stages by name -/

/-- The in-degree of every node: ones added at the edges' targets. -/
def deg (tgt : IVec S1600000 32) : FVec Ideal S100000 .f32 := Read.val_main_v3 (F := Ideal) tgt

/-- The features, every node's row scaled by the inverse square root of its in-degree. -/
def normalized (x : FVec Ideal S100000x64 .f32) (tgt : IVec S1600000 32) : FVec Ideal S100000x64 .f32 :=
  Read.val_main_v7 (F := Ideal) x tgt

/-- For every edge, the normalized row of its source. -/
def gathered (x : FVec Ideal S100000x64 .f32) (src tgt : IVec S1600000 32) : FVec Ideal S1600000x64 .f32 :=
  Read.val_main_v14 (F := Ideal) x src tgt

/-- For every node, the sum of the gathered rows of the edges that end in it. -/
def pooled (x : FVec Ideal S100000x64 .f32) (src tgt : IVec S1600000 32) : FVec Ideal S100000x64 .f32 :=
  Read.val_main_v17 (F := Ideal) x src tgt

/-! ## Words -/

/-- A word below 100000 is not negative, so the reference's wrap of a negative source id leaves it. -/
theorem wrap_id (s : BitVec 32) (h : s.toNat < 100000) :
    Scalar.select (IntOp.cmpi .slt s 0#32) (IntOp.addi s 100000#32) s = s := by
  have hi : s.toInt = (s.toNat : Int) := BitVec.toInt_eq_toNat_of_lt (by omega)
  have h0 : s.slt 0#32 = false := by
    rw [Bool.eq_false_iff, ne_eq, BitVec.slt_iff_toInt_lt, hi]
    simp
  unfold Scalar.select IntOp.cmpi
  simp only [h0]
  rfl

/-- A word below 100000 read signed and clamped into the node range is itself. -/
theorem clamp_id (s : BitVec 32) (h : s.toNat < 100000) : min s.toInt.toNat 99999 = s.toNat := by
  have hi : s.toInt = (s.toNat : Int) := BitVec.toInt_eq_toNat_of_lt (by omega)
  rw [hi, Int.toNat_natCast]; omega

/-! ## The gather at an index -/

/-- The gather reads, for edge `e` and column `k`, the operand's row at the start index `idx[e, 0]` read signed and
    clamped into the node range, at column `k`. -/
theorem gather_apply {α : Type} (xx : S100000x64.Idx → α) (idx : IVec S1600000x1 32) (e : Fin 1600000) (k : Fin 64) :
    Host.gather gather_S100000x64_S1600000x1_S1600000x64_1_0_n_n_0_1_164 xx idx (ix2 e k)
      = xx (ix2 ⟨min (idx (ix2 e 0)).toInt.toNat 99999, by omega⟩ k) := by
  unfold Host.gather
  congr 1
  funext a
  refine Fin.ext ?_
  match a with
  | ⟨0, _⟩ =>
    show gather_S100000x64_S1600000x1_S1600000x64_1_0_n_n_0_1_164.start (ix2 e k) idx 0
      + gather_S100000x64_S1600000x1_S1600000x64_1_0_n_n_0_1_164.batchCoord (ix2 e k) 0
      + gather_S100000x64_S1600000x1_S1600000x64_1_0_n_n_0_1_164.offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin S100000x64.rank) ∈ gather_S100000x64_S1600000x1_S1600000x64_1_0_n_n_0_1_164.startIndexMap
      from List.mem_singleton.mpr rfl)]
    have hsi : gather_S100000x64_S1600000x1_S1600000x64_1_0_n_n_0_1_164.siIdx (ix2 e k)
        ⟨List.idxOf (0 : Fin S100000x64.rank) gather_S100000x64_S1600000x1_S1600000x64_1_0_n_n_0_1_164.startIndexMap,
          List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show gather_S100000x64_S1600000x1_S1600000x64_1_0_n_n_0_1_164.start (ix2 e k) idx 1
      + gather_S100000x64_S1600000x1_S1600000x64_1_0_n_n_0_1_164.batchCoord (ix2 e k) 1
      + gather_S100000x64_S1600000x1_S1600000x64_1_0_n_n_0_1_164.offCoord (ix2 e k) 1 = k.val
    rw [GatherDims.batchCoord_eq_zero _ _ _ List.not_mem_nil]
    unfold GatherDims.start GatherDims.offCoord
    rw [dif_neg (show ¬(1 : Fin S100000x64.rank) ∈ gather_S100000x64_S1600000x1_S1600000x64_1_0_n_n_0_1_164.startIndexMap by decide),
      dif_pos (show (1 : Fin S100000x64.rank) ∈ gather_S100000x64_S1600000x1_S1600000x64_1_0_n_n_0_1_164.sKept by decide)]
    simp only [Nat.add_zero, Nat.zero_add]
    rfl

/-! ## The scatter-adds at an index -/

section Pooled

/-- The second scatter's dimension numbers, by a short name. -/
abbrev S2 : ScatterDims S100000x64 S1600000x1 S1600000x64 := scatter_S100000x64_S1600000x1_S1600000x64_1_0_0_1

theorem S2_siIdx (j : S1600000x64.Idx)
    (h : List.idxOf (0 : Fin S100000x64.rank) S2.scatterDimsToOperandDims < S2.scatterDimsToOperandDims.length) :
    S2.siIdx j ⟨List.idxOf (0 : Fin S100000x64.rank) S2.scatterDimsToOperandDims, h⟩ = ix2 (j 0) 0 := by
  funext b; refine Fin.ext ?_
  match b with
  | ⟨0, _⟩ => rfl
  | ⟨1, _⟩ => rfl

theorem S2_start0 (j : S1600000x64.Idx) (idx : IVec S1600000x1 32) :
    S2.start j idx 0 = (idx (ix2 (j 0) 0)).toInt := by
  unfold ScatterDims.start
  rw [dif_pos (show (0 : Fin S100000x64.rank) ∈ S2.scatterDimsToOperandDims from List.mem_singleton.mpr rfl), S2_siIdx]
  rfl

theorem S2_start1 (j : S1600000x64.Idx) (idx : IVec S1600000x1 32) : S2.start j idx 1 = 0 := by
  unfold ScatterDims.start
  rw [dif_neg (show ¬(1 : Fin S100000x64.rank) ∈ S2.scatterDimsToOperandDims by decide)]

theorem S2_window0 (j : S1600000x64.Idx) : S2.window j 0 = 0 := by
  unfold ScatterDims.window
  rw [dif_neg (show ¬(0 : Fin S100000x64.rank) ∈ S2.sKept by decide)]

theorem S2_window1 (j : S1600000x64.Idx) : S2.window j 1 = (j 1).val := by
  unfold ScatterDims.window
  rw [dif_pos (show (1 : Fin S100000x64.rank) ∈ S2.sKept by decide)]
  rfl

/-- An update `(e, k')` lands on element `(n, k)` exactly when edge `e`'s scatter index, read signed, is `n` and
    `k' = k`. -/
theorem S2_resultIdx_iff (j : S1600000x64.Idx) (idx : IVec S1600000x1 32) (i : S100000x64.Idx) :
    S2.resultIdx? j idx = some i ↔ (idx (ix2 (j 0) 0)).toInt = ((i 0).val : Int) ∧ (j 1).val = (i 1).val := by
  have hi0 := idx2_lt0 i
  have hi1 := idx2_lt1 i
  have hj1 := idx2_lt1 j
  unfold ScatterDims.resultIdx?
  split
  · rename_i h
    constructor
    · intro hh
      have hh := Option.some.inj hh
      have e0 : (S2.start j idx 0 + S2.window j 0).toNat = (i 0).val := congrArg Fin.val (congrFun hh 0)
      have e1 : (S2.start j idx 1 + S2.window j 1).toNat = (i 1).val := congrArg Fin.val (congrFun hh 1)
      have h0 := (h 0).1
      rw [S2_start0, S2_window0] at e0 h0
      rw [S2_start1, S2_window1] at e1
      constructor <;> omega
    · rintro ⟨e0, e1⟩
      refine congrArg some (funext fun a => Fin.ext ?_)
      match a with
      | ⟨0, _⟩ =>
        show (S2.start j idx 0 + S2.window j 0).toNat = (i 0).val
        rw [S2_start0, S2_window0, e0]; omega
      | ⟨1, _⟩ =>
        show (S2.start j idx 1 + S2.window j 1).toNat = (i 1).val
        rw [S2_start1, S2_window1]; omega
  · rename_i h
    constructor
    · intro hh; exact absurd hh (by simp)
    · rintro ⟨e0, e1⟩
      exfalso; apply h; intro a
      match a with
      | ⟨0, _⟩ =>
        show 0 ≤ S2.start j idx 0 + S2.window j 0 ∧ S2.start j idx 0 + S2.window j 0 < ((100000 : Nat) : Int)
        rw [S2_start0, S2_window0, e0]; omega
      | ⟨1, _⟩ =>
        show 0 ≤ S2.start j idx 1 + S2.window j 1 ∧ S2.start j idx 1 + S2.window j 1 < ((64 : Nat) : Int)
        rw [S2_start1, S2_window1]; omega

/-- The scatter indices at `[e, 0]` are edge `e`'s target. -/
theorem tgt_col (tgt : IVec S1600000 32) (e : Fin 1600000) :
    Read.val_main_v16 (F := Ideal) tgt (ix2 e 0) = tgt (ix1 e) := by
  rw [Read.val_main_v16_apply]
  refine congrArg tgt (funext fun a => ?_)
  match a with
  | ⟨0, _⟩ => rfl

/-- The second scatter-add at `(n, k)`, for any operand, indices and updates: the operand's element plus the updates'
    column `k` over the edges whose scatter index, read signed, is `n`. -/
theorem scatter2_sum (x0 : FVec Ideal S100000x64 .f32) (idx : IVec S1600000x1 32) (upd : FVec Ideal S1600000x64 .f32)
    (n : Fin 100000) (k : Fin 64) :
    Host.scatterAdd S2 x0 idx upd (ix2 n k)
      = x0 (ix2 n k) + ∑ e : Fin 1600000, if (idx (ix2 e 0)).toInt = (n.val : Int) then upd (ix2 e k) else 0 := by
  unfold Host.scatterAdd
  rw [Ideal.hostScatterAdd_def]
  unfold Ideal.hostScatterAdd
  beta_reduce
  refine congrArg (fun s => x0 (ix2 n k) + s) ?_
  rw [Finset.sum_filter, sum_idx2]
  refine Finset.sum_congr rfl fun e _ => ?_
  rw [Finset.sum_eq_single k]
  · refine if_congr ?_ rfl rfl
    rw [S2_resultIdx_iff]
    exact ⟨fun h => h.1, fun h => ⟨h, rfl⟩⟩
  · intro k' _ hne
    rw [if_neg]
    rw [S2_resultIdx_iff]
    rintro ⟨_, h⟩
    exact hne (Fin.ext h)
  · intro h; exact absurd (Finset.mem_univ k) h

/-- The scatter-adds' initial value is zero everywhere. -/
theorem zero_init (i : S100000x64.Idx) : Read.val_main_v15 (F := Ideal) i = 0 := by
  rw [Read.val_main_v15_apply, Read.val_main_cst_2_apply, Ideal.ofBits_def, Ideal.ofBits_zero_f32]

/-- Node `n`'s pooled row at column `k`: zero plus the gathered rows' column `k` over the edges whose target, read
    signed, is `n`. -/
theorem pooled_apply (x : FVec Ideal S100000x64 .f32) (src tgt : IVec S1600000 32) (n : Fin 100000) (k : Fin 64) :
    pooled x src tgt (ix2 n k)
      = 0 + ∑ e : Fin 1600000, if (tgt (ix1 e)).toInt = (n.val : Int) then gathered x src tgt (ix2 e k) else 0 := by
  refine (scatter2_sum (Read.val_main_v15 (F := Ideal)) (Read.val_main_v16 (F := Ideal) tgt) (gathered x src tgt) n k).trans ?_
  rw [zero_init]
  refine congrArg (fun s => 0 + s) (Finset.sum_congr rfl fun e _ => ?_)
  rw [tgt_col]

end Pooled

section Deg

/-- The first scatter's dimension numbers, by a short name. -/
abbrev S1 : ScatterDims S100000 S1600000x1 S1600000 := scatter_S100000_S1600000x1_S1600000_n_0_0_1

theorem S1_siIdx (j : S1600000.Idx)
    (h : List.idxOf (0 : Fin S100000.rank) S1.scatterDimsToOperandDims < S1.scatterDimsToOperandDims.length) :
    S1.siIdx j ⟨List.idxOf (0 : Fin S100000.rank) S1.scatterDimsToOperandDims, h⟩ = ix2 (j 0) 0 := by
  funext b; refine Fin.ext ?_
  match b with
  | ⟨0, _⟩ => rfl
  | ⟨1, _⟩ => rfl

theorem S1_start0 (j : S1600000.Idx) (idx : IVec S1600000x1 32) :
    S1.start j idx 0 = (idx (ix2 (j 0) 0)).toInt := by
  unfold ScatterDims.start
  rw [dif_pos (show (0 : Fin S100000.rank) ∈ S1.scatterDimsToOperandDims from List.mem_singleton.mpr rfl), S1_siIdx]
  rfl

theorem S1_window0 (j : S1600000.Idx) : S1.window j 0 = 0 := by
  unfold ScatterDims.window
  rw [dif_neg (show ¬(0 : Fin S100000.rank) ∈ S1.sKept by decide)]

/-- Update `e` lands on element `n` exactly when edge `e`'s scatter index, read signed, is `n`. -/
theorem S1_resultIdx_iff (j : S1600000.Idx) (idx : IVec S1600000x1 32) (i : S100000.Idx) :
    S1.resultIdx? j idx = some i ↔ (idx (ix2 (j 0) 0)).toInt = ((i 0).val : Int) := by
  have hi0 : (i 0).val < 100000 := (i 0).isLt
  unfold ScatterDims.resultIdx?
  split
  · rename_i h
    constructor
    · intro hh
      have hh := Option.some.inj hh
      have e0 : (S1.start j idx 0 + S1.window j 0).toNat = (i 0).val := congrArg Fin.val (congrFun hh 0)
      have h0 := (h 0).1
      rw [S1_start0, S1_window0] at e0 h0
      omega
    · intro e0
      refine congrArg some (funext fun a => Fin.ext ?_)
      match a with
      | ⟨0, _⟩ =>
        show (S1.start j idx 0 + S1.window j 0).toNat = (i 0).val
        rw [S1_start0, S1_window0, e0]; omega
  · rename_i h
    constructor
    · intro hh; exact absurd hh (by simp)
    · intro e0
      exfalso; apply h; intro a
      match a with
      | ⟨0, _⟩ =>
        show 0 ≤ S1.start j idx 0 + S1.window j 0 ∧ S1.start j idx 0 + S1.window j 0 < ((100000 : Nat) : Int)
        rw [S1_start0, S1_window0, e0]; omega

/-- The first scatter's indices at `[e, 0]` are edge `e`'s target. -/
theorem tgt_col' (tgt : IVec S1600000 32) (e : Fin 1600000) :
    Read.val_main_v2 (F := Ideal) tgt (ix2 e 0) = tgt (ix1 e) := by
  rw [Read.val_main_v2_apply]
  refine congrArg tgt (funext fun a => ?_)
  match a with
  | ⟨0, _⟩ => rfl

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The first scatter-add at `n`, for any operand, indices and updates: the operand's element plus the updates over the
    edges whose scatter index, read signed, is `n`. -/
theorem scatter1_sum (x0 : FVec Ideal S100000 .f32) (idx : IVec S1600000x1 32) (upd : FVec Ideal S1600000 .f32)
    (n : Fin 100000) :
    Host.scatterAdd S1 x0 idx upd (ix1 n)
      = x0 (ix1 n) + ∑ e : Fin 1600000, if (idx (ix2 e 0)).toInt = (n.val : Int) then upd (ix1 e) else 0 := by
  unfold Host.scatterAdd
  rw [Ideal.hostScatterAdd_def]
  unfold Ideal.hostScatterAdd
  beta_reduce
  refine congrArg (fun s => x0 (ix1 n) + s) ?_
  rw [Finset.sum_filter, sum_idx1]
  refine Finset.sum_congr rfl fun e _ => ?_
  refine if_congr ?_ rfl rfl
  rw [S1_resultIdx_iff]

/-- The in-degree's initial value is zero everywhere. -/
theorem zero_init' (i : S100000.Idx) : Read.val_main_v1 (F := Ideal) i = 0 := by
  rw [Read.val_main_v1_apply, Read.val_main_cst_0_apply, Ideal.ofBits_def, Ideal.ofBits_zero_f32]

/-- The in-degree's updates are one everywhere. -/
theorem one_upd (i : S1600000.Idx) : Read.val_main_v0 (F := Ideal) i = 1 := by
  rw [Read.val_main_v0_apply, Read.val_main_cst_apply, Ideal.ofBits_def, Ideal.ofBits_one_f32]

/-- Node `n`'s in-degree: zero plus a one for every edge whose target, read signed, is `n`. -/
theorem deg_apply (tgt : IVec S1600000 32) (n : Fin 100000) :
    deg tgt (ix1 n) = 0 + ∑ e : Fin 1600000, if (tgt (ix1 e)).toInt = (n.val : Int) then 1 else 0 := by
  refine (scatter1_sum (Read.val_main_v1 (F := Ideal)) (Read.val_main_v2 (F := Ideal) tgt) (Read.val_main_v0 (F := Ideal)) n).trans ?_
  rw [zero_init']
  refine congrArg (fun s => 0 + s) (Finset.sum_congr rfl fun e _ => ?_)
  rw [tgt_col', one_upd]

end Deg

/-! ## The normalized features and the gathered rows at an index -/

/-- Node `n`'s normalized row: its features times the inverse square root of its in-degree. -/
theorem normalized_apply (x : FVec Ideal S100000x64 .f32) (tgt : IVec S1600000 32) (n : Fin 100000) (k : Fin 64) :
    normalized x tgt (ix2 n k) = Ideal.rsqrt (deg tgt (ix1 n)) * x (ix2 n k) := by
  unfold normalized deg
  rw [Read.val_main_v7_apply, Read.val_main_v6_apply, Read.val_main_v5_apply, Read.val_main_v4_apply, Ideal.mulf_def,
    Ideal.hostUnary_rsqrt_def]
  have h : Read.idx_main_v5 (Read.idx_main_v6 (ix2 n k)) = ix1 n := by
    funext a
    match a with
    | ⟨0, _⟩ => rfl
  rw [h]

/-- The gather's start index of edge `e` is the edge's source when that is a node id. -/
theorem src_col (src : IVec S1600000 32) (e : Fin 1600000) (h : (src (ix1 e)).toNat < 100000) :
    Read.val_main_v13 (F := Ideal) src (ix2 e 0) = src (ix1 e) := by
  have hi : Read.idx_main_v13 (ix2 e (0 : Fin 1)) = ix1 e := by
    funext a
    match a with
    | ⟨0, _⟩ => rfl
  rw [Read.val_main_v13_apply, hi, Read.val_main_v12_apply, Read.val_main_v9_apply, Read.val_main_v11_apply,
    Read.val_main_v8_apply, Read.val_main_c_apply, Read.val_main_v10_apply, Read.val_main_c_1_apply]
  exact wrap_id _ h

/-- Edge `e`'s gathered row is its source's normalized row, when every source is a node id. -/
theorem gathered_apply (x : FVec Ideal S100000x64 .f32) (src tgt : IVec S1600000 32)
    (hsrc : ∀ e : Fin 1600000, (src (ix1 e)).toNat < 100000) (e : Fin 1600000) (k : Fin 64) :
    gathered x src tgt (ix2 e k) = normalized x tgt (ix2 ⟨(src (ix1 e)).toNat, hsrc e⟩ k) := by
  have hrow : ∀ a b : Fin 100000, a = b → normalized x tgt (ix2 a k) = normalized x tgt (ix2 b k) :=
    fun a b h => by rw [h]
  unfold gathered Read.val_main_v14
  rw [gather_apply]
  refine hrow _ _ (Fin.ext ?_)
  show min (Read.val_main_v13 (F := Ideal) src (ix2 e 0)).toInt.toNat 99999 = (src (ix1 e)).toNat
  rw [src_col src e (hsrc e)]
  exact clamp_id _ (hsrc e)

/-! ## The result at an index -/

/-- The second scaling's factor at `(n, k)` is node `n`'s inverse square-root in-degree. -/
theorem inv_col (tgt : IVec S1600000 32) (n : Fin 100000) (k : Fin 64) :
    Read.val_main_v19 (F := Ideal) tgt (ix2 n k) = Ideal.rsqrt (deg tgt (ix1 n)) := by
  unfold deg
  rw [Read.val_main_v19_apply, Read.val_main_v18_apply, Read.val_main_v4_apply, Ideal.hostUnary_rsqrt_def]
  have h : Read.idx_main_v18 (Read.idx_main_v19 (ix2 n k)) = ix1 n := by
    funext a
    match a with
    | ⟨0, _⟩ => rfl
  rw [h]

/-- The reference's result at node `n`, output column `d`: the dense layer of the node's scaled pooled row, plus the
    bias, against zero. -/
theorem refOut_apply (x : FVec Ideal S100000x64 .f32) (W : FVec Ideal S64x64 .f32) (b : FVec Ideal S64 .f32)
    (src tgt : IVec S1600000 32) (n : Fin 100000) (d : Fin 64) :
    refOut x W b src tgt (ix2 n d)
      = max ((∑ k : Fin 64, (Ideal.rsqrt (deg tgt (ix1 n)) * pooled x src tgt (ix2 n k)) * W (ix2 k d)) + b (ix1 d)) 0 := by
  have hb : Read.idx_main_v22 (Read.idx_main_v23 (ix2 n d)) = ix1 d := by
    funext a
    match a with
    | ⟨0, _⟩ => rfl
  unfold refOut
  rw [Read.val_main_v25_apply, Read.val_main_v24_apply, Read.val_main_v21_apply, Read.val_main_v23_apply,
    Read.val_main_v22_apply, hb, Read.val_main_call0_v0_apply, Read.val_main_call0_cst_apply, Ideal.maximumf_def,
    Ideal.addf_def, Ideal.ofBits_def, Ideal.ofBits_zero_f32]
  refine congrArg (fun s => max (s + b (ix1 d)) 0) (Finset.sum_congr rfl fun k _ => ?_)
  have hl : Read.lidx_main_v21 (ix2 n d) k = ix2 n k := by
    funext a
    match a with
    | ⟨0, _⟩ => rfl
    | ⟨1, _⟩ => rfl
  have hr : Read.ridx_main_v21 (ix2 n d) k = ix2 k d := by
    funext a
    match a with
    | ⟨0, _⟩ => rfl
    | ⟨1, _⟩ => rfl
  rw [hl, hr, Read.val_main_v20_apply, Ideal.mulf_def, inv_col]
  rfl

end Cert.ReferenceIdeal.Hand

end
-- ==== Proof.Spec.lean ====
/-
  The two launches' results as whole-array functions, over the extended reals.

  The gather launch leaves in row e of its result the sum over ALL node rows of the one-hot mask (edge e's source
  word equals the node's number) times the node's row scaled by its inverse square-root degree: one-hot, so the row
  the source names when it names one, zero otherwise. The scatter launch leaves in row n of its result the clamp at
  zero of (the sum over ALL edges of the one-hot mask (the node's number equals edge e's target word) times the edge's
  gathered row, scaled by the node's inverse square-root degree) times the weight matrix plus the bias.
-/
import Idealize.ShloMosaic.PureOps.Ideal
import Idealize.ShloMosaic.Lib.ValueIdx

noncomputable section

namespace Cert.Spec

open Idealize.ShloMosaic Idealize.ShloMosaic.ValueIdx

abbrev SE1 : Shape := ⟨2, ![1601536, 1]⟩
abbrev S1E : Shape := ⟨2, ![1, 1601536]⟩
abbrev SEd : Shape := ⟨2, ![1601536, 64]⟩
abbrev SNd : Shape := ⟨2, ![100352, 64]⟩
abbrev SN1 : Shape := ⟨2, ![100352, 1]⟩
abbrev Sdd : Shape := ⟨2, ![64, 64]⟩
abbrev S1d : Shape := ⟨2, ![1, 64]⟩

/-- The one-hot factor: one when the two words are equal, zero otherwise. -/
def oh (a b : BitVec 32) : EReal := if a = b then 1 else 0

/-- The gather launch's result from the padded source column, the padded feature rows and the padded inverse
    square-root degree column. -/
def gathG (sp : SE1.Idx → BitVec 32) (xp : SNd.Idx → EReal) (ip : SN1.Idx → EReal) : SEd.Idx → EReal :=
  fun i => ∑ node : Fin 100352, oh (sp (ix2 (i 0) 0)) (BitVec.ofNat 32 node.val) * (xp (ix2 node (i 1)) * ip (ix2 node 0))

/-- The scatter launch's result from the padded target row, the gathered rows, the padded inverse square-root degree
    column, the weight matrix and the bias row. -/
def scatG (tp : S1E.Idx → BitVec 32) (g : SEd.Idx → EReal) (ip : SN1.Idx → EReal) (wb : Sdd.Idx → EReal) (bb : S1d.Idx → EReal) :
    SNd.Idx → EReal :=
  fun i => max ((∑ k : Fin 64, ((∑ e : Fin 1601536, oh (BitVec.ofNat 32 (i 0).val) (tp (ix2 0 e)) * g (ix2 e k)) * ip (ix2 (i 0) 0)) * wb (ix2 k (i 1)))
    + bb (ix2 0 (i 1))) 0

end Cert.Spec

end
-- ==== Proof.GatherValue.lean ====
/-
  The gather launch's result over the extended reals.

  At grid point t = 98·e + k the body adds to the accumulator, at row r and lane d, the sum over the 1024 nodes j of
  node tile k of the one-hot factor (edge 4096·e + r's source word equals the node number 1024·k + j) times node
  1024·k + j's row at lane d scaled by its inverse square-root degree. By induction on k the accumulator after point
  98·e + k holds the sum over the nodes below 1024·(k + 1); at k = 97 that is the sum over all 100352 nodes, and it is
  written to rows 4096·e … 4096·e + 4095 of the result. The 391 edge tiles cover the result's 1601536 rows.
-/
import proofs.«407817_j53334903882610_2_alg».proof.Proof.Gen.KernelIdeal.Launch
import proofs.«407817_j53334903882610_2_alg».proof.Proof.Gen.KernelIdeal.Skeleton
import proofs.«407817_j53334903882610_2_alg».proof.Proof.GatherDefs
import proofs.«407817_j53334903882610_2_alg».proof.Proof.Schedule
import proofs.«407817_j53334903882610_2_alg».proof.Proof.Gather
import proofs.«407817_j53334903882610_2_alg».proof.Proof.Spec
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx Cert.Spec

/-! ## The body's payloads at an index -/

theorem mm0_lhs_0 (i : S4096x64.Idx) (q : dot_S4096x1024_S1024x64_S4096x64_1_0_0_1_n_n.contr.Idx) :
    (dot_S4096x1024_S1024x64_S4096x64_1_0_0_1_n_n.lhsIdx i q 0).val = (i 0).val := by
  unfold DotDims.lhsIdx
  rw [dif_neg (show ¬(0 : Fin S4096x1024.rank) ∈ dot_S4096x1024_S1024x64_S4096x64_1_0_0_1_n_n.lhsBatch by decide), dif_pos (show (0 : Fin S4096x1024.rank) ∈ dot_S4096x1024_S1024x64_S4096x64_1_0_0_1_n_n.lhsNonContracting by decide)]
  rfl
theorem mm0_lhs_1 (i : S4096x64.Idx) (q : dot_S4096x1024_S1024x64_S4096x64_1_0_0_1_n_n.contr.Idx) :
    (dot_S4096x1024_S1024x64_S4096x64_1_0_0_1_n_n.lhsIdx i q 1).val = (q ⟨0, by decide⟩).val :=
  dot_S4096x1024_S1024x64_S4096x64_1_0_0_1_n_n.lhsIdx_val_of_single rfl i q
theorem mm0_rhs_0 (i : S4096x64.Idx) (q : dot_S4096x1024_S1024x64_S4096x64_1_0_0_1_n_n.contr.Idx) :
    (dot_S4096x1024_S1024x64_S4096x64_1_0_0_1_n_n.rhsIdx i q 0).val = (q ⟨0, by decide⟩).val :=
  dot_S4096x1024_S1024x64_S4096x64_1_0_0_1_n_n.rhsIdx_val_of_single rfl i q
theorem mm0_rhs_1 (i : S4096x64.Idx) (q : dot_S4096x1024_S1024x64_S4096x64_1_0_0_1_n_n.contr.Idx) :
    (dot_S4096x1024_S1024x64_S4096x64_1_0_0_1_n_n.rhsIdx i q 1).val = (i 1).val := by
  unfold DotDims.rhsIdx
  rw [dif_neg (show ¬(1 : Fin S1024x64.rank) ∈ dot_S4096x1024_S1024x64_S4096x64_1_0_0_1_n_n.rhsBatch by decide), dif_pos (show (1 : Fin S1024x64.rank) ∈ dot_S4096x1024_S1024x64_S4096x64_1_0_0_1_n_n.rhsNonContracting by decide)]
  rfl

/-- The mask-times-rows product into the zero accumulator, at row r and lane d: the sum over the tile's 1024 nodes. -/
theorem mm0_apply (A : FVec Ideal S4096x1024 .bf16) (B : FVec Ideal S1024x64 .bf16) (r : Fin 4096) (d : Fin 64) :
    matmul dot_S4096x1024_S1024x64_S4096x64_1_0_0_1_n_n none A B (constant (F := Ideal) S4096x64 .f32 0x00000000#32) (ix2 r d)
      = ∑ j : Fin 1024, A (ix2 r j) * B (ix2 j d) := by
  refine (Ideal.matmul_constant_zero_apply dot_S4096x1024_S1024x64_S4096x64_1_0_0_1_n_n none A B (ix2 r d)).trans ?_
  rw [← Equiv.sum_comp (ValueIdx.contrEquiv1 dot_S4096x1024_S1024x64_S4096x64_1_0_0_1_n_n 1024 rfl rfl).symm]
  refine Finset.sum_congr rfl fun k _ => ?_
  have hk := ValueIdx.contrEquiv1_symm_val dot_S4096x1024_S1024x64_S4096x64_1_0_0_1_n_n 1024 rfl rfl k
  have el : dot_S4096x1024_S1024x64_S4096x64_1_0_0_1_n_n.lhsIdx (ix2 r d) ((ValueIdx.contrEquiv1 dot_S4096x1024_S1024x64_S4096x64_1_0_0_1_n_n 1024 rfl rfl).symm k) = ix2 r k := funext fun a => Fin.ext (by
    match a with
    | ⟨0, _⟩ => exact mm0_lhs_0 _ _
    | ⟨1, _⟩ => exact (mm0_lhs_1 _ _).trans hk)
  have er : dot_S4096x1024_S1024x64_S4096x64_1_0_0_1_n_n.rhsIdx (ix2 r d) ((ValueIdx.contrEquiv1 dot_S4096x1024_S1024x64_S4096x64_1_0_0_1_n_n 1024 rfl rfl).symm k) = ix2 k d := funext fun a => Fin.ext (by
    match a with
    | ⟨0, _⟩ => exact (mm0_rhs_0 _ _).trans hk
    | ⟨1, _⟩ => exact mm0_rhs_1 _ _)
  rw [el, er]

/-- The one-hot factor as the kernel computes it: the comparison bit, widened to a word and read as a signed integer. -/
theorem mask_eq (a b : BitVec 32) :
    (FloatOps.sitofp (F := Ideal) .f32 ((IntOp.cmpi .eq a b).setWidth 32) : EReal) = oh a b := by
  unfold oh
  show ((((IntOp.cmpi .eq a b).setWidth 32).toInt : ℝ) : EReal) = _
  by_cases h : a = b
  · rw [if_pos h]
    subst h
    have e : (IntOp.cmpi .eq a a).setWidth 32 = 1#32 := by simp [IntOp.cmpi]
    have e1 : (1#32 : BitVec 32).toInt = 1 := by decide
    rw [e, e1]
    norm_num
  · rw [if_neg h]
    have hb : (a == b) = false := beq_eq_false_iff_ne.mpr h
    have e : (IntOp.cmpi .eq a b).setWidth 32 = 0#32 := by
      show BitVec.setWidth 32 (BitVec.ofBool (a == b)) = 0#32
      rw [hb]; rfl
    have e0 : (0#32 : BitVec 32).toInt = 0 := by decide
    rw [e, e0]
    norm_num

/-- The node number of node j of tile k as a word: the tile's base word plus the lane's. -/
theorem node_word (k j : Nat) : Scalar.muli (BitVec.ofNat 32 k) 1024#32 + BitVec.ofNat 32 j = BitVec.ofNat 32 (1024 * k + j) := by
  show BitVec.ofNat 32 k * BitVec.ofNat 32 1024 + BitVec.ofNat 32 j = _
  rw [← BitVec.ofNat_mul, ← BitVec.ofNat_add, Nat.mul_comm]

/-- The source column spread over the lanes reads the row's word. -/
theorem src_bcast_apply (sb : Vec Ideal S4096x1 .i32) (r : Fin 4096) (j : Fin 1024) :
    broadcastTo S4096x1024 sb broadcasts_S4096x1_S4096x1024 (ix2 r j) = sb (ix2 r 0) :=
  broadcastTo_apply sb broadcasts_S4096x1_S4096x1024 (ix2 r j) (ix2 r 0) (fun a => by
    match a with
    | ⟨0, _⟩ => rfl
    | ⟨1, _⟩ => rfl)

/-- The node-number row spread over the rows reads the lane's word. -/
theorem node_bcast_apply (w : IVec S1x1024 32) (r : Fin 4096) (j : Fin 1024) :
    broadcastTo S4096x1024 w broadcasts_S1x1024_S4096x1024 (ix2 r j) = w (ix2 0 j) :=
  broadcastTo_apply w broadcasts_S1x1024_S4096x1024 (ix2 r j) (ix2 0 j) (fun a => by
    match a with
    | ⟨0, _⟩ => rfl
    | ⟨1, _⟩ => rfl)

/-- The inverse square-root degree column spread over the lanes reads the node's entry. -/
theorem isd_bcast_apply (ib : Vec Ideal S1024x1 .f32) (j : Fin 1024) (d : Fin 64) :
    broadcastTo S1024x64 ib broadcasts_S1024x1_S1024x64 (ix2 j d) = ib (ix2 j 0) :=
  broadcastTo_apply ib broadcasts_S1024x1_S1024x64 (ix2 j d) (ix2 j 0) (fun a => by
    match a with
    | ⟨0, _⟩ => rfl
    | ⟨1, _⟩ => rfl)

/-- The node-number row at lane j. -/
theorem node_row_apply (b : BitVec 32) (j : Fin 1024) :
    addi (broadcast S1x1024 b) (iota .tc S1x1024 32 [1] iota_S1x1024_d1_w32) (ix2 0 j) = b + BitVec.ofNat 32 j.val := by
  show b + iota .tc S1x1024 32 [1] iota_S1x1024_d1_w32 (ix2 0 j) = _
  rw [iota_single_apply]

/-- The zero block. -/
theorem pay1_apply (r : Fin 4096) (d : Fin 64) : k0_pay1 (F := Ideal) (ix2 r d) = 0 := by
  unfold k0_pay1
  simp only [shapeCast_self]
  exact Ideal.ofBits_zero_f32

/-- The format change of the accumulator is the identity. -/
theorem pay3_apply (s : Vec Ideal S4096x64 .f32) (r : Fin 4096) (d : Fin 64) : k0_pay3 (F := Ideal) s (ix2 r d) = s (ix2 r d) := rfl

/-- The body's update at row r and lane d: the accumulator's entry plus the sum over the tile's 1024 nodes of the
    one-hot factor times the node's scaled entry. -/
theorem pay2_apply (i : grid0.Coords) (sb : Vec Ideal S4096x1 .i32) (xb : Vec Ideal S1024x64 .f32) (ib : Vec Ideal S1024x1 .f32)
    (s : Vec Ideal S4096x64 .f32) (r : Fin 4096) (d : Fin 64) :
    k0_pay2 (F := Ideal) i sb xb ib s (ix2 r d) = s (ix2 r d) + ∑ j : Fin 1024,
      oh (sb (ix2 r 0)) (BitVec.ofNat 32 (1024 * (i 1).val + j.val)) * (xb (ix2 j d) * ib (ix2 j 0)) := by
  unfold k0_pay2
  simp only [shapeCast_self]
  rw [addf_apply, mm0_apply]
  refine congrArg (s (ix2 r d) + ·) (Finset.sum_congr rfl fun j _ => ?_)
  refine congrArg₂ (· * ·) ?_ ?_
  · show FloatOps.sitofp (F := Ideal) .f32 ((IntOp.cmpi .eq (broadcastTo S4096x1024 sb broadcasts_S4096x1_S4096x1024 (ix2 r j))
        (broadcastTo S4096x1024 (addi (broadcast S1x1024 (Scalar.muli (BitVec.ofNat 32 (i 1).val) 1024#32))
          (iota .tc S1x1024 32 [1] iota_S1x1024_d1_w32)) broadcasts_S1x1024_S4096x1024 (ix2 r j))).setWidth 32) = _
    rw [src_bcast_apply, node_bcast_apply, node_row_apply, node_word, mask_eq]
  · show xb (ix2 j d) * broadcastTo S1024x64 ib broadcasts_S1024x1_S1024x64 (ix2 j d) = _
    rw [isd_bcast_apply]

/-! ## The input blocks, read off their arrays -/

/-- The source column's block at point t is edge tile t / 98. -/
theorem index0_0 (t : Fin cfg0.N) : win0_0.index t = ![t.val / 98, 0] := by
  show cc0_transform_0 (grid0.coords t) = _
  unfold cc0_transform_0
  simp only []
  rw [coords0_e, BitVec.toNat_ofNat, Nat.mod_eq_of_lt (by have := t0_lt t; omega)]
  rfl

/-- The feature rows' block at point t is node tile t % 98. -/
theorem index0_1 (t : Fin cfg0.N) : win0_1.index t = ![t.val % 98, 0] := by
  show cc0_transform_1 (grid0.coords t) = _
  unfold cc0_transform_1
  simp only []
  rw [coords0_k, BitVec.toNat_ofNat, Nat.mod_eq_of_lt (by omega)]
  rfl

/-- The inverse square-root degree column's block at point t is node tile t % 98. -/
theorem index0_2 (t : Fin cfg0.N) : win0_2.index t = ![t.val % 98, 0] := by
  show cc0_transform_2 (grid0.coords t) = _
  unfold cc0_transform_2
  simp only []
  rw [coords0_k, BitVec.toNat_ofNat, Nat.mod_eq_of_lt (by omega)]
  rfl

/-- Row r of edge tile t / 98 as a row of the edge arrays. -/
def erow (t : Fin cfg0.N) (r : Fin 4096) : Fin 1601536 := ⟨4096 * (t.val / 98) + r.val, by have := t0_lt t; have := r.isLt; omega⟩

/-- Node j of node tile t % 98 as a row of the node arrays. -/
def nrow (t : Fin cfg0.N) (j : Fin 1024) : Fin 100352 := ⟨1024 * (t.val % 98) + j.val, by have := j.isLt; omega⟩

variable (V : (c : Dev nD) → (b : Ref sig .tc) → Buf (Elt Ideal) ((c : Thread nD τ).loc b))

/-- The padded source column, the padded feature rows and the padded inverse square-root degree column. -/
abbrev srcA (c : Dev nD) : Vec Ideal S1601536x1 .i32 := V c main_v12
abbrev featA (c : Dev nD) : Vec Ideal S100352x64 .f32 := V c main_v9
abbrev isdA (c : Dev nD) : Vec Ideal S100352x1 .f32 := V c main_v11

theorem blk0_0_apply (c : Dev nD) (t : Fin cfg0.N) (r : Fin 4096) :
    (iblk0 (F := Ideal) V c 0 t : Vec Ideal S4096x1 .i32) (ix2 r 0) = srcA V c (ix2 (erow t r) 0) := by
  unfold iblk0 srcA
  rw [View.read_apply]
  show V c main_v12 _ = V c main_v12 _
  congr 1
  funext a
  apply Fin.ext
  match a with
  | ⟨0, _⟩ => show win0_0.index t 0 * 4096 + 1 * r.val = 4096 * (t.val / 98) + r.val
              rw [index0_0]; show (t.val / 98) * 4096 + 1 * r.val = _; omega
  | ⟨1, _⟩ => show win0_0.index t 1 * 1 + 1 * 0 = 0
              rw [index0_0]; rfl

theorem blk0_1_apply (c : Dev nD) (t : Fin cfg0.N) (j : Fin 1024) (d : Fin 64) :
    (iblk0 (F := Ideal) V c 1 t : Vec Ideal S1024x64 .f32) (ix2 j d) = featA V c (ix2 (nrow t j) d) := by
  unfold iblk0 featA
  rw [View.read_apply]
  show V c main_v9 _ = V c main_v9 _
  congr 1
  funext a
  apply Fin.ext
  match a with
  | ⟨0, _⟩ => show win0_1.index t 0 * 1024 + 1 * j.val = 1024 * (t.val % 98) + j.val
              rw [index0_1]; show (t.val % 98) * 1024 + 1 * j.val = _; omega
  | ⟨1, _⟩ => show win0_1.index t 1 * 64 + 1 * d.val = d.val
              rw [index0_1]; show 0 * 64 + 1 * d.val = _; omega

theorem blk0_2_apply (c : Dev nD) (t : Fin cfg0.N) (j : Fin 1024) :
    (iblk0 (F := Ideal) V c 2 t : Vec Ideal S1024x1 .f32) (ix2 j 0) = isdA V c (ix2 (nrow t j) 0) := by
  unfold iblk0 isdA
  rw [View.read_apply]
  show V c main_v11 _ = V c main_v11 _
  congr 1
  funext a
  apply Fin.ext
  match a with
  | ⟨0, _⟩ => show win0_2.index t 0 * 1024 + 1 * j.val = 1024 * (t.val % 98) + j.val
              rw [index0_2]; show (t.val % 98) * 1024 + 1 * j.val = _; omega
  | ⟨1, _⟩ => show win0_2.index t 1 * 1 + 1 * 0 = 0
              rw [index0_2]; rfl

/-- The body's update at point t, row r, lane d, over the arrays: the entry before plus the sum over node tile t % 98. -/
theorem point_eq (c : Dev nD) (t : Fin cfg0.N) (s : Vec Ideal S4096x64 .f32) (r : Fin 4096) (d : Fin 64) :
    k0_pay2 (F := Ideal) (grid0.coords t) (iblk0 V c 0 t) (iblk0 V c 1 t) (iblk0 V c 2 t) s (ix2 r d)
      = s (ix2 r d) + ∑ j : Fin 1024,
          oh (srcA V c (ix2 (erow t r) 0)) (BitVec.ofNat 32 (1024 * (t.val % 98) + j.val))
            * (featA V c (ix2 (nrow t j) d) * isdA V c (ix2 (nrow t j) 0)) := by
  refine (pay2_apply (grid0.coords t) (iblk0 V c 0 t) (iblk0 V c 1 t) (iblk0 V c 2 t) s r d).trans ?_
  rw [blk0_0_apply, coords0_k]
  refine congrArg (s (ix2 r d) + ·) (Finset.sum_congr rfl fun j _ => ?_)
  rw [blk0_1_apply, blk0_2_apply]

/-! ## The accumulator after each point -/

/-- Node n's contribution to lane d of a row whose source word is sw; zero past the node rows. -/
def term (sw : BitVec 32) (xp : SNd.Idx → EReal) (ip : SN1.Idx → EReal) (d : Fin 64) (n : ℕ) : EReal :=
  if h : n < 100352 then oh sw (BitVec.ofNat 32 n) * (xp (ix2 ⟨n, h⟩ d) * ip (ix2 ⟨n, h⟩ 0)) else 0

/-- The launch's result at row e and lane d is the sum of the contributions of the nodes below 100352. -/
theorem gathG_eq_range (sp : SE1.Idx → BitVec 32) (xp : SNd.Idx → EReal) (ip : SN1.Idx → EReal) (e : Fin 1601536) (d : Fin 64) :
    gathG sp xp ip (ix2 e d) = ∑ n ∈ Finset.range 100352, term (sp (ix2 e 0)) xp ip d n := by
  rw [Finset.sum_range]
  unfold gathG
  refine Finset.sum_congr rfl fun node _ => ?_
  unfold term
  rw [dif_pos node.isLt]

/-- The contributions below 1024·(k + 1) are those below 1024·k and node tile k's. -/
theorem tile_step (sw : BitVec 32) (xp : SNd.Idx → EReal) (ip : SN1.Idx → EReal) (d : Fin 64) (k : ℕ) (hk : k < 98) :
    ∑ m ∈ Finset.range (1024 * (k + 1)), term sw xp ip d m
      = ∑ m ∈ Finset.range (1024 * k), term sw xp ip d m
        + ∑ j : Fin 1024, oh sw (BitVec.ofNat 32 (1024 * k + j.val))
            * (xp (ix2 (⟨1024 * k + j.val, by have := j.isLt; omega⟩ : Fin 100352) d) * ip (ix2 (⟨1024 * k + j.val, by have := j.isLt; omega⟩ : Fin 100352) 0)) := by
  rw [show 1024 * (k + 1) = 1024 * k + 1024 by ring, Finset.sum_range_add]
  refine congrArg₂ (· + ·) rfl ?_
  rw [Finset.sum_range]
  refine Finset.sum_congr rfl fun j _ => ?_
  unfold term
  rw [dif_pos (by have := j.isLt; omega)]

/-- One point's step: if row r, lane d of the accumulator held the contributions of the nodes below 1024·(t % 98) to edge
    4096·(t / 98) + r, the body leaves there those of the nodes below 1024·(t % 98 + 1). -/
theorem step_eq (c : Dev nD) (t : Fin cfg0.N) (s : Vec Ideal S4096x64 .f32) (r : Fin 4096) (d : Fin 64)
    (hs : s (ix2 r d) = ∑ m ∈ Finset.range (1024 * (t.val % 98)), term (srcA V c (ix2 (erow t r) 0)) (featA V c) (isdA V c) d m) :
    k0_pay2 (F := Ideal) (grid0.coords t) (iblk0 V c 0 t) (iblk0 V c 1 t) (iblk0 V c 2 t) s (ix2 r d)
      = ∑ m ∈ Finset.range (1024 * (t.val % 98 + 1)), term (srcA V c (ix2 (erow t r) 0)) (featA V c) (isdA V c) d m := by
  refine (point_eq V c t s r d).trans ?_
  rw [hs]
  refine Eq.trans ?_ (tile_step _ _ _ d (t.val % 98) (Nat.mod_lt _ (by omega))).symm
  refine congrArg₂ (· + ·) rfl (Finset.sum_congr rfl fun j _ => ?_)
  rfl

/-- After point t the accumulator's row r, lane d holds the contributions of the nodes below 1024·(t % 98 + 1) to edge
    4096·(t / 98) + r. -/
theorem acc0_eq (c : Dev nD) : ∀ (n : ℕ) (h : n < cfg0.N) (r : Fin 4096) (d : Fin 64),
    (acc0 (F := Ideal) V c n h : Vec Ideal S4096x64 .f32) (ix2 r d)
      = ∑ m ∈ Finset.range (1024 * (n % 98 + 1)), term (srcA V c (ix2 (erow ⟨n, h⟩ r) 0)) (featA V c) (isdA V c) d m := by
  intro n
  induction n with
  | zero =>
    intro h r d
    refine (congrFun (acc0_zero V c ⟨0, h⟩ rfl) (ix2 r d)).trans ?_
    refine (step_eq V c ⟨0, h⟩ (k0_pay1 (F := Ideal)) r d ?_).trans rfl
    rw [pay1_apply]
    show 0 = ∑ m ∈ Finset.range (1024 * (0 % 98)), _
    rw [Nat.zero_mod, Nat.mul_zero, Finset.range_zero, Finset.sum_empty]
  | succ n ih =>
    intro h r d
    by_cases h0 : (n + 1) % 98 = 0
    · refine (congrFun (acc0_zero V c ⟨n + 1, h⟩ h0) (ix2 r d)).trans ?_
      refine (step_eq V c ⟨n + 1, h⟩ (k0_pay1 (F := Ideal)) r d ?_).trans rfl
      rw [pay1_apply]
      show 0 = ∑ m ∈ Finset.range (1024 * ((n + 1) % 98)), _
      rw [h0, Nat.mul_zero, Finset.range_zero, Finset.sum_empty]
    · have hk : (n + 1) % 98 = n % 98 + 1 := by omega
      have he : erow ⟨n, Nat.lt_of_succ_lt h⟩ r = erow ⟨n + 1, h⟩ r :=
        Fin.ext (by show 4096 * (n / 98) + r.val = 4096 * ((n + 1) / 98) + r.val; omega)
      refine (congrFun (acc0_succ V c ⟨n + 1, h⟩ h0) (ix2 r d)).trans ?_
      refine (step_eq V c ⟨n + 1, h⟩ (acc0 (F := Ideal) V c n (Nat.lt_of_succ_lt h)) r d ?_).trans rfl
      rw [ih (Nat.lt_of_succ_lt h) r d, he]
      show _ = ∑ m ∈ Finset.range (1024 * ((n + 1) % 98)), _
      rw [hk]

/-! ## From the output blocks to the result array -/

/-- The launch's result as contents of the result array. -/
abbrev resG (c : Dev nD) : Vec Ideal S1601536x64 .bf16 := gathG (srcA V c) (featA V c) (isdA V c)

/-- An array of the result's shape read through the output window's block at point t: row r, lane d of the block is row
    4096·(t / 98) + r, lane d of the array. -/
theorem blk0_3_read (G : Vec Ideal S1601536x64 .bf16) (t : Fin cfg0.N) (r : Fin 4096) (d : Fin 64) :
    (((cfg0.win 3).blk t).view.read (Elt Ideal) G : Vec Ideal S4096x64 .bf16) (ix2 r d) = G (ix2 (erow t r) d) := by
  rw [View.read_apply]
  show G _ = G _
  congr 1
  funext a
  apply Fin.ext
  match a with
  | ⟨0, _⟩ => show win0_3.index t 0 * 4096 + 1 * r.val = 4096 * (t.val / 98) + r.val
              rw [index0_3]; show (t.val / 98) * 4096 + 1 * r.val = _; omega
  | ⟨1, _⟩ => show win0_3.index t 1 * 64 + 1 * d.val = d.val
              rw [index0_3]; show 0 * 64 + 1 * d.val = _; omega

/-- What the write-back at a closing point writes is that point's block of the result. -/
theorem flushed0_eq (c : Dev nD) (t : Fin cfg0.N) (hf : (cfg0.win 3).flush t = true) :
    (dat0 (F := Ideal) V c).flushed 3 t = ((cfg0.win 3).blk t).view.read (Elt Ideal) (resG V c) := by
  have h97 : t.val % 98 = 97 := (flush0_3 t).mp hf
  show (cfg0.win 3).cut (grid0.coords t) ((dat0 (F := Ideal) V c).after 3 t) = _
  rw [after0_3]
  refine funext fun (j : S4096x64.Idx) => ?_
  obtain ⟨r, d, rfl⟩ : ∃ (r : Fin 4096) (d : Fin 64), j = ix2 r d := ⟨j 0, j 1, eq_ix2 j⟩
  refine Eq.trans ?_ (blk0_3_read (resG V c) t r d).symm
  show (acc0 (F := Ideal) V c t.val t.isLt : Vec Ideal S4096x64 .f32) (ix2 r d) = _
  rw [acc0_eq V c t.val t.isLt r d, h97]
  exact (gathG_eq_range _ _ _ (erow t r) d).symm

/-- Every row of the result lies in the block of the closing point of its edge tile. -/
theorem cover0 (i : S1601536x64.Idx) : ∃ t : Fin cfg0.N, (cfg0.win 3).flush t = true ∧ i ∈ ((cfg0.win 3).blk t).view.set := by
  have h0 : (i 0 : Nat) < 1601536 := (i 0).isLt
  have h1 : (i 1 : Nat) < 64 := (i 1).isLt
  have hN : cfg0.N = 38318 := grid0_N
  have ht : 98 * ((i 0 : Nat) / 4096) + 97 < cfg0.N := by rw [hN]; omega
  refine ⟨⟨98 * ((i 0 : Nat) / 4096) + 97, ht⟩, (flush0_3 _).mpr (by show (98 * ((i 0 : Nat) / 4096) + 97) % 98 = 97; omega), ?_⟩
  show i ∈ ((View.whole main_v16).slice (win0_3.rect ⟨98 * ((i 0 : Nat) / 4096) + 97, ht⟩)).set
  rw [View.set_slice_whole, Rect.mem_set_unit]
  intro a
  match a with
  | ⟨0, _⟩ => show win0_3.index ⟨98 * ((i 0 : Nat) / 4096) + 97, ht⟩ 0 * 4096 ≤ (i 0 : Nat)
                ∧ (i 0 : Nat) < win0_3.index ⟨98 * ((i 0 : Nat) / 4096) + 97, ht⟩ 0 * 4096 + 4096
              rw [index0_3]
              show (98 * ((i 0 : Nat) / 4096) + 97) / 98 * 4096 ≤ (i 0 : Nat) ∧ (i 0 : Nat) < (98 * ((i 0 : Nat) / 4096) + 97) / 98 * 4096 + 4096
              omega
  | ⟨1, _⟩ => show win0_3.index ⟨98 * ((i 0 : Nat) / 4096) + 97, ht⟩ 1 * 64 ≤ (i 1 : Nat)
                ∧ (i 1 : Nat) < win0_3.index ⟨98 * ((i 0 : Nat) / 4096) + 97, ht⟩ 1 * 64 + 64
              rw [index0_3]
              show 0 * 64 ≤ (i 1 : Nat) ∧ (i 1 : Nat) < 0 * 64 + 64
              omega

/-- The result array after the launch: row e, lane d holds the sum over all node rows of the one-hot factor (edge e's
    source word equals the node's number) times the node's entry at lane d scaled by its inverse square-root degree. -/
theorem arrAt0 (c : Dev nD) :
    (dat0 (F := Ideal) V c).arrAt 3 cfg0.N = gathG (V c main_v12) (V c main_v9) (V c main_v11) :=
  (dat0 (F := Ideal) V c).arrAt_eq_of_cover 3 (resG V c) (flushed0_eq V c) cover0

end Cert.KernelIdeal.Hand

end
-- ==== Proof.ScatterValue.lean ====
/-
  The scatter launch's result as a whole-array function, over the extended reals.

  At a grid point t = 391·n + e the accumulator holds, at (r, k), the sum over the edges below 4096·(e + 1) of the
  one-hot factor (node 1024·n + r against the edge's target word) times the edge's gathered row at k: by induction on
  e, from the payload read at an index and the input blocks read off their arrays. At e = 390 that is the sum over all
  edges, and the block written back there is block n of the launch's specification; the 98 blocks tile the rows.
-/
import proofs.«407817_j53334903882610_2_alg».proof.Proof.Gen.KernelIdeal.Launch
import proofs.«407817_j53334903882610_2_alg».proof.Proof.Gen.KernelIdeal.Skeleton
import proofs.«407817_j53334903882610_2_alg».proof.Proof.ScatterDefs
import proofs.«407817_j53334903882610_2_alg».proof.Proof.Schedule
import proofs.«407817_j53334903882610_2_alg».proof.Proof.Scatter
import proofs.«407817_j53334903882610_2_alg».proof.Proof.Spec
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx Cert.Spec

/-! ## Scalars -/

/-- The one-hot factor as the kernel computes it: the comparison's bit, widened, read as a signed integer. -/
theorem oh_word (a b : BitVec 32) :
    FloatOps.sitofp (F := Ideal) .f32 ((IntOp.cmpi .eq a b).setWidth 32) = oh a b := by
  unfold oh
  by_cases h : a = b
  · subst h
    rw [if_pos rfl]
    have : IntOp.cmpi .eq a a = 1#1 := by simp [IntOp.cmpi]
    rw [this]
    show (((1#1 : BitVec 1).setWidth 32).toInt : ℝ) = (1 : EReal)
    have : ((1#1 : BitVec 1).setWidth 32).toInt = 1 := by decide
    rw [this]; simp
  · rw [if_neg h]
    have hb : (a == b) = false := beq_eq_false_iff_ne.mpr h
    have : IntOp.cmpi .eq a b = 0#1 := by
      simp only [IntOp.cmpi, hb]
      rfl
    rw [this]
    show (((0#1 : BitVec 1).setWidth 32).toInt : ℝ) = (0 : EReal)
    have : ((0#1 : BitVec 1).setWidth 32).toInt = 0 := by decide
    rw [this]; simp

/-- The node word of row r of node tile n: no wrap-around is involved, the word of the sum is the sum of the words. -/
theorem node_word1 (n r : Nat) :
    IntOp.addi (Scalar.muli (BitVec.ofNat 32 n) 1024#32) (BitVec.ofNat 32 r) = BitVec.ofNat 32 (1024 * n + r) := by
  show BitVec.ofNat 32 n * BitVec.ofNat 32 1024 + BitVec.ofNat 32 r = _
  rw [← BitVec.ofNat_mul, ← BitVec.ofNat_add, Nat.mul_comm]

/-! ## Layout -/

/-- An `[a, 1]` column broadcast to `[a, b]` reads, at `(p, c)`, the column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The two products at an index -/

theorem lhs_mask_0 (i : S1024x64.Idx) (q : dot_S1024x4096_S4096x64_S1024x64_1_0_0_1_n_n.contr.Idx) :
    (dot_S1024x4096_S4096x64_S1024x64_1_0_0_1_n_n.lhsIdx i q 0).val = (i 0).val := by
  unfold DotDims.lhsIdx
  rw [dif_neg (show ¬(0 : Fin S1024x4096.rank) ∈ dot_S1024x4096_S4096x64_S1024x64_1_0_0_1_n_n.lhsBatch by decide), dif_pos (show (0 : Fin S1024x4096.rank) ∈ dot_S1024x4096_S4096x64_S1024x64_1_0_0_1_n_n.lhsNonContracting by decide)]
  rfl
theorem lhs_mask_1 (i : S1024x64.Idx) (q : dot_S1024x4096_S4096x64_S1024x64_1_0_0_1_n_n.contr.Idx) :
    (dot_S1024x4096_S4096x64_S1024x64_1_0_0_1_n_n.lhsIdx i q 1).val = (q ⟨0, by decide⟩).val :=
  dot_S1024x4096_S4096x64_S1024x64_1_0_0_1_n_n.lhsIdx_val_of_single rfl i q
theorem rhs_mask_0 (i : S1024x64.Idx) (q : dot_S1024x4096_S4096x64_S1024x64_1_0_0_1_n_n.contr.Idx) :
    (dot_S1024x4096_S4096x64_S1024x64_1_0_0_1_n_n.rhsIdx i q 0).val = (q ⟨0, by decide⟩).val :=
  dot_S1024x4096_S4096x64_S1024x64_1_0_0_1_n_n.rhsIdx_val_of_single rfl i q
theorem rhs_mask_1 (i : S1024x64.Idx) (q : dot_S1024x4096_S4096x64_S1024x64_1_0_0_1_n_n.contr.Idx) :
    (dot_S1024x4096_S4096x64_S1024x64_1_0_0_1_n_n.rhsIdx i q 1).val = (i 1).val := by
  unfold DotDims.rhsIdx
  rw [dif_neg (show ¬(1 : Fin S4096x64.rank) ∈ dot_S1024x4096_S4096x64_S1024x64_1_0_0_1_n_n.rhsBatch by decide), dif_pos (show (1 : Fin S4096x64.rank) ∈ dot_S1024x4096_S4096x64_S1024x64_1_0_0_1_n_n.rhsNonContracting by decide)]
  rfl

/-- The product into the zero block, read at an index: the sum over the contracted coordinate. -/
theorem matmul_mask_apply (A : FVec Ideal S1024x4096 .bf16) (B : FVec Ideal S4096x64 .bf16) (r : Fin 1024) (d : Fin 64) :
    matmul dot_S1024x4096_S4096x64_S1024x64_1_0_0_1_n_n none A B (constant (F := Ideal) S1024x64 .f32 0x00000000#32) (ix2 r d)
      = ∑ j : Fin 4096, A (ix2 r j) * B (ix2 j d) := by
  simp only [matmul]
  rw [Ideal.matmul_constant_zero_apply, ← Equiv.sum_comp (contrEquiv1 dot_S1024x4096_S4096x64_S1024x64_1_0_0_1_n_n 4096 rfl rfl).symm]
  refine Finset.sum_congr rfl fun j _ => ?_
  have hk := contrEquiv1_symm_val dot_S1024x4096_S4096x64_S1024x64_1_0_0_1_n_n 4096 rfl rfl j
  have el : dot_S1024x4096_S4096x64_S1024x64_1_0_0_1_n_n.lhsIdx (ix2 r d) ((contrEquiv1 dot_S1024x4096_S4096x64_S1024x64_1_0_0_1_n_n 4096 rfl rfl).symm j) = ix2 r j := funext fun a => Fin.ext (by
    match a with
    | ⟨0, _⟩ => exact lhs_mask_0 _ _
    | ⟨1, _⟩ => exact (lhs_mask_1 _ _).trans hk)
  have er : dot_S1024x4096_S4096x64_S1024x64_1_0_0_1_n_n.rhsIdx (ix2 r d) ((contrEquiv1 dot_S1024x4096_S4096x64_S1024x64_1_0_0_1_n_n 4096 rfl rfl).symm j) = ix2 j d := funext fun a => Fin.ext (by
    match a with
    | ⟨0, _⟩ => exact (rhs_mask_0 _ _).trans hk
    | ⟨1, _⟩ => exact rhs_mask_1 _ _)
  rw [el, er]

theorem lhs_dense_0 (i : S1024x64.Idx) (q : dot_S1024x64_S64x64_S1024x64_1_0_0_1_n_n.contr.Idx) :
    (dot_S1024x64_S64x64_S1024x64_1_0_0_1_n_n.lhsIdx i q 0).val = (i 0).val := by
  unfold DotDims.lhsIdx
  rw [dif_neg (show ¬(0 : Fin S1024x64.rank) ∈ dot_S1024x64_S64x64_S1024x64_1_0_0_1_n_n.lhsBatch by decide), dif_pos (show (0 : Fin S1024x64.rank) ∈ dot_S1024x64_S64x64_S1024x64_1_0_0_1_n_n.lhsNonContracting by decide)]
  rfl
theorem lhs_dense_1 (i : S1024x64.Idx) (q : dot_S1024x64_S64x64_S1024x64_1_0_0_1_n_n.contr.Idx) :
    (dot_S1024x64_S64x64_S1024x64_1_0_0_1_n_n.lhsIdx i q 1).val = (q ⟨0, by decide⟩).val :=
  dot_S1024x64_S64x64_S1024x64_1_0_0_1_n_n.lhsIdx_val_of_single rfl i q
theorem rhs_dense_0 (i : S1024x64.Idx) (q : dot_S1024x64_S64x64_S1024x64_1_0_0_1_n_n.contr.Idx) :
    (dot_S1024x64_S64x64_S1024x64_1_0_0_1_n_n.rhsIdx i q 0).val = (q ⟨0, by decide⟩).val :=
  dot_S1024x64_S64x64_S1024x64_1_0_0_1_n_n.rhsIdx_val_of_single rfl i q
theorem rhs_dense_1 (i : S1024x64.Idx) (q : dot_S1024x64_S64x64_S1024x64_1_0_0_1_n_n.contr.Idx) :
    (dot_S1024x64_S64x64_S1024x64_1_0_0_1_n_n.rhsIdx i q 1).val = (i 1).val := by
  unfold DotDims.rhsIdx
  rw [dif_neg (show ¬(1 : Fin S64x64.rank) ∈ dot_S1024x64_S64x64_S1024x64_1_0_0_1_n_n.rhsBatch by decide), dif_pos (show (1 : Fin S64x64.rank) ∈ dot_S1024x64_S64x64_S1024x64_1_0_0_1_n_n.rhsNonContracting by decide)]
  rfl

/-- The product into the zero block, read at an index: the sum over the contracted coordinate. -/
theorem matmul_dense_apply (A : FVec Ideal S1024x64 .bf16) (B : FVec Ideal S64x64 .bf16) (r : Fin 1024) (d : Fin 64) :
    matmul dot_S1024x64_S64x64_S1024x64_1_0_0_1_n_n none A B (constant (F := Ideal) S1024x64 .f32 0x00000000#32) (ix2 r d)
      = ∑ j : Fin 64, A (ix2 r j) * B (ix2 j d) := by
  simp only [matmul]
  rw [Ideal.matmul_constant_zero_apply, ← Equiv.sum_comp (contrEquiv1 dot_S1024x64_S64x64_S1024x64_1_0_0_1_n_n 64 rfl rfl).symm]
  refine Finset.sum_congr rfl fun j _ => ?_
  have hk := contrEquiv1_symm_val dot_S1024x64_S64x64_S1024x64_1_0_0_1_n_n 64 rfl rfl j
  have el : dot_S1024x64_S64x64_S1024x64_1_0_0_1_n_n.lhsIdx (ix2 r d) ((contrEquiv1 dot_S1024x64_S64x64_S1024x64_1_0_0_1_n_n 64 rfl rfl).symm j) = ix2 r j := funext fun a => Fin.ext (by
    match a with
    | ⟨0, _⟩ => exact lhs_dense_0 _ _
    | ⟨1, _⟩ => exact (lhs_dense_1 _ _).trans hk)
  have er : dot_S1024x64_S64x64_S1024x64_1_0_0_1_n_n.rhsIdx (ix2 r d) ((contrEquiv1 dot_S1024x64_S64x64_S1024x64_1_0_0_1_n_n 64 rfl rfl).symm j) = ix2 j d := funext fun a => Fin.ext (by
    match a with
    | ⟨0, _⟩ => exact (rhs_dense_0 _ _).trans hk
    | ⟨1, _⟩ => exact rhs_dense_1 _ _)
  rw [el, er]

/-! ## The payloads at an index -/

/-- The reset block is zero everywhere. -/
theorem pay1_apply1 (j : S1024x64.Idx) : k1_pay1 (F := Ideal) j = 0 := by
  unfold k1_pay1
  simp only [shapeCast_self]
  exact Ideal.ofBits_zero_f32

/-- The accumulation step at (r, k): what was there plus the sum over the edge tile of the one-hot factor of row r's
    node word against the edge's target word, times the edge's gathered row at k. -/
theorem pay2_apply1 (i : grid1.Coords) (tb : Vec Ideal S1x4096 .i32) (gb : Vec Ideal S4096x64 .bf16) (s : Vec Ideal S1024x64 .f32)
    (r : Fin 1024) (k : Fin 64) :
    k1_pay2 i tb gb s (ix2 r k)
      = s (ix2 r k) + ∑ j : Fin 4096, oh (BitVec.ofNat 32 (1024 * (i 0).val + r.val)) (tb (ix2 0 j)) * gb (ix2 j k) := by
  unfold k1_pay2
  simp only [shapeCast_self]
  rw [addf_apply, matmul_mask_apply]
  refine congrArg (s (ix2 r k) + ·) (Finset.sum_congr rfl fun j _ => ?_)
  rw [truncf_apply, sitofp_apply, extui_apply]
  show FloatOps.sitofp (F := Ideal) .f32 ((IntOp.cmpi .eq (broadcastTo S1024x4096 _ broadcasts_S1024x1_S1024x4096 (ix2 r j))
    (broadcastTo S1024x4096 tb broadcasts_S1x4096_S1024x4096 (ix2 r j))).setWidth 32) * _ = _
  rw [broadcastTo_a1_ab_apply, broadcastTo_1b_ab_apply, oh_word]
  show oh (IntOp.addi (Scalar.muli (BitVec.ofNat 32 (i 0).val) 1024#32) (iota .tc S1024x1 32 [0] iota_S1024x1_d0_w32 (ix2 r 0))) _ * _ = _
  rw [iota_single_apply, node_word1]

/-- The closing step at (r, d): the accumulator's row scaled by the row's factor, times the weights, plus the bias,
    clamped at zero from below. -/
theorem pay3_apply1 (s : Vec Ideal S1024x64 .f32) (ib : Vec Ideal S1024x1 .f32) (wb : Vec Ideal S64x64 .bf16) (bb : Vec Ideal S1x64 .f32)
    (r : Fin 1024) (d : Fin 64) :
    k1_pay3 s ib wb bb (ix2 r d)
      = max ((∑ k : Fin 64, (s (ix2 r k) * ib (ix2 r 0)) * wb (ix2 k d)) + bb (ix2 0 d)) 0 := by
  unfold k1_pay3
  simp only [shapeCast_self]
  rw [maximumf_apply, addf_apply, matmul_dense_apply, broadcastTo_1b_ab_apply]
  have hz : (broadcast S1024x64 (Scalar.ofBits (F := Ideal) .f32 0x00000000#32) : FVec Ideal S1024x64 .f32) (ix2 r d) = 0 :=
    Ideal.ofBits_zero_f32
  rw [hz]
  refine congrArg (fun x => max (x + bb (ix2 0 d)) 0) (Finset.sum_congr rfl fun k _ => ?_)
  rw [truncf_apply, mulf_apply, broadcastTo_a1_ab_apply]

/-! ## The input blocks read off their arrays -/

/-- The target-word window's block index at point `t` is its edge tile. -/
theorem index1_0 (t : Fin cfg1.N) : win1_0.index t = ![0, t.val % 391] := by
  show cc1_transform_0 (grid1.coords t) = _
  unfold cc1_transform_0
  simp only []
  have h : (BitVec.ofNat 32 (t.val % 391)).toNat = t.val % 391 := by
    rw [BitVec.toNat_ofNat]; exact Nat.mod_eq_of_lt (by omega)
  rw [coords1_e, h]
  rfl

/-- The gathered-rows window's block index at point `t` is its edge tile. -/
theorem index1_1 (t : Fin cfg1.N) : win1_1.index t = ![t.val % 391, 0] := by
  show cc1_transform_1 (grid1.coords t) = _
  unfold cc1_transform_1
  simp only []
  rw [coords1_e, BitVec.toNat_ofNat, Nat.mod_eq_of_lt (by omega)]
  rfl

/-- The degree-factor window's block index at point `t` is its node tile. -/
theorem index1_2 (t : Fin cfg1.N) : win1_2.index t = ![t.val / 391, 0] := by
  show cc1_transform_2 (grid1.coords t) = _
  unfold cc1_transform_2
  simp only []
  rw [coords1_n, BitVec.toNat_ofNat, Nat.mod_eq_of_lt (by have := t1_lt t; omega)]
  rfl

theorem index1_3 (t : Fin cfg1.N) : win1_3.index t = ![0, 0] := by
  show cc1_transform_3 (grid1.coords t) = _
  unfold cc1_transform_3
  rfl

theorem index1_4 (t : Fin cfg1.N) : win1_4.index t = ![0, 0] := by
  show cc1_transform_4 (grid1.coords t) = _
  unfold cc1_transform_4
  rfl

-- the TensorCore's buffer contents when the region is entered
variable (V : (c : Dev nD) → (b : Ref sig .tc) → Buf (Elt Ideal) ((c : Thread nD τ).loc b))

/-- The target words of edge tile e: entry j is edge 4096·e + j's. -/
theorem blk0_apply (c : Dev nD) (t : Fin cfg1.N) (j : Fin 4096) (i : S1x1601536.Idx)
    (hi0 : (i 0).val = 0) (hi1 : (i 1).val = 4096 * (t.val % 391) + j.val) :
    (iblk1 V c 0 t : Vec Ideal S1x4096 .i32) (ix2 0 j) = V c main_v13 i := by
  unfold iblk1
  rw [View.read_apply]
  show V c main_v13 _ = V c main_v13 _
  congr 1
  funext a; apply Fin.ext
  match a with
  | ⟨0, _⟩ =>
    show win1_0.index t 0 * 1 + 1 * 0 = (i 0).val
    rw [index1_0, hi0]; rfl
  | ⟨1, _⟩ =>
    show win1_0.index t 1 * 4096 + 1 * j.val = (i 1).val
    rw [index1_0, hi1]
    show (t.val % 391) * 4096 + 1 * j.val = _
    omega

/-- The gathered rows of edge tile e: row j is edge 4096·e + j's. -/
theorem blk1_apply (c : Dev nD) (t : Fin cfg1.N) (j : Fin 4096) (k : Fin 64) (i : S1601536x64.Idx)
    (hi0 : (i 0).val = 4096 * (t.val % 391) + j.val) (hi1 : (i 1).val = k.val) :
    (iblk1 V c 1 t : Vec Ideal S4096x64 .bf16) (ix2 j k) = V c main_v16 i := by
  unfold iblk1
  rw [View.read_apply]
  show V c main_v16 _ = V c main_v16 _
  congr 1
  funext a; apply Fin.ext
  match a with
  | ⟨0, _⟩ =>
    show win1_1.index t 0 * 4096 + 1 * j.val = (i 0).val
    rw [index1_1, hi0]
    show (t.val % 391) * 4096 + 1 * j.val = _
    omega
  | ⟨1, _⟩ =>
    show win1_1.index t 1 * 64 + 1 * k.val = (i 1).val
    rw [index1_1, hi1]
    show 0 * 64 + 1 * k.val = _
    omega

/-- The degree factors of node tile n: entry r is node 1024·n + r's. -/
theorem blk2_apply (c : Dev nD) (t : Fin cfg1.N) (r : Fin 1024) (i : S100352x1.Idx)
    (hi0 : (i 0).val = 1024 * (t.val / 391) + r.val) (hi1 : (i 1).val = 0) :
    (iblk1 V c 2 t : Vec Ideal S1024x1 .f32) (ix2 r 0) = V c main_v11 i := by
  unfold iblk1
  rw [View.read_apply]
  show V c main_v11 _ = V c main_v11 _
  congr 1
  funext a; apply Fin.ext
  match a with
  | ⟨0, _⟩ =>
    show win1_2.index t 0 * 1024 + 1 * r.val = (i 0).val
    rw [index1_2, hi0]
    show (t.val / 391) * 1024 + 1 * r.val = _
    omega
  | ⟨1, _⟩ =>
    show win1_2.index t 1 * 1 + 1 * 0 = (i 1).val
    rw [index1_2, hi1]; rfl

/-- The weight window's block is the whole matrix. -/
theorem blk3_apply (c : Dev nD) (t : Fin cfg1.N) (k d : Fin 64) :
    (iblk1 V c 3 t : Vec Ideal S64x64 .bf16) (ix2 k d) = V c main_v14 (ix2 k d) := by
  unfold iblk1
  rw [View.read_apply]
  show V c main_v14 _ = V c main_v14 _
  congr 1
  funext a; apply Fin.ext
  match a with
  | ⟨0, _⟩ =>
    show win1_3.index t 0 * 64 + 1 * k.val = k.val
    rw [index1_3]
    show 0 * 64 + 1 * k.val = _
    omega
  | ⟨1, _⟩ =>
    show win1_3.index t 1 * 64 + 1 * d.val = d.val
    rw [index1_3]
    show 0 * 64 + 1 * d.val = _
    omega

/-- The bias window's block is the whole row. -/
theorem blk4_apply (c : Dev nD) (t : Fin cfg1.N) (d : Fin 64) :
    (iblk1 V c 4 t : Vec Ideal S1x64 .f32) (ix2 0 d) = V c main_v15 (ix2 0 d) := by
  unfold iblk1
  rw [View.read_apply]
  show V c main_v15 _ = V c main_v15 _
  congr 1
  funext a; apply Fin.ext
  match a with
  | ⟨0, _⟩ =>
    show win1_4.index t 0 * 1 + 1 * 0 = 0
    rw [index1_4]; rfl
  | ⟨1, _⟩ =>
    show win1_4.index t 1 * 64 + 1 * d.val = d.val
    rw [index1_4]
    show 0 * 64 + 1 * d.val = _
    omega

/-! ## The accumulator -/

/-- Edge x's contribution to node `node` at feature k (zero past the last edge, where no edge is). -/
def contrib (c : Dev nD) (node : ℕ) (k : Fin 64) (x : ℕ) : EReal :=
  if h : x < 1601536 then oh (BitVec.ofNat 32 node) (V c main_v13 (ix2 0 ⟨x, h⟩)) * V c main_v16 (ix2 ⟨x, h⟩ k) else 0

/-- One accumulation step at point t, at (r, k): the edge tile's contributions are added. -/
theorem step_apply (c : Dev nD) (t : Fin cfg1.N) (s : Vec Ideal S1024x64 .f32) (r : Fin 1024) (k : Fin 64) :
    k1_pay2 (grid1.coords t) (iblk1 V c 0 t) (iblk1 V c 1 t) s (ix2 r k)
      = s (ix2 r k) + ∑ j ∈ Finset.range 4096, contrib V c (1024 * (t.val / 391) + r.val) k (4096 * (t.val % 391) + j) := by
  refine (pay2_apply1 (grid1.coords t) (iblk1 V c 0 t) (iblk1 V c 1 t) s r k).trans ?_
  rw [Finset.sum_range]
  refine congrArg (s (ix2 r k) + ·) (Finset.sum_congr rfl fun j _ => ?_)
  have hlt : 4096 * (t.val % 391) + j.val < 1601536 := by have := j.isLt; omega
  unfold contrib
  rw [dif_pos hlt, coords1_n]
  rw [blk0_apply V c t j (ix2 0 ⟨4096 * (t.val % 391) + j.val, hlt⟩) rfl rfl,
    blk1_apply V c t j k (ix2 ⟨4096 * (t.val % 391) + j.val, hlt⟩ k) rfl rfl]

/-- The accumulator after point n, at (r, k): the contributions of the edges of the tiles up to the point's. -/
theorem acc1_apply (c : Dev nD) : ∀ (n : ℕ) (h : n < cfg1.N) (r : Fin 1024) (k : Fin 64),
    acc1 V c n h (ix2 r k) = ∑ x ∈ Finset.range (4096 * (n % 391 + 1)), contrib V c (1024 * (n / 391) + r.val) k x := by
  intro n
  induction n with
  | zero =>
    intro h r k
    rw [acc1_zero V c ⟨0, h⟩ rfl]
    refine (step_apply V c ⟨0, h⟩ _ r k).trans ?_
    rw [pay1_apply1, zero_add]
    show ∑ j ∈ Finset.range 4096, contrib V c (1024 * (0 / 391) + r.val) k (4096 * (0 % 391) + j) = _
    refine Finset.sum_congr rfl fun j _ => ?_
    simp only [Nat.zero_mod, Nat.mul_zero, Nat.zero_add]
  | succ n ih =>
    intro h r k
    by_cases h0 : (n + 1) % 391 = 0
    · rw [acc1_zero V c ⟨n + 1, h⟩ h0]
      refine (step_apply V c ⟨n + 1, h⟩ _ r k).trans ?_
      rw [pay1_apply1, zero_add]
      show ∑ j ∈ Finset.range 4096, contrib V c (1024 * ((n + 1) / 391) + r.val) k (4096 * ((n + 1) % 391) + j) = _
      rw [h0]
      refine Finset.sum_congr rfl fun j _ => ?_
      rw [Nat.mul_zero, Nat.zero_add]
    · rw [acc1_succ V c ⟨n + 1, h⟩ h0]
      refine (step_apply V c ⟨n + 1, h⟩ _ r k).trans ?_
      show acc1 V c n _ (ix2 r k) + ∑ j ∈ Finset.range 4096, contrib V c (1024 * ((n + 1) / 391) + r.val) k (4096 * ((n + 1) % 391) + j) = _
      rw [ih (Nat.lt_of_succ_lt h) r k]
      have e1 : (n + 1) / 391 = n / 391 := by omega
      have e2 : (n + 1) % 391 + 1 = (n % 391 + 1) + 1 := by omega
      have e3 : (n + 1) % 391 = n % 391 + 1 := by omega
      rw [e1, e2, Nat.mul_add 4096 (n % 391 + 1) 1, Nat.mul_one, Finset.sum_range_add, e3]

/-! ## From the blocks to the array -/

/-- The launch's specification at the region's entry contents. -/
abbrev G1 (c : Dev nD) : S100352x64.Idx → EReal :=
  scatG (V c main_v13) (V c main_v16) (V c main_v11) (V c main_v14) (V c main_v15)

/-- What a point that closes a node tile leaves in the output block, at (r, d): the specification at row
    1024·n + r, column d. -/
theorem out1_apply (c : Dev nD) (t : Fin cfg1.N) (h390 : t.val % 391 = 390) (r : Fin 1024) (d : Fin 64) (i : S100352x64.Idx)
    (hi0 : (i 0).val = 1024 * (t.val / 391) + r.val) (hi1 : (i 1).val = d.val) :
    out1 V c t (ix2 r d) = G1 V c i := by
  unfold out1
  refine (pay3_apply1 (acc1 V c t.val t.isLt) (iblk1 V c 2 t) (iblk1 V c 3 t) (iblk1 V c 4 t) r d).trans ?_
  show _ = max ((∑ k : Fin 64, ((∑ e : Fin 1601536, oh (BitVec.ofNat 32 (i 0).val) (V c main_v13 (ix2 0 e)) * V c main_v16 (ix2 e k))
    * V c main_v11 (ix2 (i 0) 0)) * V c main_v14 (ix2 k (i 1))) + V c main_v15 (ix2 0 (i 1))) 0
  have hd : i 1 = d := Fin.ext hi1
  rw [hd, blk4_apply V c t d, blk2_apply V c t r (ix2 (i 0) 0) hi0 rfl]
  refine congrArg (fun x => max (x + V c main_v15 (ix2 0 d)) 0) (Finset.sum_congr rfl fun k _ => ?_)
  have hs : ∑ x ∈ Finset.range (4096 * (390 + 1)), contrib V c (i 0).val k x
      = ∑ e : Fin 1601536, oh (BitVec.ofNat 32 (i 0).val) (V c main_v13 (ix2 0 e)) * V c main_v16 (ix2 e k) := by
    rw [show 4096 * (390 + 1) = 1601536 from rfl, Finset.sum_range]
    refine Finset.sum_congr rfl fun e _ => ?_
    unfold contrib
    rw [dif_pos e.isLt]
  rw [blk3_apply V c t k d, acc1_apply V c t.val t.isLt r k, h390, ← hi0, hs]

/-- The output window is not cut: the write-back moves the whole block. -/
theorem cut5_apply (t : Fin cfg1.N) (X : Vec Ideal S1024x64 .f32) (r : Fin 1024) (d : Fin 64) :
    (cfg1.win 5).cut (grid1.coords t) X (ix2 r d) = X (ix2 r d) := rfl

/-- What a point that closes a node tile writes back is its block of the specification. -/
theorem flushed1_eq (c : Dev nD) (t : Fin cfg1.N) (hf : (cfg1.win 5).flush t = true) :
    (dat1 (F := Ideal) V c).flushed 5 t = ((cfg1.win 5).blk t).view.read (Elt Ideal) (G1 V c) := by
  have h390 := (flush1_5 t).mp hf
  show (cfg1.win 5).cut (grid1.coords t) ((dat1 (F := Ideal) V c).after 5 t) = _
  rw [after1_5]
  funext y
  obtain ⟨r, d, rfl⟩ : ∃ (r : Fin 1024) (d : Fin 64), y = ix2 r d := ⟨y 0, y 1, eq_ix2 y⟩
  rw [View.read_apply]
  refine (cut5_apply t (out1 V c t) r d).trans ?_
  refine Eq.trans ?_ (cast_eq _ _).symm
  refine out1_apply V c t h390 r d _ ?_ ?_
  · show win1_5.index t 0 * 1024 + 1 * r.val = _
    rw [index1_5]
    show (t.val / 391) * 1024 + 1 * r.val = _
    omega
  · show win1_5.index t 1 * 64 + 1 * d.val = _
    rw [index1_5]
    show 0 * 64 + 1 * d.val = _
    omega

/-- A row is in point t's output block iff it is in the block's range of rows, and likewise the column. -/
theorem mem_blk5 (t : Fin cfg1.N) (i : S100352x64.Idx) :
    i ∈ ((cfg1.win 5).blk t).view.set ↔ ∀ a : Fin 2, win1_5.index t a * S1024x64.size a ≤ (i a).val
      ∧ (i a).val < win1_5.index t a * S1024x64.size a + S1024x64.size a := by
  show i ∈ ((View.whole main_v17).slice (win1_5.rect t)).set ↔ _
  rw [View.set_slice_whole, Rect.mem_set_unit]
  exact Iff.rfl

/-- Every row is in the block of the point that closes its node tile: the 98 blocks tile the 100352 rows. -/
theorem cover1 (i : S100352x64.Idx) :
    ∃ t : Fin cfg1.N, (cfg1.win 5).flush t = true ∧ i ∈ ((cfg1.win 5).blk t).view.set := by
  have hi0 : (i 0).val < 100352 := (i 0).isLt
  have hi1 : (i 1).val < 64 := (i 1).isLt
  have hN : cfg1.N = 38318 := grid1_N
  have hlt : 391 * ((i 0).val / 1024) + 390 < cfg1.N := by omega
  refine ⟨⟨391 * ((i 0).val / 1024) + 390, hlt⟩, (flush1_5 _).mpr (by show (391 * ((i 0).val / 1024) + 390) % 391 = 390; omega), ?_⟩
  rw [mem_blk5]
  intro a
  match a with
  | ⟨0, _⟩ =>
    show win1_5.index ⟨391 * ((i 0).val / 1024) + 390, hlt⟩ 0 * 1024 ≤ (i 0).val
      ∧ (i 0).val < win1_5.index ⟨391 * ((i 0).val / 1024) + 390, hlt⟩ 0 * 1024 + 1024
    rw [index1_5]
    show (391 * ((i 0).val / 1024) + 390) / 391 * 1024 ≤ (i 0).val ∧ (i 0).val < (391 * ((i 0).val / 1024) + 390) / 391 * 1024 + 1024
    omega
  | ⟨1, _⟩ =>
    show win1_5.index ⟨391 * ((i 0).val / 1024) + 390, hlt⟩ 1 * 64 ≤ (i 1).val
      ∧ (i 1).val < win1_5.index ⟨391 * ((i 0).val / 1024) + 390, hlt⟩ 1 * 64 + 64
    rw [index1_5]
    show 0 * 64 ≤ (i 1).val ∧ (i 1).val < 0 * 64 + 64
    omega

/-- THE RESULT ARRAY after the launch is the launch's specification of the region's entry contents. -/
theorem arrAt1 (c : Dev nD) :
    (dat1 (F := Ideal) V c).arrAt 5 cfg1.N
      = scatG (V c main_v13) (V c main_v16) (V c main_v11) (V c main_v14) (V c main_v15) :=
  (dat1 (F := Ideal) V c).arrAt_eq_of_cover 5 (G1 V c) (flushed1_eq V c) cover1

end Cert.KernelIdeal.Hand

end
-- ==== Proof.HostVals.lean ====
/-
  What the program's host operations leave in the arrays the two kernel regions read, at an index.

  Before the first region the program pads the source and target edge ids to 1601536 entries (with 0 and with -1),
  reshapes them to a column and to a row, pads the node features to 100352 rows with 0, computes the inverse
  square root of the in-degree clamped below by 1 and pads it with 1, and renames the weight and the bias. After
  the second region it keeps the first 100000 rows of that region's output.
-/
import proofs.«407817_j53334903882610_2_alg».proof.Proof.Gen.KernelIdeal.Regions
import Idealize.ShloMosaic.Lib.ValueIdx
import Idealize.ShloMosaic.Lib.ValueLayout
import Idealize.ShloMosaic.Lib.Pipeline.Value
import Idealize.ShloMosaic.Lib.StableHlo.Run
import Idealize.ShloMosaic.Lib.StableHlo.Predicate
import Idealize.ShloMosaic.Lib.KernelVsHost
import Idealize.ShloMosaic.PureOps.Ideal.Laws

set_option maxRecDepth 16384

noncomputable section

namespace Cert.KernelIdeal.Hand

open Idealize.ShloMosaic Idealize.ShloMosaic.TcCoe
open Idealize.ShloMosaic.StableHlo
open Cert.KernelIdeal Cert.KernelIdeal.Gen Idealize.ShloMosaic.ValueIdx

variable (m : (ℓ : Loc nD τ sig) → Buf (Elt Ideal) ℓ) (c : Dev nD)

/-- The source ids the program was given. -/
abbrev hSrc : S1600000.Idx → BitVec 32 := m ((c : Thread nD τ).loc main_arg3)
/-- The target ids the program was given. -/
abbrev hTgt : S1600000.Idx → BitVec 32 := m ((c : Thread nD τ).loc main_arg4)

/-! ## A padded vector read at an index, as a column and as a row -/

/-- A vector of 1600000 entries padded at the end to 1601536: the operand inside, the padding value after. -/
theorem padE_apply (x : S1600000.Idx → BitVec 32) (v : S_.Idx → BitVec 32) (z : BitVec 32) (hv : v ix0 = z) (e : Fin 1601536) :
    pad S1601536 ![0] ![1536] ![0] x v pads_S1600000_S1601536_015360 h_S_ (ix1 e)
      = if h : e.val < 1600000 then x (ix1 ⟨e.val, h⟩) else z := by
  by_cases h : e.val < 1600000
  · rw [dif_pos h]
    refine pad_apply_of_inside _ _ _ x v _ _ _ (ix1 ⟨e.val, h⟩) ?_
    intro a
    have ha : a = 0 := Subsingleton.elim _ _
    subst ha
    show e.val = 0 + e.val * (0 + 1)
    omega
  · rw [dif_neg h]
    refine (pad_apply_of_not_inside _ _ _ x v _ _ _ (0 : Fin 1) ?_).trans ((congrArg v (eq_ix0 _)).trans hv)
    show ¬(0 ≤ e.val ∧ (e.val - 0) % (0 + 1) = 0 ∧ (e.val - 0) / (0 + 1) < 1600000)
    intro h3
    have h4 : (e.val - 0) / (0 + 1) < 1600000 := h3.2.2
    rw [Nat.sub_zero, Nat.zero_add, Nat.div_one] at h4
    exact h h4

/-- The padded vector as a column. -/
theorem padE_col_apply (x : S1600000.Idx → BitVec 32) (v : S_.Idx → BitVec 32) (z : BitVec 32) (hv : v ix0 = z) (e : Fin 1601536) :
    shapeCast S1601536x1 (pad S1601536 ![0] ![1536] ![0] x v pads_S1600000_S1601536_015360 h_S_) shapeCasts_S1601536_S1601536x1 (ix2 e (0 : Fin 1))
      = if h : e.val < 1600000 then x (ix1 ⟨e.val, h⟩) else z := by
  rw [shapeCast_apply _ shapeCasts_S1601536_S1601536x1 (ix2 e (0 : Fin 1)) (ix1 e) (by
    rw [Shape.rowMajor_val_two, Shape.rowMajor_val_one]
    show e.val = e.val * 1 + 0
    rw [Nat.mul_one, Nat.add_zero])]
  exact padE_apply x v z hv e

/-- The padded vector as a row. -/
theorem padE_row_apply (x : S1600000.Idx → BitVec 32) (v : S_.Idx → BitVec 32) (z : BitVec 32) (hv : v ix0 = z) (e : Fin 1601536) :
    shapeCast S1x1601536 (pad S1601536 ![0] ![1536] ![0] x v pads_S1600000_S1601536_015360 h_S_)
        shapeCasts_S1601536_S1x1601536 (ix2 (0 : Fin 1) e)
      = if h : e.val < 1600000 then x (ix1 ⟨e.val, h⟩) else z := by
  rw [shapeCast_a_1a_apply]
  exact padE_apply x v z hv e

/-! ## The edge ids the two regions read -/

theorem V9_v12_term :
    (Gen.V9 m c main_v12 : S1601536x1.Idx → BitVec 32)
      = shapeCast S1601536x1 (pad S1601536 ![0] ![1536] ![0] (hSrc m c) (constantI S_ 32 0#32) pads_S1600000_S1601536_015360 h_S_) shapeCasts_S1601536_S1601536x1 := by
  dsimp only [Gen.V9, Gen.V8, Gen.V7, Gen.V6, Gen.V5, Gen.V4, Gen.V3, Gen.V2, Gen.V1, Gen.V0]
  simp only [hostOps0, hostOps0_1, hostOps0_2, hostOps0_3, hostOps0_4, hostOps0_5, hostOps0_6, hostOps0_7, hostOps0_8]
  after_results
  rfl

/-- The source column: the given source ids, then 0. -/
theorem V9_v12 (e : Fin 1601536) :
    (Gen.V9 m c main_v12 : S1601536x1.Idx → BitVec 32) (ix2 e (0 : Fin 1))
      = if h : e.val < 1600000 then hSrc m c (ix1 ⟨e.val, h⟩) else 0#32 := by
  rw [V9_v12_term]
  exact padE_col_apply (hSrc m c) (constantI S_ 32 0#32) 0#32 rfl e

theorem V9_v13_step :
    (Gen.V9 m c main_v13 : S1x1601536.Idx → BitVec 32)
      = shapeCast S1x1601536 (Gen.V8 m c main_v8 : S1601536.Idx → BitVec 32) shapeCasts_S1601536_S1x1601536 := by
  dsimp only [Gen.V9]
  simp only [hostOps0_8]
  after_results
  rfl

theorem V4_v8_step :
    (Gen.V4 m c main_v8 : S1601536.Idx → BitVec 32)
      = pad S1601536 ![0] ![1536] ![0] (Gen.V3 m c main_arg4 : S1600000.Idx → BitVec 32)
          (Gen.V3 m c main_c_2 : S_.Idx → BitVec 32) pads_S1600000_S1601536_015360 h_S_ := by
  dsimp only [Gen.V4]
  simp only [hostOps0_3]
  after_results
  rfl

theorem V3_c2 : (Gen.V3 m c main_c_2 : S_.Idx → BitVec 32) = constantI S_ 32 4294967295#32 := by
  dsimp only [Gen.V3]
  simp only [hostOps0_2]
  after_results

theorem V3_arg4 : (Gen.V3 m c main_arg4 : S1600000.Idx → BitVec 32) = hTgt m c :=
  (V3_of m c main_arg4 (by decide)).trans <| (V2_of m c main_arg4 (by decide)).trans <| V1_of m c main_arg4 (by decide)

theorem V8_v8 : Gen.V8 m c main_v8 = Gen.V4 m c main_v8 :=
  (V8_of m c main_v8 (by decide)).trans <| (V7_of m c main_v8 (by decide)).trans <|
    (V6_of m c main_v8 (by decide)).trans <| V5_of m c main_v8 (by decide)

/-- The target row: the given target ids, then -1. -/
theorem V9_v13 (e : Fin 1601536) :
    (Gen.V9 m c main_v13 : S1x1601536.Idx → BitVec 32) (ix2 (0 : Fin 1) e)
      = if h : e.val < 1600000 then hTgt m c (ix1 ⟨e.val, h⟩) else 4294967295#32 := by
  rw [V9_v13_step, V8_v8, V4_v8_step, V3_c2, V3_arg4]
  exact padE_row_apply (hTgt m c) (constantI S_ 32 4294967295#32) 4294967295#32 rfl e

/-! ## The node features padded with zero rows -/

/-- A 100000×64 array padded below to 100352 rows: the operand inside, the padding value in the added rows. -/
theorem padX_apply (x : S100000x64.Idx → EReal) (v : S_.Idx → EReal) (z : EReal) (hv : v ix0 = z) (r : Fin 100352) (k : Fin 64) :
    pad S100352x64 ![0, 0] ![352, 0] ![0, 0] x v pads_S100000x64_S100352x64_03520_000 h_S_ (ix2 r k)
      = if h : r.val < 100000 then x (ix2 ⟨r.val, h⟩ k) else z := by
  by_cases h : r.val < 100000
  · rw [dif_pos h]
    refine pad_apply_of_inside _ _ _ x v _ _ _ (ix2 ⟨r.val, h⟩ k) ?_
    refine Fin.forall_fin_two.2 ⟨?_, ?_⟩
    · show r.val = 0 + r.val * (0 + 1)
      omega
    · show k.val = 0 + k.val * (0 + 1)
      omega
  · rw [dif_neg h]
    refine (pad_apply_of_not_inside _ _ _ x v _ _ _ (0 : Fin 2) ?_).trans ((congrArg v (eq_ix0 _)).trans hv)
    show ¬(0 ≤ r.val ∧ (r.val - 0) % (0 + 1) = 0 ∧ (r.val - 0) / (0 + 1) < 100000)
    intro h3
    have h4 : (r.val - 0) / (0 + 1) < 100000 := h3.2.2
    rw [Nat.sub_zero, Nat.zero_add, Nat.div_one] at h4
    exact h h4

/-- The node features the program was given. -/
abbrev hX : S100000x64.Idx → EReal := m ((c : Thread nD τ).loc main_arg0)

theorem V6_v9_step :
    (Gen.V6 m c main_v9 : S100352x64.Idx → EReal)
      = pad S100352x64 ![0, 0] ![352, 0] ![0, 0] (Gen.V5 m c main_arg0 : S100000x64.Idx → EReal)
          (sitofp .f32 (Gen.V5 m c main_c_3 : S_.Idx → BitVec 32) : FVec Ideal S_ .f32) pads_S100000x64_S100352x64_03520_000 h_S_ := by
  dsimp only [Gen.V6]
  simp only [hostOps0_5]
  after_results
  rfl

theorem V5_c3 : (Gen.V5 m c main_c_3 : S_.Idx → BitVec 32) = constantI S_ 32 0#32 := by
  dsimp only [Gen.V5]
  simp only [hostOps0_4]
  after_results

theorem V5_arg0 : (Gen.V5 m c main_arg0 : S100000x64.Idx → EReal) = hX m c :=
  (V5_of m c main_arg0 (by decide)).trans <| (V4_of m c main_arg0 (by decide)).trans <|
    (V3_of m c main_arg0 (by decide)).trans <| (V2_of m c main_arg0 (by decide)).trans <| V1_of m c main_arg0 (by decide)

theorem V9_v9_eq : Gen.V9 m c main_v9 = Gen.V6 m c main_v9 :=
  (V9_of m c main_v9 (by decide)).trans <| (V8_of m c main_v9 (by decide)).trans <| V7_of m c main_v9 (by decide)

/-- The word 0 read as a signed integer, as an extended real, is 0. -/
theorem sitofp_zero : (sitofp .f32 (constantI S_ 32 0#32) : FVec Ideal S_ .f32) ix0 = 0 := by
  show (((0#32 : BitVec 32).toInt : ℝ) : EReal) = 0
  rw [BitVec.toInt_zero, Int.cast_zero, EReal.coe_zero]

/-- The feature rows: the given features, then zero rows. -/
theorem V9_v9 (r : Fin 100352) (k : Fin 64) :
    (Gen.V9 m c main_v9 : S100352x64.Idx → EReal) (ix2 r k)
      = if h : r.val < 100000 then hX m c (ix2 ⟨r.val, h⟩ k) else 0 := by
  rw [V9_v9_eq, V6_v9_step, V5_c3, V5_arg0]
  exact padX_apply (hX m c) _ 0 sitofp_zero r k

end Cert.KernelIdeal.Hand

end
-- ==== Proof.HostVals2.lean ====
/-
  What the program's host operations leave in the remaining arrays the two kernel regions read, and in the result.

  The weight matrix is narrowed to the 16-bit format, which at exact arithmetic changes nothing; the bias is read as
  a row; the first region leaves every array but its output as it was; the program's result is the first 100000
  rows of the second region's output.
-/
import proofs.«407817_j53334903882610_2_alg».proof.Proof.Gen.KernelIdeal.Regions
import Idealize.ShloMosaic.Lib.ValueIdx
import Idealize.ShloMosaic.Lib.ValueLayout
import Idealize.ShloMosaic.Lib.Pipeline.Value
import Idealize.ShloMosaic.Lib.StableHlo.Run
import Idealize.ShloMosaic.Lib.StableHlo.Predicate
import Idealize.ShloMosaic.Lib.KernelVsHost
import Idealize.ShloMosaic.PureOps.Ideal.Laws

set_option maxRecDepth 16384

noncomputable section

namespace Cert.KernelIdeal.Hand

open Idealize.ShloMosaic Idealize.ShloMosaic.TcCoe
open Idealize.ShloMosaic.StableHlo
open Cert.KernelIdeal Cert.KernelIdeal.Gen Idealize.ShloMosaic.ValueIdx

variable (m : (ℓ : Loc nD τ sig) → Buf (Elt Ideal) ℓ) (c : Dev nD)

/-- The weight matrix the second region reads is the given one: narrowing changes nothing at exact arithmetic. -/
theorem V9_v14 : (Gen.V9 m c main_v14 : S64x64.Idx → EReal) = m ((c : Thread nD τ).loc main_arg1) := by
  dsimp only [Gen.V9, Gen.V8, Gen.V7, Gen.V6, Gen.V5, Gen.V4, Gen.V3, Gen.V2, Gen.V1, Gen.V0]
  simp only [hostOps0, hostOps0_1, hostOps0_2, hostOps0_3, hostOps0_4, hostOps0_5, hostOps0_6, hostOps0_7, hostOps0_8]
  after_results
  rfl

theorem V9_v15_term :
    (Gen.V9 m c main_v15 : S1x64.Idx → EReal)
      = shapeCast S1x64 (m ((c : Thread nD τ).loc main_arg2) : S64.Idx → EReal) shapeCasts_S64_S1x64 := by
  dsimp only [Gen.V9, Gen.V8, Gen.V7, Gen.V6, Gen.V5, Gen.V4, Gen.V3, Gen.V2, Gen.V1, Gen.V0]
  simp only [hostOps0, hostOps0_1, hostOps0_2, hostOps0_3, hostOps0_4, hostOps0_5, hostOps0_6, hostOps0_7, hostOps0_8]
  after_results
  rfl

/-- The bias row the second region reads is the given bias. -/
theorem V9_v15 (d : Fin 64) :
    (Gen.V9 m c main_v15 : S1x64.Idx → EReal) (ix2 (0 : Fin 1) d) = m ((c : Thread nD τ).loc main_arg2) (ix1 d) := by
  rw [V9_v15_term, shapeCast_a_1a_apply]

/-- The first region leaves the arrays it does not write as they were. -/
theorem V10_keep (outs : Gen.Outs (F := Ideal)) :
    Gen.V10 m outs c main_v13 = Gen.V9 m c main_v13 ∧ Gen.V10 m outs c main_v11 = Gen.V9 m c main_v11
      ∧ Gen.V10 m outs c main_v14 = Gen.V9 m c main_v14 ∧ Gen.V10 m outs c main_v15 = Gen.V9 m c main_v15 :=
  ⟨Gen.V10_of m outs c _ (by decide), Gen.V10_of m outs c _ (by decide), Gen.V10_of m outs c _ (by decide),
    Gen.V10_of m outs c _ (by decide)⟩

/-- After the first region its output array holds the region's result. -/
theorem V10_v16 (outs : Gen.Outs (F := Ideal)) : Gen.V10 m outs c main_v16 = outs 10 main_v16 c := by
  show Function.update (Gen.V9 m c) (Proc.devRef .tc main_v16) (outs 10 main_v16 c) (Proc.devRef .tc main_v16) = _
  rw [Function.update_self]

theorem V12_v18_term (outs : Gen.Outs (F := Ideal)) :
    (Gen.V12 m outs c main_v18 : S100000x64.Idx → EReal)
      = extractStridedSlice S100000x64 ![0, 0] (Gen.V11 m outs c main_v17 : S100352x64.Idx → EReal) slices_S100352x64_S100000x64_0_0 := by
  dsimp only [Gen.V12]
  simp only [hostOps2]
  after_results

theorem V11_v17 (outs : Gen.Outs (F := Ideal)) : Gen.V11 m outs c main_v17 = outs 11 main_v17 c := by
  show Function.update (Gen.V10 m outs c) (Proc.devRef .tc main_v17) (outs 11 main_v17 c) (Proc.devRef .tc main_v17) = _
  rw [Function.update_self]

/-- The program's result is the first 100000 rows of the second region's output. -/
theorem V12_v18 (outs : Gen.Outs (F := Ideal)) (n : Fin 100000) (d : Fin 64) :
    (Gen.V12 m outs c main_v18 : S100000x64.Idx → EReal) (ix2 n d)
      = (outs 11 main_v17 c : S100352x64.Idx → EReal) (ix2 (⟨n.val, by omega⟩ : Fin 100352) d) := by
  rw [V12_v18_term, V11_v17]
  refine extractStridedSlice_apply _ _ _ (ix2 n d) (ix2 (⟨n.val, by omega⟩ : Fin 100352) d) ?_
  intro a
  fin_cases a
  · show n.val = 0 + n.val
    omega
  · show d.val = 0 + d.val
    omega

end Cert.KernelIdeal.Hand

end
-- ==== Proof.HostVals3.lean ====
/-
  The inverse square-root degree column the two kernel regions read, at an index.

  The program counts, for every node, the edges that end in it (a scatter-add of ones at the target ids), takes the
  maximum with 1, the inverse square root, pads the 100000 values with 1 to 100352 and reads them as a column.
-/
import proofs.«407817_j53334903882610_2_alg».proof.Proof.Gen.KernelIdeal.Regions
import Idealize.ShloMosaic.Lib.ValueIdx
import Idealize.ShloMosaic.Lib.IdealHost
import Idealize.ShloMosaic.Lib.ValueLayout
import Idealize.ShloMosaic.Lib.Pipeline.Value
import Idealize.ShloMosaic.Lib.StableHlo.Run
import Idealize.ShloMosaic.Lib.StableHlo.Predicate
import Idealize.ShloMosaic.Lib.KernelVsHost
import Idealize.ShloMosaic.PureOps.Ideal.Laws

set_option maxRecDepth 16384

noncomputable section

namespace Cert.KernelIdeal.Hand

open Idealize.ShloMosaic Idealize.ShloMosaic.TcCoe
open Idealize.ShloMosaic.StableHlo
open Cert.KernelIdeal Cert.KernelIdeal.Gen Idealize.ShloMosaic.ValueIdx

variable (m : (ℓ : Loc nD τ sig) → Buf (Elt Ideal) ℓ) (c : Dev nD)

/-- The in-degree of every node, as the program computes it: ones added at the target ids, starting from zero. -/
def kdeg : S100000.Idx → EReal :=
  Host.scatterAdd (F := Ideal) scatter_S100000_S1600000x1_S1600000_n_0_0_1
    (broadcastInDim S100000 ![] bcast_S_S100000 (constant (F := Ideal) S_ .f32 0x00000000#32))
    (broadcastInDim S1600000x1 ![0] bcast_S1600000_S1600000x1_0 (m ((c : Thread nD τ).loc main_arg4)))
    (broadcastInDim S1600000 ![] bcast_S_S1600000 (constant (F := Ideal) S_ .f32 0x3F800000#32))

/-- The in-degree as the run reads it: the target ids through the valuation before the first host operation. -/
theorem kdeg_eq :
    kdeg m c = Host.scatterAdd (F := Ideal) scatter_S100000_S1600000x1_S1600000_n_0_0_1
      (broadcastInDim S100000 ![] bcast_S_S100000 (constant (F := Ideal) S_ .f32 0x00000000#32))
      (broadcastInDim S1600000x1 ![0] bcast_S1600000_S1600000x1_0 (Gen.V0 m c main_arg4))
      (broadcastInDim S1600000 ![] bcast_S_S1600000 (constant (F := Ideal) S_ .f32 0x3F800000#32)) := rfl

/-! ## The host stretches, one at a time -/

/-- After the first stretch: the inverse square root of the in-degree clamped below by 1. -/
theorem V1_v6_term :
    (Gen.V1 m c main_v6 : S100000.Idx → EReal)
      = Host.rsqrt (F := Ideal) (maximumf (F := Ideal) (kdeg m c : FVec Ideal S100000 .f32) (broadcastInDim S100000 ![] bcast_S_S100000 (constant (F := Ideal) S_ .f32 0x3F800000#32))) := by
  rw [kdeg_eq]
  dsimp only [Gen.V1]
  simp only [hostOps0]
  after_results

/-- The stretches up to the padding leave it alone. -/
theorem V7_v6 : Gen.V7 m c main_v6 = Gen.V1 m c main_v6 :=
  (Gen.V7_of m c _ (by decide)).trans ((Gen.V6_of m c _ (by decide)).trans ((Gen.V5_of m c _ (by decide)).trans
    ((Gen.V4_of m c _ (by decide)).trans ((Gen.V3_of m c _ (by decide)).trans (Gen.V2_of m c _ (by decide))))))

/-- The padding value. -/
theorem V7_cst_4 : (Gen.V7 m c main_cst_4 : S_.Idx → EReal) = constant (F := Ideal) S_ .f32 0x3F800000#32 := by
  dsimp only [Gen.V7]
  simp only [hostOps0_6]
  after_results

/-- The padding stretch over any valuation: the padded vector. -/
theorem after7_v10 (W : Valuation τ sig (Elt Ideal)) :
    (StableHlo.after hostOps0_7 W main_v10 : S100352.Idx → EReal)
      = pad S100352 ![0] ![352] ![0] (W main_v6 : S100000.Idx → EReal)
          (id (W main_cst_4 : S_.Idx → EReal)) pads_S100000_S100352_03520 h_S_ := by
  simp only [hostOps0_7]
  after_results
  rfl

/-- The padded vector. -/
theorem V8_v10_term :
    (Gen.V8 m c main_v10 : S100352.Idx → EReal)
      = pad S100352 ![0] ![352] ![0] (Gen.V7 m c main_v6 : S100000.Idx → EReal)
          (id (Gen.V7 m c main_cst_4 : S_.Idx → EReal)) pads_S100000_S100352_03520 h_S_ :=
  after7_v10 (Gen.V7 m c)

/-- The reshaping stretch over any valuation: the column. -/
theorem after8_v11 (W : Valuation τ sig (Elt Ideal)) :
    (StableHlo.after hostOps0_8 W main_v11 : S100352x1.Idx → EReal)
      = shapeCast S100352x1 (W main_v10 : S100352.Idx → EReal) shapeCasts_S100352_S100352x1 := by
  simp only [hostOps0_8]
  after_results
  rfl

/-- The column. -/
theorem V9_v11_stage :
    (Gen.V9 m c main_v11 : S100352x1.Idx → EReal)
      = shapeCast S100352x1 (Gen.V8 m c main_v10 : S100352.Idx → EReal) shapeCasts_S100352_S100352x1 :=
  after8_v11 (Gen.V8 m c)

theorem V9_v11_term :
    (Gen.V9 m c main_v11 : S100352x1.Idx → EReal)
      = shapeCast S100352x1
          (pad S100352 ![0] ![352] ![0]
            (Host.rsqrt (F := Ideal) (maximumf (F := Ideal) (kdeg m c : FVec Ideal S100000 .f32) (broadcastInDim S100000 ![] bcast_S_S100000 (constant (F := Ideal) S_ .f32 0x3F800000#32))))
            (id (constant (F := Ideal) S_ .f32 0x3F800000#32)) pads_S100000_S100352_03520 h_S_)
          shapeCasts_S100352_S100352x1 := by
  rw [V9_v11_stage, V8_v10_term, V7_v6, V7_cst_4, V1_v6_term]

/-! ## A vector of 100000 values padded at the end to 100352, read at an index and as a column -/

/-- The operand inside, the padding value after. -/
theorem padN_apply (x : S100000.Idx → EReal) (v : S_.Idx → EReal) (r : Fin 100352) :
    pad S100352 ![0] ![352] ![0] x v pads_S100000_S100352_03520 h_S_ (ix1 r)
      = if h : r.val < 100000 then x (ix1 ⟨r.val, h⟩) else v ix0 := by
  by_cases h : r.val < 100000
  · rw [dif_pos h]
    refine pad_apply_of_inside _ _ _ x v _ _ _ (ix1 ⟨r.val, h⟩) ?_
    intro a
    have ha : a = 0 := Subsingleton.elim _ _
    subst ha
    show r.val = 0 + r.val * (0 + 1)
    omega
  · rw [dif_neg h]
    refine (pad_apply_of_not_inside _ _ _ x v _ _ _ (0 : Fin 1) ?_).trans (congrArg v (eq_ix0 _))
    show ¬(0 ≤ r.val ∧ (r.val - 0) % (0 + 1) = 0 ∧ (r.val - 0) / (0 + 1) < 100000)
    intro h3
    have h4 : (r.val - 0) / (0 + 1) < 100000 := h3.2.2
    rw [Nat.sub_zero, Nat.zero_add, Nat.div_one] at h4
    exact h h4

/-- The padded vector as a column. -/
theorem padN_col_apply (x : S100000.Idx → EReal) (v : S_.Idx → EReal) (r : Fin 100352) :
    shapeCast S100352x1 (pad S100352 ![0] ![352] ![0] x v pads_S100000_S100352_03520 h_S_)
        shapeCasts_S100352_S100352x1 (ix2 r (0 : Fin 1))
      = if h : r.val < 100000 then x (ix1 ⟨r.val, h⟩) else v ix0 := by
  rw [shapeCast_apply _ shapeCasts_S100352_S100352x1 (ix2 r (0 : Fin 1)) (ix1 r) (by
    rw [Shape.rowMajor_val_two, Shape.rowMajor_val_one]
    show r.val = r.val * 1 + 0
    rw [Nat.mul_one, Nat.add_zero])]
  exact padN_apply x v r

/-! ## The column the regions read -/

/-- The inverse square root of the maximum with the constant one, at an index, for any vector. -/
theorem rsqrt_max_one_apply (D : S100000.Idx → EReal) (i : S100000.Idx) :
    Host.rsqrt (F := Ideal) (maximumf (F := Ideal) (D : FVec Ideal S100000 .f32) (broadcastInDim S100000 ![] bcast_S_S100000 (constant (F := Ideal) S_ .f32 0x3F800000#32))) i = Ideal.rsqrt (max (D i) 1) := by
  show Ideal.rsqrt (max (D i) (broadcastInDim S100000 ![] bcast_S_S100000 (constant (F := Ideal) S_ .f32 0x3F800000#32) i)) = _
  rw [StableHlo.Predicate.bcast_scalar _ h_S_, constant_apply, Ideal.ofBits_one_f32]

/-- The inverse square root of the in-degree clamped below by 1, then 1. -/
theorem V9_v11 (r : Fin 100352) :
    (Gen.V9 m c main_v11 : S100352x1.Idx → EReal) (ix2 r (0 : Fin 1))
      = if h : r.val < 100000 then Ideal.rsqrt (max (kdeg m c (ix1 ⟨r.val, h⟩)) 1) else 1 := by
  rw [V9_v11_term, padN_col_apply]
  by_cases h : r.val < 100000
  · rw [dif_pos h, dif_pos h]
    exact rsqrt_max_one_apply (kdeg m c) _
  · rw [dif_neg h, dif_neg h]
    exact (constant_apply (s := S_) (φ := .f32) 0x3F800000#32 ix0).trans Ideal.ofBits_one_f32

end Cert.KernelIdeal.Hand

end
-- ==== Proof.PreFacts.lean ====
/-
  The precondition read back. Besides the finiteness of the float inputs it states that every edge's source node id
  is at least 0 and below 100000 as a signed number, and that every node's in-degree, counted as the sum of ones
  over the edges whose target is the node, is positive. Here: each source id is a natural number below 100000;
  each node's counted degree is a natural number cast, positive, hence at least one.
-/
import proofs.«407817_j53334903882610_2_alg».proof.Defs
import proofs.«407817_j53334903882610_2_alg».proof.Proof.Gen.Pre_finite_inputs
import Idealize.ShloMosaic.Lib.ReduceAll
import Idealize.ShloMosaic.Lib.StableHlo.Predicate
import Idealize.ShloMosaic.Lib.ValueIdx
import Idealize.ShloMosaic.Lib.IdealHost
import Idealize.ShloMosaic.PureOps.Ideal.Laws

noncomputable section

namespace Cert.Hand

open Idealize.ShloMosaic Idealize.ShloMosaic.ValueIdx
open Idealize.ShloMosaic.StableHlo
open Cert.Pre_finite_inputs Cert.Pre_finite_inputs.Facts

variable [Cert.Pre_finite_inputs.Facts]

instance : Subsingleton Cert.Pre_finite_inputs.S_.Idx := ⟨fun a b => funext fun d => d.elim0⟩

/-- A word that is at least zero as a signed number is below 2^31 as a natural number. -/
theorem toNat_lt_of_sge_zero {a : BitVec 32} (h : IntOp.cmpi .sge a 0#32 = 1#1) : a.toNat < 2 ^ 31 := by
  unfold IntOp.cmpi at h
  rw [Predicate.ofBool_eq_one_iff] at h
  simp only [BitVec.sle, decide_eq_true_eq] at h
  have h0 : (0#32 : BitVec 32).toInt = 0 := by decide
  have hlt := a.isLt
  rw [h0, BitVec.toInt_eq_toNat_cond] at h
  split at h <;> omega

/-- Each node's counted in-degree: zero plus the sum of ones over the edges whose target is the node. -/
def pdeg (tgt : IVec Cert.Pre_finite_inputs.S1600000 32) : FVec Ideal Cert.Pre_finite_inputs.S100000 .f32 :=
  Host.scatterAdd Cert.Pre_finite_inputs.scatter_S100000_S1600000x1_S1600000_n_0_0_1
    (broadcastInDim S100000 ![] bcast_S_S100000 (constant S_ .f32 0x00000000#32))
    (broadcastInDim S1600000x1 ![0] bcast_S1600000_S1600000x1_0 tgt)
    (broadcastInDim S1600000 ![] bcast_S_S1600000 (constant S_ .f32 0x3F800000#32))

/-- The precondition's three integer conjuncts, elementwise. -/
theorem pre_split (x : FVec Ideal S100000x64 .f32) (W : FVec Ideal S64x64 .f32) (b : FVec Ideal S64 .f32)
    (src tgt : IVec S1600000 32) (h : Cert.Pre_finite_inputs.fn (F := Ideal) x W b src tgt = fun _ => 1#1) :
    (∀ i, cmpi .sge src (broadcastInDim S1600000 ![] bcast_S_S1600000 (constantI S_ 32 0#32)) i = 1#1)
    ∧ (∀ i, cmpi .slt src (broadcastInDim S1600000 ![] bcast_S_S1600000 (constantI S_ 32 100000#32)) i = 1#1)
    ∧ (∀ i, cmpf .ogt (pdeg tgt) (broadcastInDim S100000 ![] bcast_S_S100000 (constant (F := Ideal) S_ .f32 0x00000000#32)) i = 1#1) := by
  have h0 := congrFun h ix0
  dsimp only [Cert.Pre_finite_inputs.fn, Cert.Pre_finite_inputs.fn_part1, andi] at h0
  obtain ⟨h21, h28⟩ := IntOp.andi_eq_one.1 h0
  obtain ⟨h17, h20⟩ := IntOp.andi_eq_one.1 h21
  obtain ⟨h13, h16⟩ := IntOp.andi_eq_one.1 h17
  exact ⟨Host.reduce_andi_all _ _ _ _ _ h16, Host.reduce_andi_all _ _ _ _ _ h20, Host.reduce_andi_all _ _ _ _ _ h28⟩

/-- Every edge's source node id is a natural number below 100000. -/
theorem src_range (x : FVec Ideal S100000x64 .f32) (W : FVec Ideal S64x64 .f32) (b : FVec Ideal S64 .f32)
    (src tgt : IVec S1600000 32) (h : Cert.Pre_finite_inputs.fn (F := Ideal) x W b src tgt = fun _ => 1#1) :
    ∀ e : Fin 1600000, (src (ix1 e)).toNat < 100000 := fun e => by
  obtain ⟨hge, hlt, -⟩ := pre_split x W b src tgt h
  have hge' : IntOp.cmpi .sge (src (ix1 e)) 0#32 = 1#1 := hge (ix1 e)
  have hlt' : IntOp.cmpi .slt (src (ix1 e)) 100000#32 = 1#1 := hlt (ix1 e)
  have ha := toNat_lt_of_sge_zero hge'
  have hb : (100000#32 : BitVec 32).toNat < 2 ^ 31 := by decide
  have := (Predicate.slt_iff_toNat ha hb).1 hlt'
  have h1 : (100000#32 : BitVec 32).toNat = 100000 := by decide
  omega

/-- Every node's counted in-degree is positive. -/
theorem deg_pos (x : FVec Ideal S100000x64 .f32) (W : FVec Ideal S64x64 .f32) (b : FVec Ideal S64 .f32)
    (src tgt : IVec S1600000 32) (h : Cert.Pre_finite_inputs.fn (F := Ideal) x W b src tgt = fun _ => 1#1) :
    ∀ n : Fin 100000, 0 < pdeg tgt (ix1 n) := fun n => by
  obtain ⟨-, -, hd⟩ := pre_split x W b src tgt h
  have h1 := hd (ix1 n)
  rw [cmpf_apply, Predicate.bcast_scalar _ h_S_, constant_apply, Ideal.ofBits_zero_f32, Ideal.cmpf_def] at h1
  unfold Ideal.cmp at h1
  rw [Predicate.ofBool_eq_one_iff] at h1
  simp only [decide_eq_true_eq] at h1
  exact h1

/-- Zero plus a sum of ones over a finite set is the set's number of elements. -/
theorem zero_add_sum_ones {ι : Type} (S : Finset ι) : (0 : EReal) + ∑ _j ∈ S, (1 : EReal) = (S.card : EReal) := by
  rw [Finset.sum_const, nsmul_one, zero_add]

/-- A scatter-add of ones into zeros is, at every index, a natural number: the number of updates landing there. -/
theorem scatterAdd_ones {s si su : Shape} (d : ScatterDims s si su) {w : Nat} (x : FVec Ideal s .f32) (idx : IVec si w)
    (upd : FVec Ideal su .f32) (hx : ∀ i, x i = 0) (hu : ∀ j, upd j = 1) (i : s.Idx) :
    ∃ k : ℕ, Host.scatterAdd d x idx upd i = (k : EReal) := by
  unfold Host.scatterAdd
  rw [Ideal.hostScatterAdd_def]
  unfold Ideal.hostScatterAdd
  simp only [hx, hu]
  exact ⟨_, zero_add_sum_ones _⟩

/-- The counted in-degree, spelt out. -/
theorem pdeg_def (tgt : IVec S1600000 32) : pdeg tgt = Host.scatterAdd Cert.Pre_finite_inputs.scatter_S100000_S1600000x1_S1600000_n_0_0_1
    (broadcastInDim S100000 ![] bcast_S_S100000 (constant (F := Ideal) S_ .f32 0x00000000#32))
    (broadcastInDim S1600000x1 ![0] bcast_S1600000_S1600000x1_0 tgt)
    (broadcastInDim S1600000 ![] bcast_S_S1600000 (constant (F := Ideal) S_ .f32 0x3F800000#32)) := rfl

/-- A node's counted in-degree is a natural number: the number of edges whose target is the node. -/
theorem pdeg_eq_natCast (tgt : IVec S1600000 32) (n : Fin 100000) :
    ∃ k : ℕ, pdeg tgt (ix1 n) = (k : EReal) := by
  rw [pdeg_def]
  exact scatterAdd_ones _ _ _ _
    (fun i => by rw [Predicate.bcast_scalar _ h_S_, constant_apply, Ideal.ofBits_zero_f32])
    (fun j => by rw [Predicate.bcast_scalar _ h_S_, constant_apply, Ideal.ofBits_one_f32])
    _

/-- Every node's counted in-degree is at least one. -/
theorem deg_ge_one (x : FVec Ideal S100000x64 .f32) (W : FVec Ideal S64x64 .f32) (b : FVec Ideal S64 .f32)
    (src tgt : IVec S1600000 32) (h : Cert.Pre_finite_inputs.fn (F := Ideal) x W b src tgt = fun _ => 1#1) :
    ∀ n : Fin 100000, 1 ≤ pdeg tgt (ix1 n) := fun n => by
  have hp := deg_pos x W b src tgt h n
  obtain ⟨k, hk⟩ := pdeg_eq_natCast tgt n
  rw [hk] at hp ⊢
  have hk0 : 0 < k := EReal.natCast_lt_iff.1 (by exact_mod_cast hp)
  exact_mod_cast EReal.natCast_le_iff.2 (show 1 ≤ k from hk0)

end Cert.Hand

end
-- ==== Proof.SumLemmas.lean ====
/-
  Finite sums over the extended reals against one-hot factors.

  A one-hot factor against the word of a node number picks out at most one term of a sum over all nodes: the term of
  the node the word names when it names one, nothing otherwise. A sum over the padded edge range whose terms vanish
  on the padding is the sum over the true edges. A zero-or-one factor in front of a term is the choice between the
  term and zero. Only 0 * x = 0 and 1 * x = x are used of the product, which hold for every extended real.
-/
import proofs.«407817_j53334903882610_2_alg».proof.Proof.Spec
import Mathlib.Data.EReal.Basic
import Mathlib.Algebra.BigOperators.Group.Finset.Basic
import Mathlib.Algebra.BigOperators.Fin
import Mathlib.Data.Fin.Embedding

noncomputable section

namespace Cert.Spec

open Idealize.ShloMosaic

/-- A word equals the word of a number below 2^32 exactly when its value is that number. -/
theorem eq_ofNat_iff (a : BitVec 32) (n : ℕ) (hn : n < 2 ^ 32) : a = BitVec.ofNat 32 n ↔ a.toNat = n := by
  constructor
  · intro h
    rw [h, BitVec.toNat_ofNat, Nat.mod_eq_of_lt hn]
  · intro h
    apply BitVec.eq_of_toNat_eq
    rw [BitVec.toNat_ofNat, Nat.mod_eq_of_lt hn]
    exact h

/-- The one-hot sum over all nodes: the term of the node the word names, or zero when it names none. -/
theorem sum_oh_node (a : BitVec 32) (f : Fin 100352 → EReal) :
    (∑ node : Fin 100352, oh a (BitVec.ofNat 32 node.val) * f node)
      = if h : a.toNat < 100352 then f ⟨a.toNat, h⟩ else 0 := by
  have key : ∀ node : Fin 100352, a = BitVec.ofNat 32 node.val ↔ a.toNat = node.val := fun node =>
    eq_ofNat_iff a node.val (lt_trans node.isLt (by norm_num))
  split_ifs with h
  · rw [Finset.sum_eq_single (⟨a.toNat, h⟩ : Fin 100352)]
    · have ha : a = BitVec.ofNat 32 a.toNat := (key ⟨a.toNat, h⟩).2 rfl
      unfold oh
      rw [if_pos ha, one_mul]
    · intro b _ hb
      have hab : ¬ a = BitVec.ofNat 32 b.val := fun hab => hb (Fin.ext ((key b).1 hab).symm)
      unfold oh
      rw [if_neg hab, zero_mul]
    · intro hn
      exact absurd (Finset.mem_univ _) hn
  · apply Finset.sum_eq_zero
    intro b _
    have hab : ¬ a = BitVec.ofNat 32 b.val := fun hab => h (by rw [(key b).1 hab]; exact b.isLt)
    unfold oh
    rw [if_neg hab, zero_mul]

/-- The one-hot factor of a node number against a word, by the word's value. -/
theorem oh_ofNat_left (n : ℕ) (hn : n < 100352) (t : BitVec 32) :
    oh (BitVec.ofNat 32 n) t = if t.toNat = n then 1 else 0 := by
  have key : t = BitVec.ofNat 32 n ↔ t.toNat = n := eq_ofNat_iff t n (lt_trans hn (by norm_num))
  unfold oh
  by_cases h : t.toNat = n
  · rw [if_pos (key.2 h).symm, if_pos h]
  · rw [if_neg (fun h' => h (key.1 h'.symm)), if_neg h]

/-- The one-hot factor of a node number against a word, by the word's signed value. -/
theorem oh_ofNat_left_int (n : ℕ) (hn : n < 100352) (t : BitVec 32) :
    oh (BitVec.ofNat 32 n) t = if t.toInt = (n : Int) then 1 else 0 := by
  rw [oh_ofNat_left n hn t]
  have key : t.toNat = n ↔ t.toInt = (n : Int) := by
    have hlt := t.isLt
    rw [BitVec.toInt_eq_toNat_cond]
    split_ifs with h <;> constructor <;> intro h' <;> omega
  by_cases h : t.toNat = n
  · rw [if_pos h, if_pos (key.1 h)]
  · rw [if_neg h, if_neg (fun h' => h (key.2 h'))]

/-- The all-ones word is no node's number. -/
theorem oh_neg_one (n : ℕ) (hn : n < 100352) : oh (BitVec.ofNat 32 n) 4294967295#32 = 0 := by
  rw [oh_ofNat_left n hn]
  have hv : (4294967295#32).toNat = 4294967295 := by
    rw [BitVec.toNat_ofNat]
  rw [if_neg]
  rw [hv]
  omega

/-- A sum over the padded edge range whose terms vanish on the padding is the sum over the true edges. -/
theorem sum_pad (F : Fin 1601536 → EReal) (hz : ∀ e : Fin 1601536, 1600000 ≤ e.val → F e = 0) :
    (∑ e : Fin 1601536, F e) = ∑ e : Fin 1600000, F ⟨e.val, by omega⟩ := by
  have hle : 1600000 ≤ 1601536 := by norm_num
  rw [← Finset.sum_subset (Finset.subset_univ (Finset.univ.map (Fin.castLEEmb hle)))]
  · rw [Finset.sum_map]
    exact Finset.sum_congr rfl (fun x _ => rfl)
  · intro x _ hx
    apply hz
    by_contra hlt
    apply hx
    rw [Finset.mem_map]
    exact ⟨⟨x.val, by omega⟩, Finset.mem_univ _, Fin.ext rfl⟩

/-- A zero-or-one factor in front of a term is the choice between the term and zero. -/
theorem sum_ite_mul (p : Fin 1600000 → Prop) [DecidablePred p] (g : Fin 1600000 → EReal) :
    (∑ e, (if p e then (1 : EReal) else 0) * g e) = ∑ e, if p e then g e else 0 := by
  apply Finset.sum_congr rfl
  intro e _
  split_ifs
  · exact one_mul _
  · exact zero_mul _

end Cert.Spec

end
-- ==== Proof.Core.lean ====
/-
  The program's result at a real node row, from the two launches' whole-array results and what the host stretches
  put in the padded operands: the padded edges carry target word -1 and match no node; a real edge's source word
  names a real node row, so the gathered row is that node's row times its inverse square-root degree; where every
  in-degree is at least one the clamp at one is the identity.
-/
import proofs.«407817_j53334903882610_2_alg».proof.Proof.Spec
import proofs.«407817_j53334903882610_2_alg».proof.Proof.SumLemmas
import Idealize.ShloMosaic.PureOps.Ideal
import Idealize.ShloMosaic.Lib.ValueIdx

noncomputable section

namespace Cert.Spec

open Idealize.ShloMosaic Idealize.ShloMosaic.ValueIdx

abbrev Snd : Shape := ⟨2, ![100000, 64]⟩
abbrev Sn : Shape := ⟨1, ![100000]⟩
abbrev SE : Shape := ⟨1, ![1600000]⟩
abbrev Sd : Shape := ⟨1, ![64]⟩

theorem ix2_zero {n0 n1 : Nat} (a : Fin n0) (b : Fin n1) : (ix2 a b) 0 = a := rfl
theorem ix2_one {n0 n1 : Nat} (a : Fin n0) (b : Fin n1) : (ix2 a b) 1 = b := rfl

section
variable (x : Snd.Idx → EReal) (W : Sdd.Idx → EReal) (b : Sd.Idx → EReal) (src tgt : SE.Idx → BitVec 32) (dg : Sn.Idx → EReal)
  (sp : SE1.Idx → BitVec 32) (tp : S1E.Idx → BitVec 32) (xp : SNd.Idx → EReal) (ip : SN1.Idx → EReal) (wb : Sdd.Idx → EReal) (bb : S1d.Idx → EReal)
  (hsrc : ∀ e : Fin 1600000, (src (ix1 e)).toNat < 100000)
  (hdg : ∀ n : Fin 100000, 1 ≤ dg (ix1 n))
  (hsp : ∀ e : Fin 1601536, sp (ix2 e 0) = if h : e.val < 1600000 then src (ix1 ⟨e.val, h⟩) else 0#32)
  (htp : ∀ e : Fin 1601536, tp (ix2 0 e) = if h : e.val < 1600000 then tgt (ix1 ⟨e.val, h⟩) else 4294967295#32)
  (hxp : ∀ (r : Fin 100352) (k : Fin 64), xp (ix2 r k) = if h : r.val < 100000 then x (ix2 ⟨r.val, h⟩ k) else 0)
  (hip : ∀ r : Fin 100352, ip (ix2 r 0) = if h : r.val < 100000 then Ideal.rsqrt (max (dg (ix1 ⟨r.val, h⟩)) 1) else 1)
  (hwb : wb = W) (hbb : ∀ d : Fin 64, bb (ix2 0 d) = b (ix1 d))

include hsrc hdg hsp hxp hip in
/-- A real edge's gathered row. -/
theorem gath_real (e : Fin 1600000) (k : Fin 64) :
    gathG sp xp ip (ix2 (⟨e.val, by omega⟩ : Fin 1601536) k)
      = Ideal.rsqrt (dg (ix1 ⟨(src (ix1 e)).toNat, hsrc e⟩)) * x (ix2 ⟨(src (ix1 e)).toNat, hsrc e⟩ k) := by
  have hlt : (src (ix1 e)).toNat < 100352 := by have := hsrc e; omega
  show (∑ node : Fin 100352, oh (sp (ix2 (⟨e.val, _⟩ : Fin 1601536) 0)) (BitVec.ofNat 32 node.val) * (xp (ix2 node k) * ip (ix2 node 0))) = _
  rw [sum_oh_node, hsp, dif_pos e.isLt]
  rw [dif_pos hlt, hxp, hip, dif_pos (hsrc e), dif_pos (hsrc e), max_eq_left (hdg _), mul_comm]

/-- The layer's result at node row `n` and feature column `d`, from the arguments and the in-degree `dg`. -/
def specOut (n : Fin 100000) (d : Fin 64) : EReal :=
  max ((∑ k : Fin 64, (Ideal.rsqrt (dg (ix1 n)) * (0 + ∑ e : Fin 1600000,
        if (tgt (ix1 e)).toInt = (n.val : Int) then
          Ideal.rsqrt (dg (ix1 ⟨(src (ix1 e)).toNat, hsrc e⟩)) * x (ix2 ⟨(src (ix1 e)).toNat, hsrc e⟩ k) else 0))
      * W (ix2 k d)) + b (ix1 d)) 0

include hdg hsp htp hxp hip hwb hbb in
theorem core (n : Fin 100000) (d : Fin 64) :
    scatG tp (gathG sp xp ip) ip wb bb (ix2 (⟨n.val, by omega⟩ : Fin 100352) d) = specOut x W b src tgt dg hsrc n d := by
  unfold specOut
  have hn : n.val < 100352 := by omega
  show max ((∑ k : Fin 64, ((∑ e : Fin 1601536, oh (BitVec.ofNat 32 n.val) (tp (ix2 0 e)) * gathG sp xp ip (ix2 e k))
      * ip (ix2 (⟨n.val, hn⟩ : Fin 100352) 0)) * wb (ix2 k d)) + bb (ix2 0 d)) 0 = _
  rw [hbb, hwb, hip, dif_pos n.isLt, max_eq_left (hdg _)]
  refine congrArg (fun z : EReal => max (z + b (ix1 d)) 0) ?_
  refine Finset.sum_congr rfl fun k _ => ?_
  refine congrArg (fun z : EReal => z * W (ix2 k d)) ?_
  rw [zero_add, mul_comm]
  refine congrArg (fun z : EReal => Ideal.rsqrt (dg (ix1 n)) * z) ?_
  rw [sum_pad _ (fun e he => by rw [htp, dif_neg (by omega), oh_neg_one _ hn, zero_mul])]
  refine Eq.trans (Finset.sum_congr rfl fun e _ => ?_) (sum_ite_mul (fun e : Fin 1600000 => (tgt (ix1 e)).toInt = (n.val : Int)) _)
  rw [htp, dif_pos e.isLt, oh_ofNat_left_int _ hn, gath_real x src dg sp xp ip hsrc hdg hsp hxp hip e k]

end

end Cert.Spec

end
-- ==== Proof.Algebraic.lean ====
/-
  The idealized kernel and the idealized reference compute one function of the arguments.

  At a node row n and a feature column d both are max(∑ₖ (r(n) · ∑_{e : target e = n} r(source e) · x(source e, k)) · W(k, d) + b(d), 0)
  with r the inverse square root of the in-degree: the kernel's two one-hot matrix products are the gather and the
  segment sum (a padded edge carries target word -1 and matches no node), and where every in-degree is at least one
  the kernel's clamp of the degree at one is the identity.
-/
import proofs.«407817_j53334903882610_2_alg».proof.Defs
import proofs.«407817_j53334903882610_2_alg».proof.Proof.Run
import proofs.«407817_j53334903882610_2_alg».proof.Proof.GatherValue
import proofs.«407817_j53334903882610_2_alg».proof.Proof.ScatterValue
import proofs.«407817_j53334903882610_2_alg».proof.Proof.HostVals
import proofs.«407817_j53334903882610_2_alg».proof.Proof.HostVals2
import proofs.«407817_j53334903882610_2_alg».proof.Proof.RefValue
import proofs.«407817_j53334903882610_2_alg».proof.Proof.HostVals3
import proofs.«407817_j53334903882610_2_alg».proof.Proof.PreFacts
import proofs.«407817_j53334903882610_2_alg».proof.Proof.Core

set_option maxRecDepth 16384

noncomputable section

namespace Cert.Hand

open Idealize.ShloMosaic Idealize.ShloMosaic.TcCoe Idealize.SL.Sem Idealize.ShloMosaic.ValueIdx
open Cert.Spec

section RefSpec
open Cert.ReferenceIdeal

variable (x : FVec Ideal S100000x64 .f32) (W : FVec Ideal S64x64 .f32) (b : FVec Ideal S64 .f32) (src tgt : IVec S1600000 32)
  (hsrc : ∀ e : Fin 1600000, (src (ix1 e)).toNat < 100000)

/-- The reference's result at a node row and a feature column. -/
theorem ref_spec (n : Fin 100000) (d : Fin 64) :
    Cert.ReferenceIdeal.Hand.refOut x W b src tgt (ix2 n d) = specOut x W b src tgt (Cert.ReferenceIdeal.Hand.deg tgt) hsrc n d := by
  rw [Cert.ReferenceIdeal.Hand.refOut_apply]
  unfold specOut
  refine congrArg (fun z : EReal => max (z + b (ix1 d)) 0) ?_
  refine Finset.sum_congr rfl fun k _ => ?_
  refine congrArg (fun z : EReal => z * W (ix2 k d)) ?_
  rw [Cert.ReferenceIdeal.Hand.pooled_apply]
  refine congrArg (fun z : EReal => Ideal.rsqrt (Cert.ReferenceIdeal.Hand.deg tgt (ix1 n)) * (0 + z)) ?_
  refine Finset.sum_congr rfl fun e _ => ?_
  rw [Cert.ReferenceIdeal.Hand.gathered_apply x src tgt hsrc e k, Cert.ReferenceIdeal.Hand.normalized_apply]

end RefSpec

section
open Cert.KernelIdeal Cert.KernelIdeal.Gen Cert.KernelIdeal.Hand

variable (m : (ℓ : Loc nD τ sig) → Buf (Elt Ideal) ℓ) (c : Dev nD)

/-- The in-degree as the kernel's program, the reference and the precondition spell it: one term. -/
theorem kdeg_eq_deg : (kdeg m c : S100000.Idx → EReal) = Cert.ReferenceIdeal.Hand.deg (m ((c : Thread nD τ).loc main_arg4)) := rfl
theorem pdeg_eq_deg (tgt : IVec S1600000 32) : Cert.Hand.pdeg tgt = Cert.ReferenceIdeal.Hand.deg tgt := rfl

/-- The kernel program's result at a node row and a feature column. -/
theorem kernel_apply
    (hsrc : ∀ e : Fin 1600000, ((m ((c : Thread nD τ).loc main_arg3) : S1600000.Idx → BitVec 32) (ix1 e)).toNat < 100000)
    (hdg : ∀ n : Fin 100000, 1 ≤ Cert.ReferenceIdeal.Hand.deg (m ((c : Thread nD τ).loc main_arg4)) (ix1 n)) (n : Fin 100000) (d : Fin 64) :
    (Gen.V12 m (outs m) c main_v18 : S100000x64.Idx → EReal) (ix2 n d)
      = specOut (m ((c : Thread nD τ).loc main_arg0)) (m ((c : Thread nD τ).loc main_arg1)) (m ((c : Thread nD τ).loc main_arg2))
          (m ((c : Thread nD τ).loc main_arg3)) (m ((c : Thread nD τ).loc main_arg4))
          (Cert.ReferenceIdeal.Hand.deg (m ((c : Thread nD τ).loc main_arg4))) hsrc n d := by
  rw [V12_v18 m c (outs m) n d, outs_11 m c, arrAt1 (Vin1 m) c]
  have h16 : (Vin1 m c main_v16 : S1601536x64.Idx → EReal) = gathG (Gen.V9 m c main_v12) (Gen.V9 m c main_v9) (Gen.V9 m c main_v11) := by
    show Gen.V10 m (outs m) c main_v16 = _
    rw [V10_v16 m c (outs m), outs_10 m c, arrAt0 (Vin0 m) c]
  have hk := V10_keep m c (outs m)
  have h13 : (Vin1 m c main_v13) = Gen.V9 m c main_v13 := hk.1
  have h11 : (Vin1 m c main_v11) = Gen.V9 m c main_v11 := hk.2.1
  have h14 : (Vin1 m c main_v14) = Gen.V9 m c main_v14 := hk.2.2.1
  have h15 : (Vin1 m c main_v15) = Gen.V9 m c main_v15 := hk.2.2.2
  rw [h16, h13, h11, h14, h15]
  exact core (m ((c : Thread nD τ).loc main_arg0)) (m ((c : Thread nD τ).loc main_arg1)) (m ((c : Thread nD τ).loc main_arg2))
    (m ((c : Thread nD τ).loc main_arg3)) (m ((c : Thread nD τ).loc main_arg4)) (Cert.ReferenceIdeal.Hand.deg (m ((c : Thread nD τ).loc main_arg4)))
    (Gen.V9 m c main_v12) (Gen.V9 m c main_v13) (Gen.V9 m c main_v9) (Gen.V9 m c main_v11) (Gen.V9 m c main_v14) (Gen.V9 m c main_v15)
    hsrc hdg (V9_v12 m c) (V9_v13 m c) (V9_v9 m c) (V9_v11 m c) (V9_v14 m c) (V9_v15 m c) n d

/-- The kernel program's result is the reference's. -/
theorem kernel_eq_ref
    (hpre : Cert.Pre_finite_inputs.fn (F := Ideal) (m ((c : Thread nD τ).loc main_arg0)) (m ((c : Thread nD τ).loc main_arg1))
      (m ((c : Thread nD τ).loc main_arg2)) (m ((c : Thread nD τ).loc main_arg3)) (m ((c : Thread nD τ).loc main_arg4)) = fun _ => 1#1) :
    (Gen.V12 m (outs m) c main_v18 : S100000x64.Idx → EReal)
      = Cert.ReferenceIdeal.Hand.refOut (m ((c : Thread nD τ).loc main_arg0)) (m ((c : Thread nD τ).loc main_arg1))
          (m ((c : Thread nD τ).loc main_arg2)) (m ((c : Thread nD τ).loc main_arg3)) (m ((c : Thread nD τ).loc main_arg4)) := by
  have hsrc : ∀ e : Fin 1600000, ((m ((c : Thread nD τ).loc main_arg3) : S1600000.Idx → BitVec 32) (ix1 e)).toNat < 100000 :=
    Cert.Hand.src_range _ _ _ _ _ hpre
  have hdg : ∀ n : Fin 100000, 1 ≤ Cert.ReferenceIdeal.Hand.deg (m ((c : Thread nD τ).loc main_arg4)) (ix1 n) :=
    fun n => by
      have h := Cert.Hand.deg_ge_one _ _ _ _ _ hpre n
      rw [pdeg_eq_deg] at h
      exact h
  funext i
  obtain ⟨n, d, rfl⟩ : ∃ (n : Fin 100000) (d : Fin 64), i = ix2 n d := ⟨i 0, i 1, eq_ix2 i⟩
  exact (kernel_apply m c hsrc hdg n d).trans (ref_spec _ _ _ _ _ hsrc n d).symm

end

/-- The idealized kernel and the idealized reference, run from memories that agree on the arguments, end with equal results. -/
theorem algebraic : Cert.algebraic_KernelIdeal_ReferenceIdeal := by
  intro m ρ m' ρ' hpre hagree
  refine ⟨fun c => Cert.KernelIdeal.Gen.V12 m (Cert.KernelIdeal.Hand.outs m) c Cert.KernelIdeal.main_v18, Cert.KernelIdeal.Hand.run_main m ρ, ?_⟩
  refine (θ_run Cert.ReferenceIdeal.defs _ _).mono (fun r h c => ⟨(h c).1.trans ?_, (h c).2⟩) (Cert.ReferenceIdeal.Hand.ref_run m' ρ')
  rw [(hagree c).1, (hagree c).2.1, (hagree c).2.2.1, (hagree c).2.2.2.1, (hagree c).2.2.2.2]
  exact (kernel_eq_ref m c (hpre c)).symm

end Cert.Hand

end
-- ==== Proof.lean ====
/-
  The certificate of a graph-convolution layer computed by two kernels — a gather and a segment sum, both as
  products with one-hot masks, the second followed by the dense layer — against its plain reference.

  The three frames: the word-level and the idealized kernel program run their ten host stretches and two kernel
  regions to the end and leave the arguments unchanged (each region from its body's three cases — the accumulator
  reset at a tile's first point, accumulated between, stored at its last — and the launch over both regions); the
  reference is a host program whose run is read off its operations. The idealization rewrites nothing. Over the
  extended reals, where every source id names a node and every node has an incoming edge, both programs compute
  max(∑ₖ (r(n) · ∑_{e : target e = n} r(source e) · x(source e, k)) · W(k, d) + b(d), 0), r the inverse square
  root of the in-degree.
-/
import proofs.«407817_j53334903882610_2_alg».proof.Defs
import proofs.«407817_j53334903882610_2_alg».proof.Proof.Gen.Kernel
import proofs.«407817_j53334903882610_2_alg».proof.Proof.Gen.KernelIdeal
import proofs.«407817_j53334903882610_2_alg».proof.Proof.Gen.ReferenceIdeal
import proofs.«407817_j53334903882610_2_alg».proof.Proof.Gen.Pre_finite_inputs
import proofs.«407817_j53334903882610_2_alg».proof.Proof.KRun
import proofs.«407817_j53334903882610_2_alg».proof.Proof.Run
import proofs.«407817_j53334903882610_2_alg».proof.Proof.RefValue
import proofs.«407817_j53334903882610_2_alg».proof.Proof.Algebraic
import Idealize.ShloMosaic.Adequacy
import Idealize.ShloMosaic.Init

noncomputable section

namespace Cert.Proof

open Idealize.ShloMosaic Idealize.SL.Sem

theorem frame_k : Cert.frame_Kernel := fun m ρ _ => Cert.Kernel.Hand.frame m ρ

theorem frame_ki : Cert.frame_KernelIdeal := fun m ρ _ => Cert.KernelIdeal.Hand.frame m ρ

theorem frame_ri : Cert.frame_ReferenceIdeal := fun m ρ _ =>
  (θ_run Cert.ReferenceIdeal.defs _ _).mono (fun _ h c => (h c).2) (Cert.ReferenceIdeal.Hand.ref_run m ρ)

theorem claim : Cert.Claim := ⟨Cert.Kernel.Gen.facts, Cert.KernelIdeal.Gen.facts, Cert.ReferenceIdeal.Gen.facts, Cert.Pre_finite_inputs.Gen.facts,
  frame_k, frame_ki, frame_ri, trivial, Cert.Hand.algebraic⟩

end Cert.Proof

end
